-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x3 .f32) (main_arg1 : IVec S2x1600000 32) (main_arg2 : IVec S100000 32) (main_arg3 : FVec F S3x128 .f32) (main_arg4 : FVec F S128 .f32) (main_arg5 : FVec F S128x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x128 .f32 := Host.absf main_arg3
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x3 : Shape := ⟨2, ![1700000, 3]⟩
abbrev S1x128 : Shape := ⟨2, ![1, 128]⟩
abbrev S100000x128 : Shape := ⟨2, ![100000, 128]⟩
abbrev S4000x3 : Shape := ⟨2, ![4000, 3]⟩
abbrev S4000x128 : Shape := ⟨2, ![4000, 128]⟩
abbrev S1700000x128 : Shape := ⟨2, ![1700000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 118
  | .vmem => 23
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x3, .f32⟩
  | .hbm, ⟨60, _⟩ => ⟨S1700000x1, .f32⟩
  | .hbm, ⟨61, _⟩ => ⟨S1700000x3, .f32⟩
  | .hbm, ⟨62, _⟩ => ⟨S1700000x3, .f32⟩
  | .hbm, ⟨63, _⟩ => ⟨S_, .f32⟩
  | .hbm, ⟨64, _⟩ => ⟨S100000x3, .f32⟩
  | .hbm, ⟨65, _⟩ => ⟨S1700000x1, .i32⟩
  | .hbm, ⟨66, _⟩ => ⟨S100000x3, .f32⟩
  | .hbm, ⟨67, _⟩ => ⟨S1x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x128, .f32⟩
  | .hbm, ⟨96, _⟩ => ⟨S1700000x1, .f32⟩
  | .hbm, ⟨97, _⟩ => ⟨S1700000x128, .f32⟩
  | .hbm, ⟨98, _⟩ => ⟨S1700000x128, .f32⟩
  | .hbm, ⟨99, _⟩ => ⟨S_, .f32⟩
  | .hbm, ⟨100, _⟩ => ⟨S100000x128, .f32⟩
  | .hbm, ⟨101, _⟩ => ⟨S1700000x1, .i32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S_, .f32⟩
  | .hbm, ⟨106, _⟩ => ⟨S512x128, .f32⟩
  | .hbm, ⟨107, _⟩ => ⟨S100000x1, .i32⟩
  | .hbm, ⟨108, _⟩ => ⟨S512x128, .f32⟩
  | .hbm, ⟨109, _⟩ => ⟨S_, .f32⟩
  | .hbm, ⟨110, _⟩ => ⟨S100000, .f32⟩
  | .hbm, ⟨111, _⟩ => ⟨S_, .f32⟩
  | .hbm, ⟨112, _⟩ => ⟨S512, .f32⟩
  | .hbm, ⟨113, _⟩ => ⟨S100000x1, .i32⟩
  | .hbm, ⟨114, _⟩ => ⟨S512, .f32⟩
  | .hbm, ⟨115, _⟩ => ⟨S512x1, .f32⟩
  | .hbm, ⟨116, _⟩ => ⟨S1x2, .f32⟩
  | .hbm, ⟨117, _⟩ => ⟨S512x2, .f32⟩
  | .local _ .vmem, ⟨0, _⟩ => ⟨S4000x3, .f32⟩
  | .local _ .vmem, ⟨1, _⟩ => ⟨S4000x3, .f32⟩
  | .local _ .vmem, ⟨2, _⟩ => ⟨S3x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S512x128, .f32⟩
  | .local _ .vmem, ⟨19, _⟩ => ⟨S512x1, .f32⟩
  | .local _ .vmem, ⟨20, _⟩ => ⟨S128x2, .f32⟩
  | .local _ .vmem, ⟨21, _⟩ => ⟨S1x2, .f32⟩
  | .local _ .vmem, ⟨22, _⟩ => ⟨S512x2, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  shapeCasts_S128_S1x128 : S128.ShapeCasts S1x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  shapeCasts_S512_S512x1 : S512.ShapeCasts S512x1
  shapeCasts_S2_S1x2 : S2.ShapeCasts S1x2
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S512x1_S512x128 : S512x1.Broadcasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  dot_S4000x3_S3x128_S4000x128_1_0_0_1_n_n_wf : DotDims.WF S4000x3 S3x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S100000x3.size a
  hwx0_0 : ∀ i : grid0.Coords, EltTy.bits .f32 = 32 ∨ (Rect.block (s := S100000x3) S4000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x1.size a ≤ S512x1.size a
  hwx3_1 : ∀ i : grid3.Coords, EltTy.bits .f32 = 32 ∨ (Rect.block (s := S512x1) S512x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x2.size a ≤ S128x2.size a
  hwx3_2 : ∀ i : grid3.Coords, EltTy.bits .f32 = 32 ∨ (Rect.block (s := S128x2) S128x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x2.size a ≤ S512x2.size a
  hwx3_4 : ∀ i : grid3.Coords, EltTy.bits .f32 = 32 ∨ (Rect.block (s := S512x2) S512x2.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf
def dot_S4000x3_S3x128_S4000x128_1_0_0_1_n_n : DotDims S4000x3 S3x128 S4000x128 where
  lhsContracting := [1]
  rhsContracting := [0]
  lhsNonContracting := [0]
  rhsNonContracting := [1]
  lhsBatch := []
  rhsBatch := []
  wf := dot_S4000x3_S3x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_v42) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v57) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v82) S512x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S512x2.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 140
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x128, .f32⟩
  | 107 => ⟨S1700000x1, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S512x128, .f32⟩
  | 122 => ⟨S100000x1, .i32⟩
  | 123 => ⟨S512x128, .f32⟩
  | 124 => ⟨S_, .f32⟩
  | 125 => ⟨S100000, .f32⟩
  | 126 => ⟨S_, .f32⟩
  | 127 => ⟨S512, .f32⟩
  | _ => ⟨S100000x3, .f32⟩

abbrev hbmTy0_1 (i : Nat) : BufTy := match i % 128 with
  | 0 => ⟨S100000x1, .i32⟩
  | 1 => ⟨S512, .f32⟩
  | 2 => ⟨S_, .f32⟩
  | 3 => ⟨S512, .f32⟩
  | 4 => ⟨S512, .f32⟩
  | 5 => ⟨S512x1, .f32⟩
  | 6 => ⟨S512x128, .f32⟩
  | 7 => ⟨S512x128, .f32⟩
  | 8 => ⟨S512x2, .f32⟩
  | 9 => ⟨S1x2, .f32⟩
  | 10 => ⟨S512x2, .f32⟩
  | 11 => ⟨S512x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x3_S3x128_S100000x128_1_0_0_1_n_n_wf : DotDims.WF S100000x3 S3x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KTerms.lean ====
/-
  The arrays the kernel program's host stretches build, as functions of what they read.

  Each layer's stretch gathers the rows the edges read, scales row `e` by the edge's weight (a vector made a column
  and repeated along the row), and adds the scaled rows into zeros at the edges' destinations: `aggArr`. The source
  numbers pass through the indexing rule "a negative number counts from the end" before they are read (`wrapCol`);
  the destinations are used as they are (`rawCol`). The last stretch sums the rows of the last layer per graph
  (`poolArr`) and counts the nodes of each graph (`countArr`).
-/
import proofs.«126862_j35218731827641_1_alg».proof.KernelIdeal
import proofs.«126862_j35218731827641_1_alg».proof.Proof.Gen.KernelIdeal
import Idealize.ShloMosaic.PureOps.Ideal

noncomputable section

namespace Cert.KernelIdeal.Terms

open Cert.KernelIdeal Idealize.ShloMosaic
open Cert.KernelIdeal.Facts₀ Cert.KernelIdeal.Facts

/-- A vector of words through the indexing rule, as a column of start indices. -/
def wrapCol (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- A vector of words as a column of scatter indices. -/
def rawCol (s : IVec S1700000 32) : IVec S1700000x1 32 :=
  broadcastInDim S1700000x1 ![0] bcast_S1700000_S1700000x1_0 s

/-- The aggregate of three-column rows. -/
def aggArr3 (h : FVec Ideal S100000x3 .f32) (s d : IVec S1700000 32) (n : FVec Ideal S1700000 .f32) :
    FVec Ideal S100000x3 .f32 :=
  Host.scatterAdd scatter_S100000x3_S1700000x1_S1700000x3_1_0_0_1
    (broadcastInDim S100000x3 ![] bcast_S_S100000x3 (constant (F := Ideal) S_ .f32 0x00000000#32)) (rawCol d)
    (mulf (Host.gather gather_S100000x3_S1700000x1_S1700000x3_1_0_n_n_0_1_13 h (wrapCol s))
      (broadcastInDim S1700000x3 ![0, 1] bcast_S1700000x1_S1700000x3_0_1
        (broadcastInDim S1700000x1 ![0] bcast_S1700000_S1700000x1_0 n)))

/-- The aggregate of 128-column rows. -/
def aggArr128 (h : FVec Ideal S100000x128 .f32) (s d : IVec S1700000 32) (n : FVec Ideal S1700000 .f32) :
    FVec Ideal S100000x128 .f32 :=
  Host.scatterAdd scatter_S100000x128_S1700000x1_S1700000x128_1_0_0_1
    (broadcastInDim S100000x128 ![] bcast_S_S100000x128 (constant (F := Ideal) S_ .f32 0x00000000#32)) (rawCol d)
    (mulf (Host.gather gather_S100000x128_S1700000x1_S1700000x128_1_0_n_n_0_1_1128 h (wrapCol s))
      (broadcastInDim S1700000x128 ![0, 1] bcast_S1700000x1_S1700000x128_0_1
        (broadcastInDim S1700000x1 ![0] bcast_S1700000_S1700000x1_0 n)))

/-- The per-graph sums of the rows. -/
def poolArr (h : FVec Ideal S100000x128 .f32) (g : IVec S100000 32) : FVec Ideal S512x128 .f32 :=
  Host.scatterAdd scatter_S512x128_S100000x1_S100000x128_1_0_0_1
    (broadcastInDim S512x128 ![] bcast_S_S512x128 (constant (F := Ideal) S_ .f32 0x00000000#32))
    (broadcastInDim S100000x1 ![0] bcast_S100000_S100000x1_0 g) h

/-- The per-graph node counts. -/
def countArr (g : IVec S100000 32) : FVec Ideal S512 .f32 :=
  Host.scatterAdd scatter_S512_S100000x1_S100000_n_0_0_1
    (broadcastInDim S512 ![] bcast_S_S512 (constant (F := Ideal) S_ .f32 0x00000000#32))
    (broadcastInDim S100000x1 ![0] bcast_S100000_S100000x1_0 g)
    (broadcastInDim S100000 ![] bcast_S_S100000 (constant (F := Ideal) S_ .f32 0x3F800000#32))

end Cert.KernelIdeal.Terms

end
-- ==== Proof.KHost.lean ====
/-
  What the host stretches of the kernel program write, over any contents `W` they start from.

  The stretch before the first region builds the two index vectors (sources and destinations, the self loops appended),
  the edge weights, the first layer's aggregate of the raw features and the first bias as a one-row matrix. The
  stretches between the regions build the next layer's aggregate from the previous region's output and the next bias.
  The last stretch builds the per-graph sums, the per-graph counts as a one-column matrix and the head's bias. The
  index vectors and the weights are the same operations, on the same argument, as the reference's stages of those
  names; every buffer a stretch does not write keeps its contents.

  The stretch before the first region is three lists of operations run one after the other. Each list is read by
  itself, over any contents it starts from: what it leaves in the buffers the next list reads, and which buffers it
  writes at all. The facts about the whole stretch are these composed.
-/
import proofs.«126862_j35218731827641_1_alg».proof.Proof.Gen.KernelIdeal.Launch
import proofs.«126862_j35218731827641_1_alg».proof.Proof.KTerms
import proofs.«126862_j35218731827641_1_alg».proof.Proof.RefRead
import Idealize.ShloMosaic.Lib.StableHlo.Run

noncomputable section

open scoped BigOperators

namespace Cert.KernelIdeal.Host

open Cert.KernelIdeal Cert.KernelIdeal.Gen Cert.KernelIdeal.Terms
open Cert.KernelIdeal.Facts₀ Cert.KernelIdeal.Facts
open Idealize.ShloMosaic Idealize.ShloMosaic.TcCoe Idealize.ShloMosaic.StableHlo

variable {F : FTy → Type} [FloatOps F]

/-! ## The buffers each list of operations writes

A buffer that is none of them keeps its contents through the list. -/

/-- The results of the first list before the first region. -/
private abbrev wr0 : List (Ref sig .tc) :=
  [main_v0, main_v1, main_v2, main_v3, main_v4, main_v5, main_v6, main_cst, main_v7, main_cst_0, main_v8, main_v9,
   main_v10, main_cst_1, main_v11, main_v12, main_v13, main_cst_2]

/-- The results of the second list before the first region (the selection of the per-node factor where the degree is positive). -/
private abbrev wr0_1 : List (Ref sig .tc) := [main_call0_v0, main_call0_v1, main_v14]

/-- The results of the third list before the first region. -/
private abbrev wr0_2 : List (Ref sig .tc) :=
  [main_c, main_v15, main_v16, main_c_3, main_v17, main_v18, main_v19, main_v20, main_v21, main_c_4, main_v22,
   main_v23, main_c_5, main_v24, main_v25, main_v26, main_v27, main_v28, main_v29, main_c_6, main_v30, main_v31,
   main_c_7, main_v32, main_v33, main_v34, main_v35, main_v36, main_v37, main_v38, main_v39, main_cst_8, main_v40,
   main_v41, main_v42, main_v43]

/-- The results of the list between the first and the second region. -/
private abbrev wr1 : List (Ref sig .tc) :=
  [main_c_9, main_v45, main_v46, main_c_10, main_v47, main_v48, main_v49, main_v50, main_v51, main_v52, main_v53,
   main_v54, main_cst_11, main_v55, main_v56, main_v57, main_v58]

/-- The results of the list between the second and the third region. -/
private abbrev wr2 : List (Ref sig .tc) :=
  [main_c_12, main_v60, main_v61, main_c_13, main_v62, main_v63, main_v64, main_v65, main_v66, main_v67, main_v68,
   main_v69, main_cst_14, main_v70, main_v71, main_v72, main_v73]

/-- The results of the list between the third and the last region. -/
private abbrev wr3 : List (Ref sig .tc) :=
  [main_cst_15, main_v75, main_v76, main_v77, main_cst_16, main_v78, main_cst_17, main_v79, main_v80, main_v81,
   main_v82, main_v83]

/-- An operation that writes the one buffer of a reference on a list writes inside the list's buffers. -/
private theorem single_sub_of_mem {y : Ref sig .tc} {l : List (Ref sig .tc)} (h : y ∈ l) :
    ({Proc.devRef (τ := τ) .tc y} : Finset (DevRef τ sig)) ⊆ (l.map (Proc.devRef (τ := τ) .tc)).toFinset :=
  Finset.singleton_subset_iff.mpr (List.mem_toFinset.mpr (List.mem_map_of_mem h))

private theorem writes0 :
    (hostOps0 (F := F)).Forall fun op => op.writes ⊆ (wr0.map (Proc.devRef (τ := τ) .tc)).toFinset := by
  simp only [hostOps0, List.Forall, nullary_writes, unary_writes, binary_writes, ternary_writes, reshape_writes]
  repeat' apply And.intro
  all_goals exact single_sub_of_mem (by decide)

private theorem writes0_1 :
    (hostOps0_1 (F := F)).Forall fun op => op.writes ⊆ (wr0_1.map (Proc.devRef (τ := τ) .tc)).toFinset := by
  simp only [hostOps0_1, List.Forall, nullary_writes, unary_writes, binary_writes, ternary_writes, reshape_writes]
  repeat' apply And.intro
  all_goals exact single_sub_of_mem (by decide)

private theorem writes0_2 :
    (hostOps0_2 (F := F)).Forall fun op => op.writes ⊆ (wr0_2.map (Proc.devRef (τ := τ) .tc)).toFinset := by
  simp only [hostOps0_2, List.Forall, nullary_writes, unary_writes, binary_writes, ternary_writes, reshape_writes]
  repeat' apply And.intro
  all_goals exact single_sub_of_mem (by decide)

private theorem writes1 :
    (hostOps1 (F := F)).Forall fun op => op.writes ⊆ (wr1.map (Proc.devRef (τ := τ) .tc)).toFinset := by
  simp only [hostOps1, List.Forall, nullary_writes, unary_writes, binary_writes, ternary_writes, reshape_writes]
  repeat' apply And.intro
  all_goals exact single_sub_of_mem (by decide)

private theorem writes2 :
    (hostOps2 (F := F)).Forall fun op => op.writes ⊆ (wr2.map (Proc.devRef (τ := τ) .tc)).toFinset := by
  simp only [hostOps2, List.Forall, nullary_writes, unary_writes, binary_writes, ternary_writes, reshape_writes]
  repeat' apply And.intro
  all_goals exact single_sub_of_mem (by decide)

private theorem writes3 :
    (hostOps3 (F := F)).Forall fun op => op.writes ⊆ (wr3.map (Proc.devRef (τ := τ) .tc)).toFinset := by
  simp only [hostOps3, List.Forall, nullary_writes, unary_writes, binary_writes, ternary_writes, reshape_writes]
  repeat' apply And.intro
  all_goals exact single_sub_of_mem (by decide)

/-- A buffer none of the three lists before the first region writes holds after them what it held before. -/
private theorem pre_keep {r : Ref sig .tc} (V : Valuation τ sig (Elt F)) (h0 : r ∉ wr0) (h1 : r ∉ wr0_1) (h2 : r ∉ wr0_2) :
    after (hostOps0_2 (F := F)) (after (hostOps0_1 (F := F)) (after (hostOps0 (F := F)) V)) (Proc.devRef .tc r)
      = V (Proc.devRef .tc r) :=
  ((after_of_writes_sub _ _ writes0_2 h2).trans (after_of_writes_sub _ _ writes0_1 h1)).trans
    (after_of_writes_sub _ _ writes0 h0)

/-- A buffer the second and the third list do not write holds after the three what the first list leaves. -/
private theorem pre_eq_first {r : Ref sig .tc} (V : Valuation τ sig (Elt F)) (h1 : r ∉ wr0_1) (h2 : r ∉ wr0_2) :
    after (hostOps0_2 (F := F)) (after (hostOps0_1 (F := F)) (after (hostOps0 (F := F)) V)) (Proc.devRef .tc r)
      = after (hostOps0 (F := F)) V (Proc.devRef .tc r) :=
  (after_of_writes_sub _ _ writes0_2 h2).trans (after_of_writes_sub _ _ writes0_1 h1)

/-- A buffer the second list does not write holds after the first two what the first list leaves. -/
private theorem mid_eq_first {r : Ref sig .tc} (V : Valuation τ sig (Elt F)) (h1 : r ∉ wr0_1) :
    after (hostOps0_1 (F := F)) (after (hostOps0 (F := F)) V) (Proc.devRef .tc r)
      = after (hostOps0 (F := F)) V (Proc.devRef .tc r) :=
  after_of_writes_sub _ _ writes0_1 h1

/-- A buffer the first two lists do not write holds after them what it held before. -/
private theorem mid_keep {r : Ref sig .tc} (V : Valuation τ sig (Elt F)) (h0 : r ∉ wr0) (h1 : r ∉ wr0_1) :
    after (hostOps0_1 (F := F)) (after (hostOps0 (F := F)) V) (Proc.devRef .tc r) = V (Proc.devRef .tc r) :=
  (after_of_writes_sub _ _ writes0_1 h1).trans (after_of_writes_sub _ _ writes0 h0)

/-! ## The first list before the first region: the index vectors, and what the weights are made of -/

/-- The first list leaves the source numbers: the first row of the edge list, the self loops appended. -/
private theorem a0_v3 (V : Valuation τ sig (Elt F)) : after (hostOps0 (F := F)) V (Proc.devRef .tc main_v3)
    = Cert.ReferenceIdeal.ReadP.val_main_v3 (F := F) (V (Proc.devRef .tc main_arg1)) := by
  after_results
  rfl

/-- The first list leaves the destination numbers: the second row of the edge list, the self loops appended. -/
private theorem a0_v6 (V : Valuation τ sig (Elt F)) : after (hostOps0 (F := F)) V (Proc.devRef .tc main_v6)
    = Cert.ReferenceIdeal.ReadP.val_main_v6 (F := F) (V (Proc.devRef .tc main_arg1)) := by
  after_results
  rfl

/-- The first list leaves where a node's degree (ones added at the destinations) is positive. -/
private theorem a0_v12 (V : Valuation τ sig (Elt F)) : after (hostOps0 (F := F)) V (Proc.devRef .tc main_v12)
    = Cert.ReferenceIdeal.ReadP.val_main_v12 (F := F) (V (Proc.devRef .tc main_arg1)) := by
  after_results
  rfl

/-- The first list leaves the degrees' inverse square roots. -/
private theorem a0_v13 (V : Valuation τ sig (Elt F)) : after (hostOps0 (F := F)) V (Proc.devRef .tc main_v13)
    = Cert.ReferenceIdeal.ReadP.val_main_v13 (F := F) (V (Proc.devRef .tc main_arg1)) := by
  after_results
  rfl

/-- The first list leaves the zero that stands where a degree is not positive. -/
private theorem a0_cst_2 (V : Valuation τ sig (Elt F)) : after (hostOps0 (F := F)) V (Proc.devRef .tc main_cst_2)
    = Cert.ReferenceIdeal.ReadP.val_main_cst_2 (F := F) := by
  after_results
  rfl

/-! ## The second list: the selection -/

/-- The second list selects the inverse square root where the degree is positive, zero elsewhere. -/
private theorem a1_v14 (V : Valuation τ sig (Elt F)) : after (hostOps0_1 (F := F)) V (Proc.devRef .tc main_v14)
    = select (V (Proc.devRef .tc main_v12)) (V (Proc.devRef .tc main_v13))
        (broadcastInDim S100000 ![] Gen.bcast_S_S100000 (id (V (Proc.devRef .tc main_cst_2)))) := by
  after_results
  rfl

/-- After the first two lists the per-node factor is the reference's. -/
private theorem a01_v14 (V : Valuation τ sig (Elt F)) :
    after (hostOps0_1 (F := F)) (after (hostOps0 (F := F)) V) (Proc.devRef .tc main_v14)
      = Cert.ReferenceIdeal.ReadP.val_main_v14 (F := F) (V (Proc.devRef .tc main_arg1)) :=
  (a1_v14 _).trans (by
    rw [a0_v12, a0_v13, a0_cst_2]
    rfl)

/-! ## The third list: the weights, the first aggregate, the first bias -/

/-- An edge's weight: the per-node factor read at its source times the factor read at its destination, both numbers
    through the indexing rule. -/
private def edgeWeights (n : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 n
          (broadcastInDim S1700000x1 ![0] Gen.bcast_S1700000_S1700000x1_0
            (select (cmpi .slt s (broadcastInDim S1700000 ![] Gen.bcast_S_S1700000 (constantI S_ 32 0#32)))
              (addi s (broadcastInDim S1700000 ![] Gen.bcast_S_S1700000 (constantI S_ 32 100000#32))) s)))
        (Host.gather gather_S100000_S1700000x1_S1700000_n_0_n_n_0_1_1 n
          (broadcastInDim S1700000x1 ![0] Gen.bcast_S1700000_S1700000x1_0
            (select (cmpi .slt d (broadcastInDim S1700000 ![] Gen.bcast_S_S1700000 (constantI S_ 32 0#32)))
              (addi d (broadcastInDim S1700000 ![] Gen.bcast_S_S1700000 (constantI S_ 32 100000#32))) d)))

/-- The third list leaves the edge weights. -/
private theorem a2_v29 (V : Valuation τ sig (Elt F)) : after (hostOps0_2 (F := F)) V (Proc.devRef .tc main_v29)
    = edgeWeights (F := F) (V (Proc.devRef .tc main_v14)) (V (Proc.devRef .tc main_v3)) (V (Proc.devRef .tc main_v6)) := by
  unfold edgeWeights
  after_results_simp

/-- The edge weights over the reference's factor and index vectors are the reference's. -/
private theorem edgeWeights_ref (x1 : (⟨S2x1600000, .i32⟩ : BufTy).Contents (Elt F)) :
    edgeWeights (F := F) (Cert.ReferenceIdeal.ReadP.val_main_v14 (F := F) x1) (Cert.ReferenceIdeal.ReadP.val_main_v3 (F := F) x1)
        (Cert.ReferenceIdeal.ReadP.val_main_v6 (F := F) x1)
      = Cert.ReferenceIdeal.ReadP.val_main_v29 (F := F) x1 := rfl

/-- The third list's aggregate, over the weights it makes. -/
private theorem a2_v42 (V : Valuation τ sig (Elt Ideal)) : after (hostOps0_2 (F := Ideal)) V (Proc.devRef .tc main_v42)
    = aggArr3 (V (Proc.devRef .tc main_arg0)) (V (Proc.devRef .tc main_v3)) (V (Proc.devRef .tc main_v6))
        (edgeWeights (F := Ideal) (V (Proc.devRef .tc main_v14)) (V (Proc.devRef .tc main_v3)) (V (Proc.devRef .tc main_v6))) := by
  unfold aggArr3 edgeWeights wrapCol rawCol
  after_results_simp

/-- The third list's one-row bias. -/
private theorem a2_v43 (V : Valuation τ sig (Elt Ideal)) : after (hostOps0_2 (F := Ideal)) V (Proc.devRef .tc main_v43)
    = shapeCast S1x128 (V (Proc.devRef .tc main_arg4)) Facts₀.shapeCasts_S128_S1x128 := by
  after_results
  rfl

/-! ## Between the regions, and before the last -/

/-- The list between two regions aggregates the rows the region before it left: the same operations in each of
    the two lists. -/
private theorem a3_v57 (V : Valuation τ sig (Elt Ideal)) : after (hostOps1 (F := Ideal)) V (Proc.devRef .tc main_v57)
    = aggArr128 (V (Proc.devRef .tc main_v44)) (V (Proc.devRef .tc main_v3)) (V (Proc.devRef .tc main_v6))
        (V (Proc.devRef .tc main_v29)) := by
  unfold aggArr128 wrapCol rawCol
  after_results_simp

private theorem a4_v72 (V : Valuation τ sig (Elt Ideal)) : after (hostOps2 (F := Ideal)) V (Proc.devRef .tc main_v72)
    = aggArr128 (V (Proc.devRef .tc main_v59)) (V (Proc.devRef .tc main_v3)) (V (Proc.devRef .tc main_v6))
        (V (Proc.devRef .tc main_v29)) := by
  unfold aggArr128 wrapCol rawCol
  after_results_simp

variable (W : Valuation τ sig (Elt Ideal))

/-- The contents after the three stretches that come before the first region. -/
abbrev pre : Valuation τ sig (Elt Ideal) :=
  after (hostOps0_2 (F := Ideal)) (after (hostOps0_1 (F := Ideal)) (after (hostOps0 (F := Ideal)) W))

/-! ## Before the first region -/

theorem pre_v3 : pre W (Proc.devRef .tc main_v3) = Cert.ReferenceIdeal.ReadP.val_main_v3 (F := Ideal) (W (Proc.devRef .tc main_arg1)) :=
  (pre_eq_first W (by decide) (by decide)).trans (a0_v3 W)

theorem pre_v6 : pre W (Proc.devRef .tc main_v6) = Cert.ReferenceIdeal.ReadP.val_main_v6 (F := Ideal) (W (Proc.devRef .tc main_arg1)) :=
  (pre_eq_first W (by decide) (by decide)).trans (a0_v6 W)

/-- What the third list reads of the first two: the per-node factor and the two index vectors are the reference's. -/
private theorem mid_v14 : after (hostOps0_1 (F := Ideal)) (after (hostOps0 (F := Ideal)) W) (Proc.devRef .tc main_v14)
    = Cert.ReferenceIdeal.ReadP.val_main_v14 (F := Ideal) (W (Proc.devRef .tc main_arg1)) := a01_v14 W
private theorem mid_v3 : after (hostOps0_1 (F := Ideal)) (after (hostOps0 (F := Ideal)) W) (Proc.devRef .tc main_v3)
    = Cert.ReferenceIdeal.ReadP.val_main_v3 (F := Ideal) (W (Proc.devRef .tc main_arg1)) :=
  (mid_eq_first W (by decide)).trans (a0_v3 W)
private theorem mid_v6 : after (hostOps0_1 (F := Ideal)) (after (hostOps0 (F := Ideal)) W) (Proc.devRef .tc main_v6)
    = Cert.ReferenceIdeal.ReadP.val_main_v6 (F := Ideal) (W (Proc.devRef .tc main_arg1)) :=
  (mid_eq_first W (by decide)).trans (a0_v6 W)

/-- The weights the third list makes from them are the reference's. -/
private theorem mid_weights :
    edgeWeights (F := Ideal) (after (hostOps0_1 (F := Ideal)) (after (hostOps0 (F := Ideal)) W) (Proc.devRef .tc main_v14))
        (after (hostOps0_1 (F := Ideal)) (after (hostOps0 (F := Ideal)) W) (Proc.devRef .tc main_v3))
        (after (hostOps0_1 (F := Ideal)) (after (hostOps0 (F := Ideal)) W) (Proc.devRef .tc main_v6))
      = Cert.ReferenceIdeal.ReadP.val_main_v29 (F := Ideal) (W (Proc.devRef .tc main_arg1)) :=
  (congr (congr (congrArg (edgeWeights (F := Ideal)) (mid_v14 W)) (mid_v3 W)) (mid_v6 W)).trans (edgeWeights_ref _)

theorem pre_v29 : pre W (Proc.devRef .tc main_v29) = Cert.ReferenceIdeal.ReadP.val_main_v29 (F := Ideal) (W (Proc.devRef .tc main_arg1)) :=
  (a2_v29 _).trans (mid_weights W)

theorem pre_v42 : pre W (Proc.devRef .tc main_v42)
    = aggArr3 (W (Proc.devRef .tc main_arg0)) (Cert.ReferenceIdeal.ReadP.val_main_v3 (F := Ideal) (W (Proc.devRef .tc main_arg1)))
        (Cert.ReferenceIdeal.ReadP.val_main_v6 (F := Ideal) (W (Proc.devRef .tc main_arg1)))
        (Cert.ReferenceIdeal.ReadP.val_main_v29 (F := Ideal) (W (Proc.devRef .tc main_arg1))) :=
  (a2_v42 _).trans
    (congr (congr (congr (congrArg aggArr3 (mid_keep W (by decide) (by decide))) (mid_v3 W)) (mid_v6 W)) (mid_weights W))

theorem pre_v43 : pre W (Proc.devRef .tc main_v43)
    = shapeCast S1x128 (W (Proc.devRef .tc main_arg4)) Facts₀.shapeCasts_S128_S1x128 :=
  (a2_v43 _).trans
    (congrArg (fun x => shapeCast S1x128 x Facts₀.shapeCasts_S128_S1x128) (mid_keep W (by decide) (by decide)))

theorem pre_keep_main_arg2 : pre W (Proc.devRef .tc main_arg2) = W (Proc.devRef .tc main_arg2) :=
  pre_keep W (by decide) (by decide) (by decide)

theorem pre_keep_main_arg3 : pre W (Proc.devRef .tc main_arg3) = W (Proc.devRef .tc main_arg3) :=
  pre_keep W (by decide) (by decide) (by decide)

theorem pre_keep_main_arg5 : pre W (Proc.devRef .tc main_arg5) = W (Proc.devRef .tc main_arg5) :=
  pre_keep W (by decide) (by decide) (by decide)

theorem pre_keep_main_arg6 : pre W (Proc.devRef .tc main_arg6) = W (Proc.devRef .tc main_arg6) :=
  pre_keep W (by decide) (by decide) (by decide)

theorem pre_keep_main_arg7 : pre W (Proc.devRef .tc main_arg7) = W (Proc.devRef .tc main_arg7) :=
  pre_keep W (by decide) (by decide) (by decide)

theorem pre_keep_main_arg8 : pre W (Proc.devRef .tc main_arg8) = W (Proc.devRef .tc main_arg8) :=
  pre_keep W (by decide) (by decide) (by decide)

theorem pre_keep_main_arg9 : pre W (Proc.devRef .tc main_arg9) = W (Proc.devRef .tc main_arg9) :=
  pre_keep W (by decide) (by decide) (by decide)

theorem pre_keep_main_arg10 : pre W (Proc.devRef .tc main_arg10) = W (Proc.devRef .tc main_arg10) :=
  pre_keep W (by decide) (by decide) (by decide)

/-! ## Between the first and the second region -/

theorem s1_v57 : after (hostOps1 (F := Ideal)) W (Proc.devRef .tc main_v57)
    = aggArr128 (W (Proc.devRef .tc main_v44)) (W (Proc.devRef .tc main_v3)) (W (Proc.devRef .tc main_v6))
        (W (Proc.devRef .tc main_v29)) := a3_v57 W

theorem s1_v58 : after (hostOps1 (F := Ideal)) W (Proc.devRef .tc main_v58)
    = shapeCast S1x128 (W (Proc.devRef .tc main_arg6)) Facts₀.shapeCasts_S128_S1x128 := by
  after_results
  rfl

theorem s1_keep_main_v3 : after (hostOps1 (F := Ideal)) W (Proc.devRef .tc main_v3) = W (Proc.devRef .tc main_v3) :=
  after_of_writes_sub _ _ writes1 (by decide)

theorem s1_keep_main_v6 : after (hostOps1 (F := Ideal)) W (Proc.devRef .tc main_v6) = W (Proc.devRef .tc main_v6) :=
  after_of_writes_sub _ _ writes1 (by decide)

theorem s1_keep_main_v29 : after (hostOps1 (F := Ideal)) W (Proc.devRef .tc main_v29) = W (Proc.devRef .tc main_v29) :=
  after_of_writes_sub _ _ writes1 (by decide)

theorem s1_keep_main_arg2 : after (hostOps1 (F := Ideal)) W (Proc.devRef .tc main_arg2) = W (Proc.devRef .tc main_arg2) :=
  after_of_writes_sub _ _ writes1 (by decide)

theorem s1_keep_main_arg5 : after (hostOps1 (F := Ideal)) W (Proc.devRef .tc main_arg5) = W (Proc.devRef .tc main_arg5) :=
  after_of_writes_sub _ _ writes1 (by decide)

theorem s1_keep_main_arg7 : after (hostOps1 (F := Ideal)) W (Proc.devRef .tc main_arg7) = W (Proc.devRef .tc main_arg7) :=
  after_of_writes_sub _ _ writes1 (by decide)

theorem s1_keep_main_arg8 : after (hostOps1 (F := Ideal)) W (Proc.devRef .tc main_arg8) = W (Proc.devRef .tc main_arg8) :=
  after_of_writes_sub _ _ writes1 (by decide)

theorem s1_keep_main_arg9 : after (hostOps1 (F := Ideal)) W (Proc.devRef .tc main_arg9) = W (Proc.devRef .tc main_arg9) :=
  after_of_writes_sub _ _ writes1 (by decide)

theorem s1_keep_main_arg10 : after (hostOps1 (F := Ideal)) W (Proc.devRef .tc main_arg10) = W (Proc.devRef .tc main_arg10) :=
  after_of_writes_sub _ _ writes1 (by decide)

/-! ## Between the second and the third region -/

theorem s2_v72 : after (hostOps2 (F := Ideal)) W (Proc.devRef .tc main_v72)
    = aggArr128 (W (Proc.devRef .tc main_v59)) (W (Proc.devRef .tc main_v3)) (W (Proc.devRef .tc main_v6))
        (W (Proc.devRef .tc main_v29)) := a4_v72 W

theorem s2_v73 : after (hostOps2 (F := Ideal)) W (Proc.devRef .tc main_v73)
    = shapeCast S1x128 (W (Proc.devRef .tc main_arg8)) Facts₀.shapeCasts_S128_S1x128 := by
  after_results
  rfl

theorem s2_keep_main_arg2 : after (hostOps2 (F := Ideal)) W (Proc.devRef .tc main_arg2) = W (Proc.devRef .tc main_arg2) :=
  after_of_writes_sub _ _ writes2 (by decide)

theorem s2_keep_main_arg7 : after (hostOps2 (F := Ideal)) W (Proc.devRef .tc main_arg7) = W (Proc.devRef .tc main_arg7) :=
  after_of_writes_sub _ _ writes2 (by decide)

theorem s2_keep_main_arg9 : after (hostOps2 (F := Ideal)) W (Proc.devRef .tc main_arg9) = W (Proc.devRef .tc main_arg9) :=
  after_of_writes_sub _ _ writes2 (by decide)

theorem s2_keep_main_arg10 : after (hostOps2 (F := Ideal)) W (Proc.devRef .tc main_arg10) = W (Proc.devRef .tc main_arg10) :=
  after_of_writes_sub _ _ writes2 (by decide)

/-! ## Between the third and the last region -/

theorem s3_v77 : after (hostOps3 (F := Ideal)) W (Proc.devRef .tc main_v77)
    = poolArr (W (Proc.devRef .tc main_v74)) (W (Proc.devRef .tc main_arg2)) := by
  unfold poolArr
  after_results

theorem s3_v82 : after (hostOps3 (F := Ideal)) W (Proc.devRef .tc main_v82)
    = shapeCast S512x1 (countArr (W (Proc.devRef .tc main_arg2))) Facts₀.shapeCasts_S512_S512x1 := by
  unfold countArr
  after_results
  rfl

theorem s3_v83 : after (hostOps3 (F := Ideal)) W (Proc.devRef .tc main_v83)
    = shapeCast S1x2 (W (Proc.devRef .tc main_arg10)) Facts₀.shapeCasts_S2_S1x2 := by
  after_results
  rfl

theorem s3_keep_main_arg9 : after (hostOps3 (F := Ideal)) W (Proc.devRef .tc main_arg9) = W (Proc.devRef .tc main_arg9) :=
  after_of_writes_sub _ _ writes3 (by decide)

end Cert.KernelIdeal.Host

end
-- ==== Proof.Spec.lean ====
/-
  A three-layer graph convolution with a mean-pool head, written two ways, index by index over the extended reals.

  The graph has `N` nodes and `E` directed edges. Edge `e` reads the node `r e` (its source row, already a row number),
  lands on the node whose number is the signed word `d e` (an edge whose word is no node number lands nowhere) and
  carries the weight `n e`. One layer turns node features `h : N × Di` into `N × Do` with a weight matrix `W`, a bias
  `b` and a clamp at zero. The two ways differ in where the matrix product sits:

  * AGGREGATE, THEN TRANSFORM: first `a[v, k] = ∑ e → v, h[r e, k] · n e`, then `max (∑ k, a[v, k] · W[k, f] + b f) 0`;
  * TRANSFORM, THEN AGGREGATE: first `t[i, f] = ∑ k, h[i, k] · W[k, f]`, then `max (∑ e → v, t[r e, f] · n e + b f) 0`.

  The head sums the last layer's rows per graph (node `i` belongs to the graph its signed word `s i` names), divides by
  the clamped node count and applies one more matrix and bias.
-/
import Idealize.ShloMosaic.PureOps.Ideal
import Idealize.ShloMosaic.Lib.ValueIdx

noncomputable section

open scoped BigOperators

namespace Cert.Spec

open Idealize.ShloMosaic

variable {N E : Nat}

/-- Entry `(v, k)` of the aggregate: over the edges whose destination word reads `v`, the source row's entry `k`
    times the edge's weight. -/
def agg {D : Nat} (h : Fin N → Fin D → EReal) (r : Fin E → Fin N) (d : Fin E → ℤ) (n : Fin E → EReal)
    (v : Fin N) (k : Fin D) : EReal :=
  ∑ e : Fin E, if d e = (v.val : ℤ) then h (r e) k * n e else 0

/-- The plain matrix product `h · W` at `(i, f)`. -/
def mm {A Di Do : Nat} (h : Fin A → Fin Di → EReal) (W : Fin Di → Fin Do → EReal) (i : Fin A) (f : Fin Do) : EReal :=
  ∑ k : Fin Di, h i k * W k f

/-- One layer, aggregate then transform. -/
def layerAT {Di Do : Nat} (h : Fin N → Fin Di → EReal) (W : Fin Di → Fin Do → EReal) (b : Fin Do → EReal)
    (r : Fin E → Fin N) (d : Fin E → ℤ) (n : Fin E → EReal) (v : Fin N) (f : Fin Do) : EReal :=
  max (mm (agg h r d n) W v f + b f) 0

/-- One layer, transform then aggregate. -/
def layerTA {Di Do : Nat} (h : Fin N → Fin Di → EReal) (W : Fin Di → Fin Do → EReal) (b : Fin Do → EReal)
    (r : Fin E → Fin N) (d : Fin E → ℤ) (n : Fin E → EReal) (v : Fin N) (f : Fin Do) : EReal :=
  max (agg (mm h W) r d n v f + b f) 0

/-- The per-graph sum of rows: entry `(g, k)` adds row `i`'s entry `k` for the nodes whose graph word reads `g`. -/
def segSum {G D : Nat} (h : Fin N → Fin D → EReal) (s : Fin N → ℤ) (g : Fin G) (k : Fin D) : EReal :=
  ∑ i : Fin N, if s i = (g.val : ℤ) then h i k else 0

/-- The per-graph count, each node counting `u` (the unit the programs write as a float literal). -/
def segCount {G : Nat} (u : EReal) (s : Fin N → ℤ) (g : Fin G) : EReal :=
  ∑ i : Fin N, if s i = (g.val : ℤ) then u else 0

/-- The head: the mean row of each graph (the sum over the count clamped below by `u`) through one more matrix and
    bias. -/
def head {G D O : Nat} (u : EReal) (sums : Fin G → Fin D → EReal) (cnt : Fin G → EReal) (W : Fin D → Fin O → EReal)
    (b : Fin O → EReal) (g : Fin G) (o : Fin O) : EReal :=
  mm (fun g' k => Ideal.div (sums g' k) (max (cnt g') u)) W g o + b o

/-- The network, every layer aggregating first. -/
def netAT {D0 D1 D2 D3 G O : Nat} (u : EReal) (x : Fin N → Fin D0 → EReal)
    (W1 : Fin D0 → Fin D1 → EReal) (b1 : Fin D1 → EReal) (W2 : Fin D1 → Fin D2 → EReal) (b2 : Fin D2 → EReal)
    (W3 : Fin D2 → Fin D3 → EReal) (b3 : Fin D3 → EReal) (Wfc : Fin D3 → Fin O → EReal) (bfc : Fin O → EReal)
    (r : Fin E → Fin N) (d : Fin E → ℤ) (n : Fin E → EReal) (s : Fin N → ℤ) : Fin G → Fin O → EReal :=
  head u (segSum (layerAT (layerAT (layerAT x W1 b1 r d n) W2 b2 r d n) W3 b3 r d n) s) (segCount u s) Wfc bfc

/-- The network, every layer transforming first. -/
def netTA {D0 D1 D2 D3 G O : Nat} (u : EReal) (x : Fin N → Fin D0 → EReal)
    (W1 : Fin D0 → Fin D1 → EReal) (b1 : Fin D1 → EReal) (W2 : Fin D1 → Fin D2 → EReal) (b2 : Fin D2 → EReal)
    (W3 : Fin D2 → Fin D3 → EReal) (b3 : Fin D3 → EReal) (Wfc : Fin D3 → Fin O → EReal) (bfc : Fin O → EReal)
    (r : Fin E → Fin N) (d : Fin E → ℤ) (n : Fin E → EReal) (s : Fin N → ℤ) : Fin G → Fin O → EReal :=
  head u (segSum (layerTA (layerTA (layerTA x W1 b1 r d n) W2 b2 r d n) W3 b3 r d n) s) (segCount u s) Wfc bfc

end Cert.Spec

end
-- ==== Proof.LibGatherRows.lean ====
/-
  A gather of rows, read at an index.

  What `h[idx]` of a matrix `h : [N, D]` at a column of row numbers `idx : [E, 1]` lowers to: a `stablehlo.gather`
  whose one offset axis is the result's second (offset_dims `[1]`), whose operand row axis is collapsed and is the one
  axis a start index addresses (collapsed_slice_dims `[0]`, start_index_map `[0]`, index_vector_dim `1`), with slices of
  one whole row (slice_sizes `[1, D]`). Result element `(e, q)` is the operand at row `idx[e, 0]`, read as a signed
  integer and clamped into `[0, N − 1]`, and column `q`.
-/
import Idealize.ShloMosaic.PureOps.Ideal
import Idealize.ShloMosaic.Lib.ValueIdx

noncomputable section

namespace Cert.LibGatherRows

open Idealize.ShloMosaic Idealize.ShloMosaic.ValueIdx

/-- The row a start index names: the signed word clamped into `[0, N − 1]`. -/
def clampRow {w : Nat} (N : Nat) (hN : 0 < N) (b : BitVec w) : Fin N := ⟨min b.toInt.toNat (N - 1), by omega⟩

/-! ## The coordinates of the operand index

For a result index `(e, q)`. The operand's row axis is collapsed and is the one axis the start index addresses: its
slice has size one, so its start is the signed word `idx[e, 0]` clamped into `[0, N − 1]`, and it carries no offset
coordinate. The operand's column axis is the one kept axis and no start index addresses it: its start is `0` and its
offset coordinate is the result's coordinate on the one offset axis, the column `q`. No axis is a batching axis. Each
fact is read off the record once its lists are the stated literals. -/

section Coordinates

variable {N E D w : Nat}
  (d : GatherDims (⟨2, ![N, D]⟩ : Shape) (⟨2, ![E, 1]⟩ : Shape) (⟨2, ![E, D]⟩ : Shape))
  (hoff : d.offsetDims = [1]) (hcoll : d.collapsedSliceDims = [0]) (hob : d.operandBatchingDims = [])
  (hsim : d.startIndexMap = [0]) (hivd : d.indexVectorDim = 1)

include hoff hcoll hob hsim hivd

/-- The start-indices index result index `(e, q)` reads: the batch coordinate `e` on axis 0 (the result's one batch
    axis is its first) and the one component, `0`, on the index vector's axis. -/
theorem siIdx_row (e : Fin E) (q : Fin D) (c : Fin d.startIndexMap.length) :
    d.siIdx (ix2 e q) c = ix2 e (0 : Fin 1) := by
  obtain ⟨od, cd, ob, sb, sm, iv, ss, wf⟩ := d
  subst hoff hcoll hob hsim hivd
  funext b
  refine Fin.ext ?_
  match b with
  | ⟨0, _⟩ => rfl
  | ⟨1, _⟩ =>
    have hc : c.val < 1 := c.isLt
    show c.val = 0
    omega

/-- On the operand's row axis the slice starts at the signed start index clamped into `[0, N − 1]`. -/
theorem start_row (idx : IVec (⟨2, ![E, 1]⟩ : Shape) w) (e : Fin E) (q : Fin D) :
    d.start (ix2 e q) idx 0 = min (idx (ix2 e (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_row d hoff hcoll hob hsim hivd e q, hsl]
  rfl

/-- On the operand's column axis, which no start index addresses, the slice starts at `0`. -/
theorem start_col (idx : IVec (⟨2, ![E, 1]⟩ : Shape) w) (e : Fin E) (q : Fin D) :
    d.start (ix2 e q) idx 1 = 0 := by
  unfold GatherDims.start
  exact dif_neg fun h => Nat.one_ne_zero (congrArg Fin.val (List.mem_singleton.mp (hsim ▸ h)))

/-- No operand axis is a batching axis: the batching coordinate is `0`. -/
theorem batchCoord_zero (e : Fin E) (q : Fin D) (a : Fin 2) : d.batchCoord (ix2 e q) a = 0 :=
  d.batchCoord_eq_zero _ a (by rw [hob]; exact List.not_mem_nil)

/-- The operand's row axis is collapsed: its offset coordinate is `0`. -/
theorem offCoord_row (e : Fin E) (q : Fin D) : d.offCoord (ix2 e q) 0 = 0 :=
  d.offCoord_eq_zero _ 0 fun h => ((d.mem_sKept 0).mp h).1 (by rw [hcoll]; exact List.mem_singleton.mpr rfl)

/-- The operand's column axis is its one kept axis, read by the result's one offset axis: its offset coordinate is
    the result's column. -/
theorem offCoord_col (e : Fin E) (q : Fin D) : d.offCoord (ix2 e q) 1 = q.val := by
  obtain ⟨od, cd, ob, sb, sm, iv, ss, wf⟩ := d
  subst hoff hcoll hob hsim hivd
  rfl

end Coordinates

/-- THE GATHER OF ROWS READ AT `(e, q)`: the operand at the clamped row `idx[e, 0]` names and at column `q`. -/
theorem gatherRows_apply {α : Type} {N E D w : Nat} (hN : 0 < N)
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec (⟨2, ![E, 1]⟩ : Shape) w) (e : Fin E) (q : Fin D) :
    Host.gather d x idx (ix2 e q) = x (ix2 (clampRow N hN (idx (ix2 e (0 : Fin 1)))) q) := by
  unfold Host.gather
  refine congrArg x ?_
  funext a
  refine Fin.ext ?_
  match a with
  | ⟨0, _⟩ =>
    show d.start (ix2 e q) idx 0 + d.batchCoord (ix2 e q) 0 + d.offCoord (ix2 e q) 0
      = min (idx (ix2 e (0 : Fin 1))).toInt.toNat (N - 1)
    rw [start_row d hoff hcoll hob hsim hivd idx e q, batchCoord_zero d hoff hcoll hob hsim hivd e q 0,
      offCoord_row d hoff hcoll hob hsim hivd e q]
    rfl
  | ⟨1, _⟩ =>
    show d.start (ix2 e q) idx 1 + d.batchCoord (ix2 e q) 1 + d.offCoord (ix2 e q) 1 = q.val
    rw [start_col d hoff hcoll hob hsim hivd idx e q, batchCoord_zero d hoff hcoll hob hsim hivd e q 1,
      offCoord_col d hoff hcoll hob hsim hivd e q]
    omega

end Cert.LibGatherRows

end
-- ==== Proof.Glue.lean ====
/-
  Arrays as functions of their coordinates, and the three readings of an index column.

  The programs hold a matrix as a function of a two-coordinate index; the specification is written over the two
  coordinates separately. `mat`, `vec`, `arr2` pass between the two forms. A column `[E, 1]` of 32-bit words names,
  per position `e`, either a row to READ — the word taken signed and clamped into the row range, which is how a
  gather treats a start index — or a row to ADD INTO — the word taken signed and not clamped, which is how a
  scatter treats an index: a word that is no row number lands nowhere.
-/
import proofs.«126862_j35218731827641_1_alg».proof.Proof.Spec
import proofs.«126862_j35218731827641_1_alg».proof.Proof.LibGatherRows

noncomputable section

namespace Cert.Glue

open Idealize.ShloMosaic Idealize.ShloMosaic.ValueIdx

/-- A matrix as a function of its row and its column. -/
def mat {α : Type} {a b : Nat} (x : (⟨2, ![a, b]⟩ : Shape).Idx → α) (i : Fin a) (k : Fin b) : α := x (ix2 i k)

/-- A vector as a function of its position. -/
def vec {α : Type} {a : Nat} (x : (⟨1, ![a]⟩ : Shape).Idx → α) (i : Fin a) : α := x (ix1 i)

/-- A function of row and column as a matrix. -/
def arr2 {α : Type} {a b : Nat} (f : Fin a → Fin b → α) : (⟨2, ![a, b]⟩ : Shape).Idx → α := fun j => f (j 0) (j 1)

theorem arr2_apply {α : Type} {a b : Nat} (f : Fin a → Fin b → α) (i : Fin a) (k : Fin b) : arr2 f (ix2 i k) = f i k := rfl

theorem arr2_mat {α : Type} {a b : Nat} (x : (⟨2, ![a, b]⟩ : Shape).Idx → α) : arr2 (mat x) = x :=
  funext fun j => congrArg x (eq_ix2 j).symm

theorem mat_arr2 {α : Type} {a b : Nat} (f : Fin a → Fin b → α) : mat (arr2 f) = f := rfl

/-- The row position `e` of an index column reads: its word, signed, clamped into `[0, N − 1]`. -/
def rowOf {N E : Nat} (hN : 0 < N) (c : IVec (⟨2, ![E, 1]⟩ : Shape) 32) (e : Fin E) : Fin N :=
  Cert.LibGatherRows.clampRow N hN (c (ix2 e (0 : Fin 1)))

/-- The word position `e` of an index column adds into: its word, signed, as it is. -/
def wordOf {E : Nat} (c : IVec (⟨2, ![E, 1]⟩ : Shape) 32) (e : Fin E) : ℤ := (c (ix2 e (0 : Fin 1))).toInt

/-- The unit the programs count with: the float literal one. -/
def unit : EReal := Ideal.ofBits .f32 0x3F800000#32

open Cert.Spec in
/-- What a dense layer leaves: `max (a · W + b) 0`, the bias a one-row matrix. -/
def dense {A Di Do : Nat} (a : (⟨2, ![A, Di]⟩ : Shape).Idx → EReal) (W : (⟨2, ![Di, Do]⟩ : Shape).Idx → EReal)
    (b : (⟨2, ![1, Do]⟩ : Shape).Idx → EReal) : (⟨2, ![A, Do]⟩ : Shape).Idx → EReal :=
  arr2 fun v f => max (mm (mat a) (mat W) v f + b (ix2 (0 : Fin 1) f)) 0

open Cert.Spec in
/-- What the head leaves: the rows of `sums` over the clamped counts (a one-column matrix), through `W`, plus the
    bias (a one-row matrix). -/
def headArr {G D O : Nat} (u : EReal) (sums : (⟨2, ![G, D]⟩ : Shape).Idx → EReal)
    (cnt : (⟨2, ![G, 1]⟩ : Shape).Idx → EReal) (W : (⟨2, ![D, O]⟩ : Shape).Idx → EReal)
    (b : (⟨2, ![1, O]⟩ : Shape).Idx → EReal) : (⟨2, ![G, O]⟩ : Shape).Idx → EReal :=
  arr2 fun g o => mm (fun g' k => Ideal.div (sums (ix2 g' k)) (max (cnt (ix2 g' (0 : Fin 1))) u)) (mat W) g o
    + b (ix2 (0 : Fin 1) o)

end Cert.Glue

end
-- ==== Proof.Dense0.lean ====
/-
  What region 0 of the kernel program leaves in its output array, as one function of the arrays it reads.

  The region walks the rows of `a` in 25 blocks of 4000; at each block it multiplies by the whole matrix `W`, adds the
  one-row bias and clamps at zero. Every output row lies in exactly one block, so the array after the region is the
  dense layer `max (a · W + b) 0` of the whole arrays.

  The steps. The body's arithmetic at entry `(p, q)` of a block is `max (∑ k, x[p, k] · w[k, q] + b[0, q]) 0`: the
  narrowing to the product's operand format is the identity on extended reals, the product accumulates into zero, and
  the bias row is read at row 0 whatever `p` is. Block `t` of `a` and of the output is rows `4000 t … 4000 t + 3999`;
  the blocks of `W` and of the bias are the whole arrays at every point. So what point `t` writes back is block `t`
  of the dense layer, and row `r` is written by point `r / 4000`.
-/
import proofs.«126862_j35218731827641_1_alg».proof.Proof.Gen.KernelIdeal.Frame
import proofs.«126862_j35218731827641_1_alg».proof.Proof.Glue
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The product at an entry -/

/-- The offsets of a whole-buffer access are zero on both axes. -/
theorem zero_offsets : (![0, 0] : Fin 2 → Nat) = fun _ => 0 := funext fun a => by fin_cases a <;> rfl

/-- The left operand's index at output entry `i` and contraction position `q` keeps `i`'s row … -/
theorem lhs_row (i : S4000x128.Idx) (q : dot_S4000x3_S3x128_S4000x128_1_0_0_1_n_n.contr.Idx) :
    (dot_S4000x3_S3x128_S4000x128_1_0_0_1_n_n.lhsIdx i q 0).val = (i 0).val := by
  unfold DotDims.lhsIdx
  rw [dif_neg (show ¬(0 : Fin S4000x3.rank) ∈ dot_S4000x3_S3x128_S4000x128_1_0_0_1_n_n.lhsBatch by decide), dif_pos (show (0 : Fin S4000x3.rank) ∈ dot_S4000x3_S3x128_S4000x128_1_0_0_1_n_n.lhsNonContracting by decide)]
  rfl
/-- … and takes the contraction position as its column. -/
theorem lhs_col (i : S4000x128.Idx) (q : dot_S4000x3_S3x128_S4000x128_1_0_0_1_n_n.contr.Idx) :
    (dot_S4000x3_S3x128_S4000x128_1_0_0_1_n_n.lhsIdx i q 1).val = (q ⟨0, by decide⟩).val :=
  dot_S4000x3_S3x128_S4000x128_1_0_0_1_n_n.lhsIdx_val_of_single rfl i q
/-- The right operand's index takes the contraction position as its row … -/
theorem rhs_row (i : S4000x128.Idx) (q : dot_S4000x3_S3x128_S4000x128_1_0_0_1_n_n.contr.Idx) :
    (dot_S4000x3_S3x128_S4000x128_1_0_0_1_n_n.rhsIdx i q 0).val = (q ⟨0, by decide⟩).val :=
  dot_S4000x3_S3x128_S4000x128_1_0_0_1_n_n.rhsIdx_val_of_single rfl i q
/-- … and keeps `i`'s column. -/
theorem rhs_col (i : S4000x128.Idx) (q : dot_S4000x3_S3x128_S4000x128_1_0_0_1_n_n.contr.Idx) :
    (dot_S4000x3_S3x128_S4000x128_1_0_0_1_n_n.rhsIdx i q 1).val = (i 1).val := by
  unfold DotDims.rhsIdx
  rw [dif_neg (show ¬(1 : Fin S3x128.rank) ∈ dot_S4000x3_S3x128_S4000x128_1_0_0_1_n_n.rhsBatch by decide), dif_pos (show (1 : Fin S3x128.rank) ∈ dot_S4000x3_S3x128_S4000x128_1_0_0_1_n_n.rhsNonContracting by decide)]
  rfl

/-- The product accumulated into zero, at entry `(p, q)`: `∑ k, x[p, k] · w[k, q]`. -/
theorem product_at (x : FVec Ideal S4000x3 .bf16) (w : FVec Ideal S3x128 .bf16) (p : Fin 4000) (q : Fin 128) :
    matmul dot_S4000x3_S3x128_S4000x128_1_0_0_1_n_n none x w (constant (F := Ideal) S4000x128 .f32 0x00000000#32) (ix2 p q)
      = ∑ k : Fin 3, x (ix2 p k) * w (ix2 k q) := by
  simp only [matmul]
  rw [Ideal.matmul_constant_zero_apply, ← Equiv.sum_comp (contrEquiv1 dot_S4000x3_S3x128_S4000x128_1_0_0_1_n_n 3 rfl rfl).symm]
  refine Finset.sum_congr rfl fun k _ => ?_
  have hk := contrEquiv1_symm_val dot_S4000x3_S3x128_S4000x128_1_0_0_1_n_n 3 rfl rfl k
  have el : dot_S4000x3_S3x128_S4000x128_1_0_0_1_n_n.lhsIdx (ix2 p q) ((contrEquiv1 dot_S4000x3_S3x128_S4000x128_1_0_0_1_n_n 3 rfl rfl).symm k) = ix2 p k := funext fun a => Fin.ext (by
    match a with
    | ⟨0, _⟩ => exact lhs_row _ _
    | ⟨1, _⟩ => exact (lhs_col _ _).trans hk)
  have er : dot_S4000x3_S3x128_S4000x128_1_0_0_1_n_n.rhsIdx (ix2 p q) ((contrEquiv1 dot_S4000x3_S3x128_S4000x128_1_0_0_1_n_n 3 rfl rfl).symm k) = ix2 k q := funext fun a => Fin.ext (by
    match a with
    | ⟨0, _⟩ => exact (rhs_row _ _).trans hk
    | ⟨1, _⟩ => exact rhs_col _ _)
  rw [el, er]

/-- The bias row spread over the block reads row 0 at every entry. -/
theorem bias_at (b : FVec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- THE BODY'S ARITHMETIC AT AN ENTRY: `max (∑ k, x[p, k] · w[k, q] + b[0, q]) 0`. -/
theorem payload_at (x : Vec Ideal S4000x3 .f32) (w : Vec Ideal S3x128 .f32) (b : Vec Ideal S1x128 .f32) (p : Fin 4000) (q : Fin 128) :
    k0_pay1 x w b (ix2 p q) = max ((∑ k : Fin 3, x (ix2 p k) * w (ix2 k q)) + b (ix2 (0 : Fin 1) q)) 0 := by
  unfold k0_pay1
  rw [maximumf_apply, addf_apply, product_at, bias_at, shapeCast_self, shapeCast_self, broadcast_apply]
  simp only [truncf_apply]
  show max _ (Ideal.ofBits .f32 0x00000000#32) = _
  rw [Ideal.ofBits_zero_f32]

/-! ## The blocks -/

/-- The arrays the region reads, as it finds them. -/
abbrev aArr (c : Dev nD) : FVec Ideal S100000x3 .f32 := V c main_v42
abbrev wArr (c : Dev nD) : FVec Ideal S3x128 .f32 := V c main_arg3
abbrev bArr (c : Dev nD) : FVec Ideal S1x128 .f32 := V c main_v43

/-- The dense layer of those arrays. -/
abbrev layer (c : Dev nD) : FVec Ideal S100000x128 .f32 := Cert.Glue.dense (aArr V c) (wArr V c) (bArr V c)

/-- The printed index maps, decided over the grid: the row windows move one block per point, the others stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 25 :=
  (by decide +kernel : ∀ t : Fin grid0.N, _)

/-- The three input windows' blocks at point `t`. -/
abbrev aBlk (c : Dev nD) (t : Fin cfg0.N) : Vec Ideal S4000x3 .f32 := iblk0 V c 0 t
abbrev wBlk (c : Dev nD) (t : Fin cfg0.N) : Vec Ideal S3x128 .f32 := iblk0 V c 1 t
abbrev bBlk (c : Dev nD) (t : Fin cfg0.N) : Vec Ideal S1x128 .f32 := iblk0 V c 2 t

/-- Block `t` of the row window, at entry `(p, k)`, is row `4000 t + p` of the array. -/
theorem aBlk_at (c : Dev nD) (t : Fin cfg0.N) (p : Fin 4000) (k : Fin 3) (r : Fin 100000) (hr : r.val = 4000 * t.val + p.val) :
    aBlk V c t (ix2 p k) = aArr V c (ix2 r k) := by
  obtain ⟨e0, e1, -⟩ := index_facts t
  unfold aBlk iblk0
  rw [View.read_apply]
  show V c main_v42 _ = V c main_v42 _
  congr 1
  funext a
  apply Fin.ext
  match a with
  | ⟨0, _⟩ => show win0_0.index t 0 * 4000 + 1 * p.val = r.val; rw [e0, hr]; omega
  | ⟨1, _⟩ => show win0_0.index t 1 * 3 + 1 * k.val = k.val; rw [e1]; omega

/-- The matrix window's block is the whole matrix at every point. -/
theorem wBlk_at (c : Dev nD) (t : Fin cfg0.N) (k : Fin 3) (q : Fin 128) :
    wBlk V c t (ix2 k q) = wArr V c (ix2 k q) := by
  obtain ⟨-, -, e0, e1, -⟩ := index_facts t
  unfold wBlk iblk0
  rw [View.read_apply]
  show V c main_arg3 _ = V c main_arg3 _
  congr 1
  funext a
  apply Fin.ext
  match a with
  | ⟨0, _⟩ => show win0_1.index t 0 * 3 + 1 * k.val = k.val; rw [e0]; omega
  | ⟨1, _⟩ => show win0_1.index t 1 * 128 + 1 * q.val = q.val; rw [e1]; omega

/-- The bias window's block is the whole bias row at every point. -/
theorem bBlk_at (c : Dev nD) (t : Fin cfg0.N) (q : Fin 128) :
    bBlk V c t (ix2 (0 : Fin 1) q) = bArr V c (ix2 (0 : Fin 1) q) := by
  obtain ⟨-, -, -, -, e0, e1, -⟩ := index_facts t
  unfold bBlk iblk0
  rw [View.read_apply]
  show V c main_v43 _ = V c main_v43 _
  congr 1
  funext a
  apply Fin.ext
  match a with
  | ⟨0, _⟩ => show win0_2.index t 0 * 1 + 1 * 0 = 0; rw [e0]
  | ⟨1, _⟩ => show win0_2.index t 1 * 128 + 1 * q.val = q.val; rw [e1]; omega

/-- Entry `(p, q)` of the output window's block `t` sits at row `4000 t + p`, column `q` of the array. -/
theorem out_emb (t : Fin cfg0.N) (p : Fin 4000) (q : Fin 128) (r : Fin 100000) (hr : r.val = 4000 * t.val + p.val) :
    ((cfg0.win 3).blk t).view.emb (ix2 p q) = (ix2 r q : S100000x128.Idx) := by
  obtain ⟨-, -, -, -, -, -, e0, e1, -⟩ := index_facts t
  funext a
  apply Fin.ext
  match a with
  | ⟨0, _⟩ => show win0_3.index t 0 * 4000 + 1 * p.val = r.val; rw [e0, hr]; omega
  | ⟨1, _⟩ => show win0_3.index t 1 * 128 + 1 * q.val = q.val; rw [e1]; omega

/-- WHAT POINT `t` WRITES BACK is block `t` of the dense layer. -/
theorem flushed_eq (c : Dev nD) (t : Fin cfg0.N) :
    (dat0 (F := Ideal) V c).flushed 3 t = ((cfg0.win 3).blk t).view.read (Elt Ideal) (layer V c) := by
  show (cfg0.win 3).cut (grid0.coords t) ((dat0 V c).after 3 t) = _
  rw [after0_3]
  unfold out0_3
  rw [View.canon_unit_zero zero_offsets]
  simp only [View.ld_unit_zero (S := S4000x3) zero_offsets, View.ld_unit_zero (S := S3x128) zero_offsets, View.ld_unit_zero (S := S1x128) zero_offsets]
  funext j
  obtain ⟨p, q, rfl⟩ : ∃ (p : Fin 4000) (q : Fin 128), j = ix2 p q := ⟨j 0, j 1, eq_ix2 j⟩
  have hp : p.val < 4000 := p.isLt
  have hr : 4000 * t.val + p.val < 100000 := by have := (index_facts t).2.2.2.2.2.2.2.2; omega
  have hsum : (∑ k : Fin 3, aBlk V c t (ix2 p k) * wBlk V c t (ix2 k q))
      = ∑ k : Fin 3, aArr V c (ix2 ⟨4000 * t.val + p.val, hr⟩ k) * wArr V c (ix2 k q) :=
    Finset.sum_congr rfl fun k _ => by rw [aBlk_at V c t p k ⟨4000 * t.val + p.val, hr⟩ rfl, wBlk_at V c t k q]
  refine (payload_at (aBlk V c t) (wBlk V c t) (bBlk V c t) p q).trans ?_
  show _ = layer V c (((cfg0.win 3).blk t).view.emb (ix2 p q))
  rw [out_emb t p q ⟨4000 * t.val + p.val, hr⟩ rfl, hsum, bBlk_at V c t q]
  rfl

/-- Every entry of the array lies in the block of the point its row names: row `r` in block `r / 4000`. -/
theorem covered (i : S100000x128.Idx) :
    ∃ t : Fin cfg0.N, (cfg0.win 3).flush t = true ∧ i ∈ ((cfg0.win 3).blk t).view.set := by
  have h0 : (i 0).val < 100000 := (i 0).isLt
  have h1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, e0, e1, -⟩ := index_facts t
  refine ⟨t, flush0_3 t, ?_⟩
  show i ∈ ((View.whole main_v44).slice (win0_3.rect t)).set
  rw [View.set_slice_whole, Rect.mem_set_unit]
  intro a
  match a with
  | ⟨0, _⟩ => show win0_3.index t 0 * 4000 ≤ (i 0).val ∧ (i 0).val < win0_3.index t 0 * 4000 + 4000; rw [e0, ht]; omega
  | ⟨1, _⟩ => show win0_3.index t 1 * 128 ≤ (i 1).val ∧ (i 1).val < win0_3.index t 1 * 128 + 128; rw [e1]; omega

/-- The output array after region 0, from any entry contents `V`: the dense layer of the three input arrays. -/
theorem final (c : Dev nD) :
    (dat0 (F := Ideal) V c).arrAt 3 cfg0.N = Cert.Glue.dense (V c main_v42) (V c main_arg3) (V c main_v43) :=
  (dat0 (F := Ideal) V c).arrAt_eq_of_cover 3 (layer V c) (fun t _ => flushed_eq V c t) covered

end Cert.KernelIdeal.Dense0

end
-- ==== Proof.Dense1.lean ====
/-
  What region 1 of the kernel program leaves in its output array, as one function of the arrays it reads.

  The region walks the rows of `a` in 25 blocks of 4000; at each block it multiplies by the whole matrix `W`, adds the
  one-row bias and clamps at zero. Every output row lies in exactly one block, so the array after the region is the
  dense layer `max (a · W + b) 0` of the whole arrays.

  The steps. The body's arithmetic at entry `(p, q)` of a block is `max (∑ k, x[p, k] · w[k, q] + b[0, q]) 0`: the
  narrowing to the product's operand format is the identity on extended reals, the product accumulates into zero, and
  the bias row is read at row 0 whatever `p` is. Block `t` of `a` and of the output is rows `4000 t … 4000 t + 3999`;
  the blocks of `W` and of the bias are the whole arrays at every point. So what point `t` writes back is block `t`
  of the dense layer, and row `r` is written by point `r / 4000`.
-/
import proofs.«126862_j35218731827641_1_alg».proof.Proof.Gen.KernelIdeal.Frame
import proofs.«126862_j35218731827641_1_alg».proof.Proof.Glue
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The product at an entry -/

/-- The offsets of a whole-buffer access are zero on both axes. -/
theorem zero_offsets : (![0, 0] : Fin 2 → Nat) = fun _ => 0 := funext fun a => by fin_cases a <;> rfl

/-- The left operand's index at output entry `i` and contraction position `q` keeps `i`'s row … -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and takes the contraction position as its column. -/
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's index takes the contraction position as its row … -/
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and keeps `i`'s column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product accumulated into zero, at entry `(p, q)`: `∑ k, x[p, k] · w[k, q]`. -/
theorem product_at (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row spread over the block reads row 0 at every entry. -/
theorem bias_at (b : FVec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- THE BODY'S ARITHMETIC AT AN ENTRY: `max (∑ k, x[p, k] · w[k, q] + b[0, q]) 0`. -/
theorem payload_at (x : Vec Ideal S4000x128 .f32) (w : Vec Ideal S128x128 .f32) (b : Vec Ideal S1x128 .f32) (p : Fin 4000) (q : Fin 128) :
    k1_pay1 x w b (ix2 p q) = max ((∑ k : Fin 128, x (ix2 p k) * w (ix2 k q)) + b (ix2 (0 : Fin 1) q)) 0 := by
  unfold k1_pay1
  rw [maximumf_apply, addf_apply, product_at, bias_at, shapeCast_self, shapeCast_self, broadcast_apply]
  simp only [truncf_apply]
  show max _ (Ideal.ofBits .f32 0x00000000#32) = _
  rw [Ideal.ofBits_zero_f32]

/-! ## The blocks -/

/-- The arrays the region reads, as it finds them. -/
abbrev aArr (c : Dev nD) : FVec Ideal S100000x128 .f32 := V c main_v57
abbrev wArr (c : Dev nD) : FVec Ideal S128x128 .f32 := V c main_arg5
abbrev bArr (c : Dev nD) : FVec Ideal S1x128 .f32 := V c main_v58

/-- The dense layer of those arrays. -/
abbrev layer (c : Dev nD) : FVec Ideal S100000x128 .f32 := Cert.Glue.dense (aArr V c) (wArr V c) (bArr V c)

/-- The printed index maps, decided over the grid: the row windows move one block per point, the others stay. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 25 :=
  (by decide +kernel : ∀ t : Fin grid1.N, _)

/-- The three input windows' blocks at point `t`. -/
abbrev aBlk (c : Dev nD) (t : Fin cfg1.N) : Vec Ideal S4000x128 .f32 := iblk1 V c 0 t
abbrev wBlk (c : Dev nD) (t : Fin cfg1.N) : Vec Ideal S128x128 .f32 := iblk1 V c 1 t
abbrev bBlk (c : Dev nD) (t : Fin cfg1.N) : Vec Ideal S1x128 .f32 := iblk1 V c 2 t

/-- Block `t` of the row window, at entry `(p, k)`, is row `4000 t + p` of the array. -/
theorem aBlk_at (c : Dev nD) (t : Fin cfg1.N) (p : Fin 4000) (k : Fin 128) (r : Fin 100000) (hr : r.val = 4000 * t.val + p.val) :
    aBlk V c t (ix2 p k) = aArr V c (ix2 r k) := by
  obtain ⟨e0, e1, -⟩ := index_facts t
  unfold aBlk iblk1
  rw [View.read_apply]
  show V c main_v57 _ = V c main_v57 _
  congr 1
  funext a
  apply Fin.ext
  match a with
  | ⟨0, _⟩ => show win1_0.index t 0 * 4000 + 1 * p.val = r.val; rw [e0, hr]; omega
  | ⟨1, _⟩ => show win1_0.index t 1 * 128 + 1 * k.val = k.val; rw [e1]; omega

/-- The matrix window's block is the whole matrix at every point. -/
theorem wBlk_at (c : Dev nD) (t : Fin cfg1.N) (k : Fin 128) (q : Fin 128) :
    wBlk V c t (ix2 k q) = wArr V c (ix2 k q) := by
  obtain ⟨-, -, e0, e1, -⟩ := index_facts t
  unfold wBlk iblk1
  rw [View.read_apply]
  show V c main_arg5 _ = V c main_arg5 _
  congr 1
  funext a
  apply Fin.ext
  match a with
  | ⟨0, _⟩ => show win1_1.index t 0 * 128 + 1 * k.val = k.val; rw [e0]; omega
  | ⟨1, _⟩ => show win1_1.index t 1 * 128 + 1 * q.val = q.val; rw [e1]; omega

/-- The bias window's block is the whole bias row at every point. -/
theorem bBlk_at (c : Dev nD) (t : Fin cfg1.N) (q : Fin 128) :
    bBlk V c t (ix2 (0 : Fin 1) q) = bArr V c (ix2 (0 : Fin 1) q) := by
  obtain ⟨-, -, -, -, e0, e1, -⟩ := index_facts t
  unfold bBlk iblk1
  rw [View.read_apply]
  show V c main_v58 _ = V c main_v58 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

/-- Entry `(p, q)` of the output window's block `t` sits at row `4000 t + p`, column `q` of the array. -/
theorem out_emb (t : Fin cfg1.N) (p : Fin 4000) (q : Fin 128) (r : Fin 100000) (hr : r.val = 4000 * t.val + p.val) :
    ((cfg1.win 3).blk t).view.emb (ix2 p q) = (ix2 r q : S100000x128.Idx) := by
  obtain ⟨-, -, -, -, -, -, e0, e1, -⟩ := index_facts t
  funext a
  apply Fin.ext
  match a with
  | ⟨0, _⟩ => show win1_3.index t 0 * 4000 + 1 * p.val = r.val; rw [e0, hr]; omega
  | ⟨1, _⟩ => show win1_3.index t 1 * 128 + 1 * q.val = q.val; rw [e1]; omega

/-- WHAT POINT `t` WRITES BACK is block `t` of the dense layer. -/
theorem flushed_eq (c : Dev nD) (t : Fin cfg1.N) :
    (dat1 (F := Ideal) V c).flushed 3 t = ((cfg1.win 3).blk t).view.read (Elt Ideal) (layer V c) := by
  show (cfg1.win 3).cut (grid1.coords t) ((dat1 V c).after 3 t) = _
  rw [after1_3]
  unfold out1_3
  rw [View.canon_unit_zero zero_offsets]
  simp only [View.ld_unit_zero (S := S4000x128) zero_offsets, View.ld_unit_zero (S := S128x128) zero_offsets, View.ld_unit_zero (S := S1x128) zero_offsets]
  funext j
  obtain ⟨p, q, rfl⟩ : ∃ (p : Fin 4000) (q : Fin 128), j = ix2 p q := ⟨j 0, j 1, eq_ix2 j⟩
  have hp : p.val < 4000 := p.isLt
  have hr : 4000 * t.val + p.val < 100000 := by have := (index_facts t).2.2.2.2.2.2.2.2; omega
  have hsum : (∑ k : Fin 128, aBlk V c t (ix2 p k) * wBlk V c t (ix2 k q))
      = ∑ k : Fin 128, aArr V c (ix2 ⟨4000 * t.val + p.val, hr⟩ k) * wArr V c (ix2 k q) :=
    Finset.sum_congr rfl fun k _ => by rw [aBlk_at V c t p k ⟨4000 * t.val + p.val, hr⟩ rfl, wBlk_at V c t k q]
  refine (payload_at (aBlk V c t) (wBlk V c t) (bBlk V c t) p q).trans ?_
  show _ = layer V c (((cfg1.win 3).blk t).view.emb (ix2 p q))
  rw [out_emb t p q ⟨4000 * t.val + p.val, hr⟩ rfl, hsum, bBlk_at V c t q]
  rfl

/-- Every entry of the array lies in the block of the point its row names: row `r` in block `r / 4000`. -/
theorem covered (i : S100000x128.Idx) :
    ∃ t : Fin cfg1.N, (cfg1.win 3).flush t = true ∧ i ∈ ((cfg1.win 3).blk t).view.set := by
  have h0 : (i 0).val < 100000 := (i 0).isLt
  have h1 : (i 1).val < 128 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, e0, e1, -⟩ := index_facts t
  refine ⟨t, flush1_3 t, ?_⟩
  show i ∈ ((View.whole main_v59).slice (win1_3.rect t)).set
  rw [View.set_slice_whole, Rect.mem_set_unit]
  intro a
  match a with
  | ⟨0, _⟩ => show win1_3.index t 0 * 4000 ≤ (i 0).val ∧ (i 0).val < win1_3.index t 0 * 4000 + 4000; rw [e0, ht]; omega
  | ⟨1, _⟩ => show win1_3.index t 1 * 128 ≤ (i 1).val ∧ (i 1).val < win1_3.index t 1 * 128 + 128; rw [e1]; omega

/-- The output array after region 1, from any entry contents `V`: the dense layer of the three input arrays. -/
theorem final (c : Dev nD) :
    (dat1 (F := Ideal) V c).arrAt 3 cfg1.N = Cert.Glue.dense (V c main_v57) (V c main_arg5) (V c main_v58) :=
  (dat1 (F := Ideal) V c).arrAt_eq_of_cover 3 (layer V c) (fun t _ => flushed_eq V c t) covered

end Cert.KernelIdeal.Dense1

end
-- ==== Proof.Dense2.lean ====
/-
  What region 2 of the kernel program leaves in its output array, as one function of the arrays it reads.

  The region walks the rows of `a` in 25 blocks of 4000; at each block it multiplies by the whole matrix `W`, adds the
  one-row bias and clamps at zero. Every output row lies in exactly one block, so the array after the region is the
  dense layer `max (a · W + b) 0` of the whole arrays.

  The steps. The body's arithmetic at entry `(p, q)` of a block is `max (∑ k, x[p, k] · w[k, q] + b[0, q]) 0`: the
  narrowing to the product's operand format is the identity on extended reals, the product accumulates into zero, and
  the bias row is read at row 0 whatever `p` is. Block `t` of `a` and of the output is rows `4000 t … 4000 t + 3999`;
  the blocks of `W` and of the bias are the whole arrays at every point. So what point `t` writes back is block `t`
  of the dense layer, and row `r` is written by point `r / 4000`.
-/
import proofs.«126862_j35218731827641_1_alg».proof.Proof.Gen.KernelIdeal.Frame
import proofs.«126862_j35218731827641_1_alg».proof.Proof.Glue
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The product at an entry -/

/-- The offsets of a whole-buffer access are zero on both axes. -/
theorem zero_offsets : (![0, 0] : Fin 2 → Nat) = fun _ => 0 := funext fun a => by fin_cases a <;> rfl

/-- The left operand's index at output entry `i` and contraction position `q` keeps `i`'s row … -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and takes the contraction position as its column. -/
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's index takes the contraction position as its row … -/
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and keeps `i`'s column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product accumulated into zero, at entry `(p, q)`: `∑ k, x[p, k] · w[k, q]`. -/
theorem product_at (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row spread over the block reads row 0 at every entry. -/
theorem bias_at (b : FVec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- THE BODY'S ARITHMETIC AT AN ENTRY: `max (∑ k, x[p, k] · w[k, q] + b[0, q]) 0`. -/
theorem payload_at (x : Vec Ideal S4000x128 .f32) (w : Vec Ideal S128x128 .f32) (b : Vec Ideal S1x128 .f32) (p : Fin 4000) (q : Fin 128) :
    k2_pay1 x w b (ix2 p q) = max ((∑ k : Fin 128, x (ix2 p k) * w (ix2 k q)) + b (ix2 (0 : Fin 1) q)) 0 := by
  unfold k2_pay1
  rw [maximumf_apply, addf_apply, product_at, bias_at, shapeCast_self, shapeCast_self, broadcast_apply]
  simp only [truncf_apply]
  show max _ (Ideal.ofBits .f32 0x00000000#32) = _
  rw [Ideal.ofBits_zero_f32]

/-! ## The blocks -/

/-- The arrays the region reads, as it finds them. -/
abbrev aArr (c : Dev nD) : FVec Ideal S100000x128 .f32 := V c main_v72
abbrev wArr (c : Dev nD) : FVec Ideal S128x128 .f32 := V c main_arg7
abbrev bArr (c : Dev nD) : FVec Ideal S1x128 .f32 := V c main_v73

/-- The dense layer of those arrays. -/
abbrev layer (c : Dev nD) : FVec Ideal S100000x128 .f32 := Cert.Glue.dense (aArr V c) (wArr V c) (bArr V c)

/-- The printed index maps, decided over the grid: the row windows move one block per point, the others stay. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 25 :=
  (by decide +kernel : ∀ t : Fin grid2.N, _)

/-- The three input windows' blocks at point `t`. -/
abbrev aBlk (c : Dev nD) (t : Fin cfg2.N) : Vec Ideal S4000x128 .f32 := iblk2 V c 0 t
abbrev wBlk (c : Dev nD) (t : Fin cfg2.N) : Vec Ideal S128x128 .f32 := iblk2 V c 1 t
abbrev bBlk (c : Dev nD) (t : Fin cfg2.N) : Vec Ideal S1x128 .f32 := iblk2 V c 2 t

/-- Block `t` of the row window, at entry `(p, k)`, is row `4000 t + p` of the array. -/
theorem aBlk_at (c : Dev nD) (t : Fin cfg2.N) (p : Fin 4000) (k : Fin 128) (r : Fin 100000) (hr : r.val = 4000 * t.val + p.val) :
    aBlk V c t (ix2 p k) = aArr V c (ix2 r k) := by
  obtain ⟨e0, e1, -⟩ := index_facts t
  unfold aBlk iblk2
  rw [View.read_apply]
  show V c main_v72 _ = V c main_v72 _
  congr 1
  funext a
  apply Fin.ext
  match a with
  | ⟨0, _⟩ => show win2_0.index t 0 * 4000 + 1 * p.val = r.val; rw [e0, hr]; omega
  | ⟨1, _⟩ => show win2_0.index t 1 * 128 + 1 * k.val = k.val; rw [e1]; omega

/-- The matrix window's block is the whole matrix at every point. -/
theorem wBlk_at (c : Dev nD) (t : Fin cfg2.N) (k : Fin 128) (q : Fin 128) :
    wBlk V c t (ix2 k q) = wArr V c (ix2 k q) := by
  obtain ⟨-, -, e0, e1, -⟩ := index_facts t
  unfold wBlk iblk2
  rw [View.read_apply]
  show V c main_arg7 _ = V c main_arg7 _
  congr 1
  funext a
  apply Fin.ext
  match a with
  | ⟨0, _⟩ => show win2_1.index t 0 * 128 + 1 * k.val = k.val; rw [e0]; omega
  | ⟨1, _⟩ => show win2_1.index t 1 * 128 + 1 * q.val = q.val; rw [e1]; omega

/-- The bias window's block is the whole bias row at every point. -/
theorem bBlk_at (c : Dev nD) (t : Fin cfg2.N) (q : Fin 128) :
    bBlk V c t (ix2 (0 : Fin 1) q) = bArr V c (ix2 (0 : Fin 1) q) := by
  obtain ⟨-, -, -, -, e0, e1, -⟩ := index_facts t
  unfold bBlk iblk2
  rw [View.read_apply]
  show V c main_v73 _ = V c main_v73 _
  congr 1
  funext a
  apply Fin.ext
  match a with
  | ⟨0, _⟩ => show win2_2.index t 0 * 1 + 1 * 0 = 0; rw [e0]
  | ⟨1, _⟩ => show win2_2.index t 1 * 128 + 1 * q.val = q.val; rw [e1]; omega

/-- Entry `(p, q)` of the output window's block `t` sits at row `4000 t + p`, column `q` of the array. -/
theorem out_emb (t : Fin cfg2.N) (p : Fin 4000) (q : Fin 128) (r : Fin 100000) (hr : r.val = 4000 * t.val + p.val) :
    ((cfg2.win 3).blk t).view.emb (ix2 p q) = (ix2 r q : S100000x128.Idx) := by
  obtain ⟨-, -, -, -, -, -, e0, e1, -⟩ := index_facts t
  funext a
  apply Fin.ext
  match a with
  | ⟨0, _⟩ => show win2_3.index t 0 * 4000 + 1 * p.val = r.val; rw [e0, hr]; omega
  | ⟨1, _⟩ => show win2_3.index t 1 * 128 + 1 * q.val = q.val; rw [e1]; omega

/-- WHAT POINT `t` WRITES BACK is block `t` of the dense layer. -/
theorem flushed_eq (c : Dev nD) (t : Fin cfg2.N) :
    (dat2 (F := Ideal) V c).flushed 3 t = ((cfg2.win 3).blk t).view.read (Elt Ideal) (layer V c) := by
  show (cfg2.win 3).cut (grid2.coords t) ((dat2 V c).after 3 t) = _
  rw [after2_3]
  unfold out2_3
  rw [View.canon_unit_zero zero_offsets]
  simp only [View.ld_unit_zero (S := S4000x128) zero_offsets, View.ld_unit_zero (S := S128x128) zero_offsets, View.ld_unit_zero (S := S1x128) zero_offsets]
  funext j
  obtain ⟨p, q, rfl⟩ : ∃ (p : Fin 4000) (q : Fin 128), j = ix2 p q := ⟨j 0, j 1, eq_ix2 j⟩
  have hp : p.val < 4000 := p.isLt
  have hr : 4000 * t.val + p.val < 100000 := by have := (index_facts t).2.2.2.2.2.2.2.2; omega
  have hsum : (∑ k : Fin 128, aBlk V c t (ix2 p k) * wBlk V c t (ix2 k q))
      = ∑ k : Fin 128, aArr V c (ix2 ⟨4000 * t.val + p.val, hr⟩ k) * wArr V c (ix2 k q) :=
    Finset.sum_congr rfl fun k _ => by rw [aBlk_at V c t p k ⟨4000 * t.val + p.val, hr⟩ rfl, wBlk_at V c t k q]
  refine (payload_at (aBlk V c t) (wBlk V c t) (bBlk V c t) p q).trans ?_
  show _ = layer V c (((cfg2.win 3).blk t).view.emb (ix2 p q))
  rw [out_emb t p q ⟨4000 * t.val + p.val, hr⟩ rfl, hsum, bBlk_at V c t q]
  rfl

/-- Every entry of the array lies in the block of the point its row names: row `r` in block `r / 4000`. -/
theorem covered (i : S100000x128.Idx) :
    ∃ t : Fin cfg2.N, (cfg2.win 3).flush t = true ∧ i ∈ ((cfg2.win 3).blk t).view.set := by
  have h0 : (i 0).val < 100000 := (i 0).isLt
  have h1 : (i 1).val < 128 := (i 1).isLt
  obtain ⟨t, ht⟩ : ∃ t : Fin cfg2.N, t.val = (i 0).val / 4000 :=
    ⟨⟨(i 0).val / 4000, by rw [show cfg2.N = 25 from N_2]; omega⟩, rfl⟩
  obtain ⟨-, -, -, -, -, -, e0, e1, -⟩ := index_facts t
  refine ⟨t, flush2_3 t, ?_⟩
  show i ∈ ((View.whole main_v74).slice (win2_3.rect t)).set
  rw [View.set_slice_whole, Rect.mem_set_unit]
  intro a
  match a with
  | ⟨0, _⟩ => show win2_3.index t 0 * 4000 ≤ (i 0).val ∧ (i 0).val < win2_3.index t 0 * 4000 + 4000; rw [e0, ht]; omega
  | ⟨1, _⟩ => show win2_3.index t 1 * 128 ≤ (i 1).val ∧ (i 1).val < win2_3.index t 1 * 128 + 128; rw [e1]; omega

/-- The output array after region 2, from any entry contents `V`: the dense layer of the three input arrays. -/
theorem final (c : Dev nD) :
    (dat2 (F := Ideal) V c).arrAt 3 cfg2.N = Cert.Glue.dense (V c main_v72) (V c main_arg7) (V c main_v73) :=
  (dat2 (F := Ideal) V c).arrAt_eq_of_cover 3 (layer V c) (fun t _ => flushed_eq V c t) covered

end Cert.KernelIdeal.Dense2

end
-- ==== Proof.Head3.lean ====
/-
  What the last region of the kernel program leaves in its output array, as one function of the arrays it reads.

  The region has one grid point and every window is its whole array: the per-graph sums over the clamped counts,
  through the head's matrix, plus its one-row bias.
-/
import proofs.«126862_j35218731827641_1_alg».proof.Proof.Gen.KernelIdeal.Frame
import proofs.«126862_j35218731827641_1_alg».proof.Proof.Glue
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Head3

open Cert.KernelIdeal Cert.KernelIdeal.Gen Idealize.ShloMosaic Idealize.ShloMosaic.TcCoe Idealize.SL.Sem
open Idealize.ShloMosaic.ValueIdx

/-! ## The matrix product at an entry

The product contracts the left operand's columns against the right operand's rows, so its operands at output entry
`(g, o)` and contraction position `k` are entries `(g, k)` and `(k, o)`: one equation per axis of each operand. -/

theorem lhs_axis0 (i : S512x2.Idx) (q : dot_S512x128_S128x2_S512x2_1_0_0_1_n_n.contr.Idx) :
    (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
theorem lhs_axis1 (i : S512x2.Idx) (q : dot_S512x128_S128x2_S512x2_1_0_0_1_n_n.contr.Idx) :
    (dot_S512x128_S128x2_S512x2_1_0_0_1_n_n.lhsIdx i q 1).val = (q ⟨0, by decide⟩).val :=
  dot_S512x128_S128x2_S512x2_1_0_0_1_n_n.lhsIdx_val_of_single rfl i q
theorem rhs_axis0 (i : S512x2.Idx) (q : dot_S512x128_S128x2_S512x2_1_0_0_1_n_n.contr.Idx) :
    (dot_S512x128_S128x2_S512x2_1_0_0_1_n_n.rhsIdx i q 0).val = (q ⟨0, by decide⟩).val :=
  dot_S512x128_S128x2_S512x2_1_0_0_1_n_n.rhsIdx_val_of_single rfl i q
theorem rhs_axis1 (i : S512x2.Idx) (q : dot_S512x128_S128x2_S512x2_1_0_0_1_n_n.contr.Idx) :
    (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- The product into the zero accumulator, at entry `(g, o)`: the sum over `k` of row `g` of the left operand against
    column `o` of the right one. -/
theorem product_entry (a : FVec Ideal S512x128 .bf16) (w : FVec Ideal S128x2 .bf16) (g : Fin 512) (o : Fin 2) :
    matmul dot_S512x128_S128x2_S512x2_1_0_0_1_n_n none a w (constant S512x2 .f32 0x00000000#32) (ix2 g o)
      = ∑ k : Fin 128, a (ix2 g k) * w (ix2 k o) := by
  simp only [matmul]
  rw [Ideal.matmul_constant_zero_apply, ← Equiv.sum_comp (ValueIdx.contrEquiv1 dot_S512x128_S128x2_S512x2_1_0_0_1_n_n 128 rfl rfl).symm]
  refine Finset.sum_congr rfl fun k _ => ?_
  have hk := ValueIdx.contrEquiv1_symm_val dot_S512x128_S128x2_S512x2_1_0_0_1_n_n 128 rfl rfl k
  have el : dot_S512x128_S128x2_S512x2_1_0_0_1_n_n.lhsIdx (ix2 g o) ((ValueIdx.contrEquiv1 dot_S512x128_S128x2_S512x2_1_0_0_1_n_n 128 rfl rfl).symm k) = ix2 g k := funext fun a => Fin.ext (by
    match a with
    | ⟨0, _⟩ => exact lhs_axis0 _ _
    | ⟨1, _⟩ => exact (lhs_axis1 _ _).trans hk)
  have er : dot_S512x128_S128x2_S512x2_1_0_0_1_n_n.rhsIdx (ix2 g o) ((ValueIdx.contrEquiv1 dot_S512x128_S128x2_S512x2_1_0_0_1_n_n 128 rfl rfl).symm k) = ix2 k o := funext fun a => Fin.ext (by
    match a with
    | ⟨0, _⟩ => exact (rhs_axis0 _ _).trans hk
    | ⟨1, _⟩ => exact rhs_axis1 _ _)
  rw [el, er]

/-! ## A column broadcast over many -/

/-- A `[a, 1]` array broadcast to `[a, b]` reads, at `(p, k)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-! ## The body's value at an entry -/

/-- The value the body stores, at entry `(g, o)`: row `g` of the sums over graph `g`'s count clamped below by the unit,
    against column `o` of the matrix, plus the bias at `o`. The clamp's unit stays the float literal; the change of
    format before the product is the identity on extended reals. -/
theorem stored_entry (cnt : Vec Ideal S512x1 .f32) (sums : Vec Ideal S512x128 .f32) (W : Vec Ideal S128x2 .f32)
    (b : Vec Ideal S1x2 .f32) (g : Fin 512) (o : Fin 2) :
    k3_pay1 (F := Ideal) cnt sums W b (ix2 g o)
      = (∑ k : Fin 128, Ideal.div (sums (ix2 g k)) (max (cnt (ix2 g (0 : Fin 1))) Cert.Glue.unit) * W (ix2 k o))
        + b (ix2 (0 : Fin 1) o) := by
  unfold k3_pay1
  rw [addf_apply, product_entry, broadcastTo_1b_ab_apply, shapeCast_self b]
  refine congrArg (· + b (ix2 (0 : Fin 1) o)) (Finset.sum_congr rfl fun k _ => ?_)
  rw [truncf_apply, truncf_apply, divf_apply, shapeCast_self sums, broadcastTo_a1_ab_apply, maximumf_apply,
    shapeCast_self cnt, broadcast_apply, Ideal.ofBits_def]
  rfl

/-- So the stored value is the head of the four blocks it was computed from. -/
theorem stored_eq_head (cnt : Vec Ideal S512x1 .f32) (sums : Vec Ideal S512x128 .f32) (W : Vec Ideal S128x2 .f32)
    (b : Vec Ideal S1x2 .f32) :
    k3_pay1 (F := Ideal) cnt sums W b = Cert.Glue.headArr Cert.Glue.unit sums cnt W b := by
  funext j
  obtain ⟨g, o, rfl⟩ : ∃ (g : Fin 512) (o : Fin 2), j = ix2 g o := ⟨j 0, j 1, eq_ix2 j⟩
  rw [stored_entry]
  rfl

/-! ## Every block is its whole array

The region's one grid point sits at block index zero on both axes of every window, and each block has its array's
sizes: read through such a block, an array is itself. -/

theorem hz : (![0, 0] : Fin 2 → Nat) = fun _ => 0 := funext fun a => by fin_cases a <;> rfl

theorem origin0 : (fun a => win3_0.index t3_0 a * main_v77.ty.shape.size a) = fun _ => 0 := funext fun a => by fin_cases a <;> decide
theorem origin1 : (fun a => win3_1.index t3_0 a * main_v82.ty.shape.size a) = fun _ => 0 := funext fun a => by fin_cases a <;> decide
theorem origin2 : (fun a => win3_2.index t3_0 a * main_arg9.ty.shape.size a) = fun _ => 0 := funext fun a => by fin_cases a <;> decide
theorem origin3 : (fun a => win3_3.index t3_0 a * main_v83.ty.shape.size a) = fun _ => 0 := funext fun a => by fin_cases a <;> decide
theorem origin4 : (fun a => win3_4.index t3_0 a * main_v84.ty.shape.size a) = fun _ => 0 := funext fun a => by fin_cases a <;> decide

variable (V : (c : Dev nD) → (b : Ref sig .tc) → Buf (Elt Ideal) ((c : Thread nD τ).loc b))

/-- The block of sums is the array of sums. -/
theorem sums_block (c : Dev nD) : (iblk3 V c 0 t3_0 : Vec Ideal S512x128 .f32) = V c main_v77 := by
  unfold iblk3
  exact Memref.read_access_unit_zero (Elt Ideal) main_v77 origin0 (fun a => by rw [congrFun origin0 a]; simp) (V c main_v77)
/-- The block of counts is the column of counts. -/
theorem counts_block (c : Dev nD) : (iblk3 V c 1 t3_0 : Vec Ideal S512x1 .f32) = V c main_v82 := by
  unfold iblk3
  exact Memref.read_access_unit_zero (Elt Ideal) main_v82 origin1 (fun a => by rw [congrFun origin1 a]; simp) (V c main_v82)
/-- The block of the matrix is the matrix. -/
theorem matrix_block (c : Dev nD) : (iblk3 V c 2 t3_0 : Vec Ideal S128x2 .f32) = V c main_arg9 := by
  unfold iblk3
  exact Memref.read_access_unit_zero (Elt Ideal) main_arg9 origin2 (fun a => by rw [congrFun origin2 a]; simp) (V c main_arg9)
/-- The block of the bias is the one-row bias. -/
theorem bias_block (c : Dev nD) : (iblk3 V c 3 t3_0 : Vec Ideal S1x2 .f32) = V c main_v83 := by
  unfold iblk3
  exact Memref.read_access_unit_zero (Elt Ideal) main_v83 origin3 (fun a => by rw [congrFun origin3 a]; simp) (V c main_v83)

/-! ## From the one block to the array -/

/-- What the one grid point writes back is the head of the four arrays, read through the output's block. -/
theorem written_back (c : Dev nD) (t : Fin cfg3.N) :
    (dat3 (F := Ideal) V c).flushed 4 t
      = ((cfg3.win 4).blk t).view.read (Elt Ideal)
          (Cert.Glue.headArr Cert.Glue.unit (V c main_v77) (V c main_v82) (V c main_arg9) (V c main_v83)) := by
  obtain rfl : t = t3_0 := fin_N3 t
  show (cfg3.win 4).cut (grid3.coords t3_0) ((dat3 V c).after 4 t3_0) = _
  rw [after3_4]
  unfold out3_4
  rw [View.canon_unit_zero hz]
  simp only [View.ld_unit_zero (S := S512x1) hz, View.ld_unit_zero (S := S512x128) hz, View.ld_unit_zero (S := S128x2) hz,
    View.ld_unit_zero (S := S1x2) hz]
  rw [sums_block V c, counts_block V c, matrix_block V c, bias_block V c, stored_eq_head]
  exact (Memref.read_access_unit_zero (Elt Ideal) main_v84 origin4 (fun a => by rw [congrFun origin4 a]; simp) _).symm

/-- The output array after the last region, from any entry contents `V`: the head of the four input arrays. The one
    point's block covers the whole array. -/
theorem final (c : Dev nD) :
    (dat3 (F := Ideal) V c).arrAt 4 cfg3.N
      = Cert.Glue.headArr Cert.Glue.unit (V c main_v77) (V c main_v82) (V c main_arg9) (V c main_v83) :=
  (dat3 (F := Ideal) V c).arrAt_eq_of_cover 4 _ (fun t _ => written_back V c t) fun i =>
    ⟨t3_0, flush3_4 t3_0, by
      show i ∈ ((View.whole main_v84).slice (win3_4.rect t3_0)).set
      rw [View.set_slice_whole]
      exact View.mem_set_unit_zero origin4 _ i⟩

end Cert.KernelIdeal.Head3

end
-- ==== Proof.LibRowsScatter.lean ====
/-
  A scatter-add of rows, read at an index, over the extended reals.

  What a segment sum of a MATRIX of updates `upd : [E, D]` at a column of indices `idx : [E, 1]` into an operand
  `x : [N, D]` lowers to: a `stablehlo.scatter` with an add body whose update window is the updates' second axis
  (update_window_dims `[1]`), whose operand row axis is inserted (inserted_window_dims `[0]`) and is the one axis
  the index vector addresses (scatter_dims_to_operand_dims `[0]`, index_vector_dim `1`): row `e` of the updates is
  added, whole, to row `idx[e, 0]` of the operand. Over the extended reals element `(v, c)` of the result is the
  operand's plus the sum of `upd[e, c]` over the positions `e` whose index `idx[e, 0]`, read as a signed integer
  and NOT clamped, is `v`: an update row whose signed index is no row of the operand is dropped.
-/
import Idealize.ShloMosaic.PureOps.Ideal
import Idealize.ShloMosaic.Lib.ValueIdx

noncomputable section

open scoped BigOperators

namespace Cert.LibRowsScatter

open Idealize.ShloMosaic Idealize.ShloMosaic.ValueIdx

/-! ## The coordinates of the landing index

For an update index `(e, c')`. The operand's row axis is inserted and addressed by the index vector: its window
coordinate is `0` and its window starts at the signed word `idx[e, 0]`. The operand's column axis is the image of the
updates' window axis and no index addresses it: its window starts at `0` and its window coordinate is the update's
column `c'`. Each fact is read off the record once its four lists are the stated literals. -/

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

/-- On the operand's row axis the window starts at the signed index of the update's row. -/
theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- On the operand's column axis, which no index addresses, the window starts at `0`. -/
theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  unfold ScatterDims.start
  exact dif_neg fun h => Nat.one_ne_zero (congrArg Fin.val (List.mem_singleton.mp h))

/-- The operand's row axis is inserted: its window coordinate is `0`. -/
theorem window_row (e : Fin E) (c' : Fin D) : s.window (ix2 e c') 0 = 0 := by
  obtain ⟨uw, iw, sd, iv, wf⟩ := s
  subst huw hiw hsd hiv
  rfl

/-- The operand's column axis carries the updates' window axis: its window coordinate is the update's column. -/
theorem window_col (e : Fin E) (c' : Fin D) : s.window (ix2 e c') 1 = c'.val := by
  obtain ⟨uw, iw, sd, iv, wf⟩ := s
  subst huw hiw hsd hiv
  rfl

/-! ## Where an update lands -/

/-- WHERE AN UPDATE LANDS: update index `(e, c')` lands on `(v, c)` exactly when the signed index of row `e` is `v`
    and the columns agree. Left to right the landing index exists, so the row start is nonnegative and its `toNat` is
    `v`, while the column coordinate is `c'` itself; right to left both coordinates are in range (`v < N`, `c < D`)
    and the index built from them is `(v, c)`. -/
theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      exact ⟨by omega, Fin.ext (by omega)⟩
    · exact absurd h (by simp)
  · rintro ⟨hv, rfl⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c'.val
      rw [h1, w1]; omega

end Coordinates

/-! ## The sum over the landing updates -/

/-- The sum of the updates that land on `(v, c)` is the sum over the update rows `e` of `upd[e, c]` guarded by "the
    signed index of `e` is `v`": the filtered sum is a sum of guarded terms over all update indices, that is the double
    sum over rows and columns; the guard is the landing condition, whose column half keeps the one column `c` of each
    row. -/
theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  have hg : ∀ c' : Fin D,
      (if s.resultIdx? (ix2 e c') idx = some (ix2 v c) then upd (ix2 e c') else 0)
        = if c' = c then (if (idx (ix2 e (0 : Fin 1))).toInt = (v.val : ℤ) then upd (ix2 e c') else 0) else 0 := by
    intro c'
    have hl := resultIdx?_eq_some_iff s huw hiw hsd hiv idx e c' v c
    by_cases hc : c' = c
    · rw [if_pos hc]
      exact if_congr (hl.trans (and_iff_left hc)) rfl rfl
    · rw [if_neg hc, if_neg fun h => hc (hl.mp h).2]
  rw [Finset.sum_congr rfl fun c' _ => hg c', Finset.sum_ite_eq' Finset.univ c, if_pos (Finset.mem_univ c)]

/-- THE SCATTER-ADD OF ROWS READ AT `(v, c)`: for any dimension-number record of the row segment-sum form, the
    operand's element plus the sum over the update rows `e` whose signed index is `v` of the update's element
    `(e, c)`. -/
theorem rowsScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowsScatter

end
-- ==== Proof.LibVecScatter.lean ====
/-
  A scatter-add of scalars into a vector, read at an index, over the extended reals.

  What a count of occurrences, or a segment sum of a VECTOR of updates `upd : [E]` at a column of indices
  `idx : [E, 1]` into an operand `x : [N]`, lowers to: a `stablehlo.scatter` with an add body that has no update
  window at all (update_window_dims `[]`), whose one operand axis is inserted (inserted_window_dims `[0]`) and is
  the axis the index vector addresses (scatter_dims_to_operand_dims `[0]`, index_vector_dim `1`): the scalar
  `upd[e]` is added to the entry `idx[e, 0]` of the operand. Over the extended reals entry `v` of the result is the
  operand's entry plus the sum of `upd[e]` over the positions `e` whose index word `idx[e, 0]`, read as a signed
  integer and NOT clamped, is `v`; a position whose signed index is no entry of the operand adds nothing anywhere.
-/
import Idealize.ShloMosaic.PureOps.Ideal
import Idealize.ShloMosaic.Lib.ValueIdx

noncomputable section

open scoped BigOperators

namespace Cert.LibVecScatter

open Idealize.ShloMosaic Idealize.ShloMosaic.ValueIdx

/-! ## A rank-1 index set is its coordinate -/

/-- The indices of a vector of length `n` are the numbers below `n`. -/
def idxEquiv1 {n : Nat} : (⟨1, ![n]⟩ : Shape).Idx ≃ Fin n where
  toFun i := i 0
  invFun a := ix1 a
  left_inv i := (eq_ix1 i).symm
  right_inv _ := rfl

/-- … so a sum over them is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where a scalar update lands

The operand has one axis. It is inserted, so an update has no window coordinate on it; it is the axis the index
vector addresses, so the window of update `e` starts at the signed word `idx[e, 0]`. The landing coordinate,
start plus window coordinate, is therefore that signed word itself. -/

section Landing

variable {N E w : Nat}
  (s : ScatterDims (⟨1, ![N]⟩ : Shape) (⟨2, ![E, 1]⟩ : Shape) (⟨1, ![E]⟩ : Shape))
  (huw : s.updateWindowDims = []) (hiw : s.insertedWindowDims = [0])
  (hsd : s.scatterDimsToOperandDims = [0]) (hiv : s.indexVectorDim = 1)

include huw hiw hsd hiv

/-- The landing coordinate of update `e` on the operand's axis is its signed index word. -/
theorem landing_coord (idx : IVec (⟨2, ![E, 1]⟩ : Shape) w) (e : Fin E) :
    s.start (ix1 e) idx 0 + (s.window (ix1 e) 0 : ℤ) = (idx (ix2 e (0 : Fin 1))).toInt := by
  obtain ⟨uw, iw, sd, iv, wf⟩ := s
  subst huw hiw hsd hiv
  have hwin : (ScatterDims.mk [] [0] [0] 1 wf).window (ix1 e) 0 = 0 := rfl
  have hst : (ScatterDims.mk [] [0] [0] 1 wf).start (ix1 e) idx 0 = (idx (ix2 e (0 : Fin 1))).toInt := by
    unfold ScatterDims.start
    rw [dif_pos (List.mem_singleton.mpr rfl)]
    refine congrArg (fun i => (idx i).toInt) (funext fun b => Fin.ext ?_)
    match b with
    | ⟨0, _⟩ => rfl
    | ⟨1, _⟩ => rfl
  rw [hwin, hst]
  simp

/-- WHERE A SCALAR UPDATE LANDS: update `e` lands on entry `v` exactly when its signed index word is `v`. If the
    landing index exists its coordinate, the `toNat` of a nonnegative integer, is `v`; conversely the signed word
    `v` is in range because `v < N`. -/
theorem resultIdx?_eq_some_iff (idx : IVec (⟨2, ![E, 1]⟩ : Shape) w) (e : Fin E) (v : Fin N) :
    s.resultIdx? (ix1 e) idx = some (ix1 v) ↔ (idx (ix2 e (0 : Fin 1))).toInt = (v.val : ℤ) := by
  have hc := landing_coord s huw hiw hsd hiv idx e
  unfold ScatterDims.resultIdx?
  constructor
  · intro h
    split at h
    · rename_i hr
      have e0 := congrArg Fin.val (congrFun (Option.some.inj h) 0)
      have r0 := (hr 0).1
      rw [hc] at r0
      simp only [hc] at e0
      change _ = v.val at e0
      omega
    · exact absurd h (by simp)
  · intro hv
    have hr : ∀ a, 0 ≤ s.start (ix1 e) idx a + s.window (ix1 e) a ∧
        s.start (ix1 e) idx a + s.window (ix1 e) a < (⟨1, ![N]⟩ : Shape).size a := by
      intro a
      match a with
      | ⟨0, _⟩ =>
        show 0 ≤ s.start (ix1 e) idx 0 + s.window (ix1 e) 0 ∧ s.start (ix1 e) idx 0 + s.window (ix1 e) 0 < (N : ℤ)
        rw [hc, hv]; have := v.isLt; omega
    rw [dif_pos hr]
    refine congrArg some (funext fun a => Fin.ext ?_)
    match a with
    | ⟨0, _⟩ =>
      show (s.start (ix1 e) idx 0 + s.window (ix1 e) 0).toNat = v.val
      rw [hc, hv]; omega

end Landing

/-! ## The scatter-add read at an entry -/

/-- THE SCATTER-ADD OF SCALARS READ AT `v`: for any dimension-number record of this form, the operand's entry plus
    the sum over the positions `e` whose signed index word is `v` of the scalar `upd[e]`. The sum over the updates
    that land on `v` is a sum of guarded terms over all positions, and the guard is the landing condition. -/
theorem vecScatterAdd_apply {φ : FTy} {N E w : Nat}
    (s : ScatterDims (⟨1, ![N]⟩ : Shape) (⟨2, ![E, 1]⟩ : Shape) (⟨1, ![E]⟩ : Shape))
    (huw : s.updateWindowDims = []) (hiw : s.insertedWindowDims = [0])
    (hsd : s.scatterDimsToOperandDims = [0]) (hiv : s.indexVectorDim = 1)
    (x : FVec Ideal (⟨1, ![N]⟩ : Shape) φ) (idx : IVec (⟨2, ![E, 1]⟩ : Shape) w)
    (upd : FVec Ideal (⟨1, ![E]⟩ : Shape) φ) (v : Fin N) :
    Host.scatterAdd s x idx upd (ix1 v)
      = x (ix1 v) + ∑ e : Fin E, if (idx (ix2 e (0 : Fin 1))).toInt = (v.val : ℤ) then upd (ix1 e) else 0 := by
  refine congrArg (x (ix1 v) + ·) ?_
  rw [Finset.sum_filter, sum_idx1]
  exact Finset.sum_congr rfl fun e _ => if_congr (resultIdx?_eq_some_iff s huw hiw hsd hiv idx e v) rfl rfl

end Cert.LibVecScatter

end
-- ==== Proof.Reads.lean ====
/-
  Three host patterns read as the specification's sums, over the extended reals.

  (1) Rows gathered at a column of start indices, row `e` scaled by the weight `n[e]` (the weight vector made a
      column and repeated along the row), added into zeros at a column of destinations: the aggregate `agg`.
  (2) Rows added into zeros at a column of graph numbers: the per-graph sum `segSum`.
  (3) The unit added into zeros at a column of graph numbers: the per-graph count `segCount`.
-/
import proofs.«126862_j35218731827641_1_alg».proof.Proof.Glue
import proofs.«126862_j35218731827641_1_alg».proof.Proof.LibRowsScatter
import proofs.«126862_j35218731827641_1_alg».proof.Proof.LibGatherRows
import proofs.«126862_j35218731827641_1_alg».proof.Proof.LibVecScatter
import Idealize.ShloMosaic.Lib.Pipeline.Value
import Idealize.ShloMosaic.PureOps.Ideal.Laws

noncomputable section

open scoped BigOperators

namespace Cert.Reads

open Idealize.ShloMosaic Idealize.ShloMosaic.ValueIdx Cert.Glue Cert.Spec

/-! ## The operands read at an index

The zero operand and the unit updates are a float literal repeated over the whole array, so every element is the
literal's value. The weight operand is the weight vector `n : [E]` made a column `[E, 1]` and then repeated along the
row to `[E, D]`: element `(e, k)` of the result reads the column at `(e, 0)`, which reads the vector at `e`. (A
repeat reads coordinate `0` on an operand axis of extent one and the result's own coordinate elsewhere; on the edge
axis the two agree even when `E = 1`, the one coordinate of such an axis being `0`.) -/

/-- The float literal zero repeated over a matrix reads `0` everywhere. -/
private theorem zeroMat_apply {A B : Nat}
    (hb : (⟨0, ![]⟩ : Shape).BroadcastsInDim (⟨2, ![A, B]⟩ : Shape) (![] : Fin 0 → Fin 2))
    (j : (⟨2, ![A, B]⟩ : Shape).Idx) :
    broadcastInDim (⟨2, ![A, B]⟩ : Shape) ![] hb (constant (F := Ideal) (⟨0, ![]⟩ : Shape) .f32 0x00000000#32) j
      = 0 :=
  Ideal.ofBits_zero_f32

/-- The float literal zero repeated over a vector reads `0` everywhere. -/
private theorem zeroVec_apply {A : Nat}
    (hb : (⟨0, ![]⟩ : Shape).BroadcastsInDim (⟨1, ![A]⟩ : Shape) (![] : Fin 0 → Fin 1))
    (j : (⟨1, ![A]⟩ : Shape).Idx) :
    broadcastInDim (⟨1, ![A]⟩ : Shape) ![] hb (constant (F := Ideal) (⟨0, ![]⟩ : Shape) .f32 0x00000000#32) j
      = 0 :=
  Ideal.ofBits_zero_f32

/-- The float literal one repeated over a vector reads the unit everywhere. -/
private theorem unitVec_apply {A : Nat}
    (hb : (⟨0, ![]⟩ : Shape).BroadcastsInDim (⟨1, ![A]⟩ : Shape) (![] : Fin 0 → Fin 1))
    (j : (⟨1, ![A]⟩ : Shape).Idx) :
    broadcastInDim (⟨1, ![A]⟩ : Shape) ![] hb (constant (F := Ideal) (⟨0, ![]⟩ : Shape) .f32 0x3F800000#32) j
      = unit :=
  rfl

/-- A coordinate on an axis of extent `E` is what a repeat reads there: itself, or `0` when `E = 1` — the same
    thing, since the one coordinate of such an axis is `0`. -/
private theorem coord_eq_repeatCoord {E : Nat} (e : Fin E) : e.val = if E = 1 then 0 else e.val := by
  split
  · have := e.isLt; omega
  · rfl

/-- The weight vector made a column and repeated along the row reads, at `(e, k)`, the weight of `e`. -/
private theorem weightRows_apply {α : Type} {E D : Nat}
    (hb1 : (⟨1, ![E]⟩ : Shape).BroadcastsInDim (⟨2, ![E, 1]⟩ : Shape) (![0] : Fin 1 → Fin 2))
    (hb2 : (⟨2, ![E, 1]⟩ : Shape).BroadcastsInDim (⟨2, ![E, D]⟩ : Shape) (![0, 1] : Fin 2 → Fin 2))
    (n : (⟨1, ![E]⟩ : Shape).Idx → α) (e : Fin E) (k : Fin D) :
    broadcastInDim (⟨2, ![E, D]⟩ : Shape) ![0, 1] hb2 (broadcastInDim (⟨2, ![E, 1]⟩ : Shape) ![0] hb1 n) (ix2 e k)
      = n (ix1 e) := by
  have h2 : ∀ a : Fin 2, ((ix2 e (0 : Fin 1) : (⟨2, ![E, 1]⟩ : Shape).Idx) a).val
      = if (⟨2, ![E, 1]⟩ : Shape).size a = 1 then 0
        else ((ix2 e k : (⟨2, ![E, D]⟩ : Shape).Idx) ((![0, 1] : Fin 2 → Fin 2) a)).val := by
    intro a
    match a with
    | ⟨0, _⟩ => exact coord_eq_repeatCoord e
    | ⟨1, _⟩ => rfl
  have h1 : ∀ a : Fin 1, ((ix1 e : (⟨1, ![E]⟩ : Shape).Idx) a).val
      = if (⟨1, ![E]⟩ : Shape).size a = 1 then 0
        else ((ix2 e (0 : Fin 1) : (⟨2, ![E, 1]⟩ : Shape).Idx) ((![0] : Fin 1 → Fin 2) a)).val := by
    intro a
    match a with
    | ⟨0, _⟩ => exact coord_eq_repeatCoord e
  exact (broadcastInDim_apply ![0, 1] hb2 _ (ix2 e k) (ix2 e (0 : Fin 1)) h2).trans
    (broadcastInDim_apply ![0] hb1 n (ix2 e (0 : Fin 1)) (ix1 e) h1)

/-! ## The three readings -/

/-- (1) THE AGGREGATE: the scatter-add, into zeros at the destinations `dcol`, of the rows of `h` gathered at `scol`
    and scaled by the repeated weight column, is `agg` of `h` at the rows `scol` reads, the words `dcol` holds and the
    weights `nrm`. -/
theorem agg_read {N E D : Nat} (hN : 0 < N)
    (gd : GatherDims (⟨2, ![N, D]⟩ : Shape) (⟨2, ![E, 1]⟩ : Shape) (⟨2, ![E, D]⟩ : Shape))
    (hoff : gd.offsetDims = [1]) (hcoll : gd.collapsedSliceDims = [0]) (hob : gd.operandBatchingDims = [])
    (hsim : gd.startIndexMap = [0]) (hivd : gd.indexVectorDim = 1)
    (sd : ScatterDims (⟨2, ![N, D]⟩ : Shape) (⟨2, ![E, 1]⟩ : Shape) (⟨2, ![E, D]⟩ : Shape))
    (huw : sd.updateWindowDims = [1]) (hiw : sd.insertedWindowDims = [0])
    (hsd : sd.scatterDimsToOperandDims = [0]) (hiv : sd.indexVectorDim = 1)
    (hb0 : (⟨0, ![]⟩ : Shape).BroadcastsInDim (⟨2, ![N, D]⟩ : Shape) (![] : Fin 0 → Fin 2))
    (hb1 : (⟨1, ![E]⟩ : Shape).BroadcastsInDim (⟨2, ![E, 1]⟩ : Shape) (![0] : Fin 1 → Fin 2))
    (hb2 : (⟨2, ![E, 1]⟩ : Shape).BroadcastsInDim (⟨2, ![E, D]⟩ : Shape) (![0, 1] : Fin 2 → Fin 2))
    (h : FVec Ideal (⟨2, ![N, D]⟩ : Shape) .f32) (scol dcol : IVec (⟨2, ![E, 1]⟩ : Shape) 32)
    (nrm : FVec Ideal (⟨1, ![E]⟩ : Shape) .f32) :
    Host.scatterAdd sd
        (broadcastInDim (⟨2, ![N, D]⟩ : Shape) ![] hb0 (constant (F := Ideal) (⟨0, ![]⟩ : Shape) .f32 0x00000000#32))
        dcol
        (mulf (Host.gather gd h scol)
          (broadcastInDim (⟨2, ![E, D]⟩ : Shape) ![0, 1] hb2 (broadcastInDim (⟨2, ![E, 1]⟩ : Shape) ![0] hb1 nrm)))
      = arr2 (agg (mat h) (rowOf hN scol) (wordOf dcol) (vec nrm)) := by
  funext j
  obtain ⟨v, k, rfl⟩ : ∃ v k, j = ix2 v k := ⟨j 0, j 1, eq_ix2 j⟩
  rw [Cert.LibRowsScatter.rowsScatterAdd_apply sd huw hiw hsd hiv, zeroMat_apply hb0 (ix2 v k), zero_add, arr2_apply]
  unfold agg
  refine Finset.sum_congr rfl fun e _ => if_congr Iff.rfl ?_ rfl
  rw [mulf_apply, Cert.LibGatherRows.gatherRows_apply hN gd hoff hcoll hob hsim hivd, weightRows_apply hb1 hb2]
  rfl

/-- (2) THE PER-GRAPH SUM: the scatter-add of the rows of `h` into zeros at the column `col` is `segSum` of `h` at the
    words `col` holds. -/
theorem segSum_read {N G D : Nat}
    (sd : ScatterDims (⟨2, ![G, D]⟩ : Shape) (⟨2, ![N, 1]⟩ : Shape) (⟨2, ![N, D]⟩ : Shape))
    (huw : sd.updateWindowDims = [1]) (hiw : sd.insertedWindowDims = [0])
    (hsd : sd.scatterDimsToOperandDims = [0]) (hiv : sd.indexVectorDim = 1)
    (hb0 : (⟨0, ![]⟩ : Shape).BroadcastsInDim (⟨2, ![G, D]⟩ : Shape) (![] : Fin 0 → Fin 2))
    (h : FVec Ideal (⟨2, ![N, D]⟩ : Shape) .f32) (col : IVec (⟨2, ![N, 1]⟩ : Shape) 32) :
    Host.scatterAdd sd
        (broadcastInDim (⟨2, ![G, D]⟩ : Shape) ![] hb0 (constant (F := Ideal) (⟨0, ![]⟩ : Shape) .f32 0x00000000#32))
        col h
      = arr2 (segSum (mat h) (wordOf col)) := by
  funext j
  obtain ⟨g, k, rfl⟩ : ∃ g k, j = ix2 g k := ⟨j 0, j 1, eq_ix2 j⟩
  rw [Cert.LibRowsScatter.rowsScatterAdd_apply sd huw hiw hsd hiv, zeroMat_apply hb0 (ix2 g k), zero_add, arr2_apply]
  unfold segSum
  exact Finset.sum_congr rfl fun i _ => if_congr Iff.rfl rfl rfl

/-- (3) THE PER-GRAPH COUNT: the scatter-add of the repeated unit into zeros at the column `col` is `segCount` at the
    words `col` holds. -/
theorem segCount_read {N G : Nat}
    (sd : ScatterDims (⟨1, ![G]⟩ : Shape) (⟨2, ![N, 1]⟩ : Shape) (⟨1, ![N]⟩ : Shape))
    (huw : sd.updateWindowDims = []) (hiw : sd.insertedWindowDims = [0])
    (hsd : sd.scatterDimsToOperandDims = [0]) (hiv : sd.indexVectorDim = 1)
    (hb0 : (⟨0, ![]⟩ : Shape).BroadcastsInDim (⟨1, ![G]⟩ : Shape) (![] : Fin 0 → Fin 1))
    (hb1 : (⟨0, ![]⟩ : Shape).BroadcastsInDim (⟨1, ![N]⟩ : Shape) (![] : Fin 0 → Fin 1))
    (col : IVec (⟨2, ![N, 1]⟩ : Shape) 32) (g : Fin G) :
    Host.scatterAdd sd
        (broadcastInDim (⟨1, ![G]⟩ : Shape) ![] hb0 (constant (F := Ideal) (⟨0, ![]⟩ : Shape) .f32 0x00000000#32))
        col
        (broadcastInDim (⟨1, ![N]⟩ : Shape) ![] hb1 (constant (F := Ideal) (⟨0, ![]⟩ : Shape) .f32 0x3F800000#32))
        (ix1 g)
      = segCount unit (wordOf col) g := by
  rw [Cert.LibVecScatter.vecScatterAdd_apply sd huw hiw hsd hiv, zeroVec_apply hb0 (ix1 g), zero_add]
  unfold segCount
  exact Finset.sum_congr rfl fun i _ => if_congr Iff.rfl (unitVec_apply hb1 (ix1 i)) rfl

end Cert.Reads

end
-- ==== Proof.Shared.lean ====
/-
  The graph both programs read off their integer arguments.

  Both programs build, from the edge list `x1 : [2, 1600000]` with the self loops appended, the same column of source
  numbers (after the indexing rule for negative numbers), the same column of destination numbers and the same edge
  weights, and from the graph ids `x2 : [100000]` the same column of graph numbers. They are named here once, from the
  reference's stages, in the form the specification takes them: the row an edge reads, the word it adds into, its
  weight, and the word a node's graph id holds.
-/
import proofs.«126862_j35218731827641_1_alg».proof.Proof.RefRead
import proofs.«126862_j35218731827641_1_alg».proof.Proof.Glue

noncomputable section

open scoped BigOperators

namespace Cert.Shared

open Cert.ReferenceIdeal Cert.ReferenceIdeal.ReadP Cert.Glue Idealize.ShloMosaic

/-- The row edge `e` reads. -/
def srcRow (x1 : IVec S2x1600000 32) : Fin 1700000 → Fin 100000 :=
  rowOf (by decide) (val_main_v36 (F := Ideal) x1)

/-- The word edge `e` adds into. -/
def dstWord (x1 : IVec S2x1600000 32) : Fin 1700000 → ℤ := wordOf (val_main_v42 (F := Ideal) x1)

/-- The weight of edge `e`. -/
def weight (x1 : IVec S2x1600000 32) : Fin 1700000 → EReal := vec (val_main_v29 (F := Ideal) x1)

/-- The word node `i`'s graph id holds. -/
def graphWord (x2 : IVec S100000 32) : Fin 100000 → ℤ := wordOf (val_main_v85 (F := Ideal) x2)

end Cert.Shared

end
-- ==== Proof.KSpec.lean ====
/-
  The kernel program's result, as one array-level function of its arguments, is the network aggregating first.

  `netArr` composes what the host stretches build and what the regions leave: per layer the aggregate of the previous
  layer's rows and the dense layer on it, then the per-graph sums, the per-graph counts as a column, and the head.
  Read index by index each piece is the specification's: the aggregate is `agg` at the rows, words and weights the
  shared graph names; a dense layer on an aggregate is `layerAT`; the sums and counts are `segSum` and `segCount`; the
  head is `head`.
-/
import proofs.«126862_j35218731827641_1_alg».proof.Proof.KTerms
import proofs.«126862_j35218731827641_1_alg».proof.Proof.Reads
import proofs.«126862_j35218731827641_1_alg».proof.Proof.Shared
import Idealize.ShloMosaic.Lib.ValueLayout

noncomputable section

open scoped BigOperators

namespace Cert.KernelIdeal.KSpec

open Cert.KernelIdeal Cert.KernelIdeal.Terms Cert.Glue Cert.Spec Cert.Shared
open Cert.KernelIdeal.Facts₀ Cert.KernelIdeal.Facts
open Idealize.ShloMosaic Idealize.ShloMosaic.ValueIdx

/-- One layer on three-column rows: the dense layer on the aggregate, the bias made a one-row matrix. -/
def layerArr3 (h : FVec Ideal S100000x3 .f32) (W : FVec Ideal S3x128 .f32) (b : FVec Ideal S128 .f32)
    (s d : IVec S1700000 32) (n : FVec Ideal S1700000 .f32) : FVec Ideal S100000x128 .f32 :=
  dense (aggArr3 h s d n) W (shapeCast S1x128 b shapeCasts_S128_S1x128)

/-- One layer on 128-column rows. -/
def layerArr128 (h : FVec Ideal S100000x128 .f32) (W : FVec Ideal S128x128 .f32) (b : FVec Ideal S128 .f32)
    (s d : IVec S1700000 32) (n : FVec Ideal S1700000 .f32) : FVec Ideal S100000x128 .f32 :=
  dense (aggArr128 h s d n) W (shapeCast S1x128 b shapeCasts_S128_S1x128)

/-- The whole program at the array level, over the source vector `s`, the destination vector `d` and the weights `n`. -/
def netArrAt (x0 : FVec Ideal S100000x3 .f32) (x2 : IVec S100000 32)
    (x3 : FVec Ideal S3x128 .f32) (x4 : FVec Ideal S128 .f32) (x5 : FVec Ideal S128x128 .f32) (x6 : FVec Ideal S128 .f32)
    (x7 : FVec Ideal S128x128 .f32) (x8 : FVec Ideal S128 .f32) (x9 : FVec Ideal S128x2 .f32) (x10 : FVec Ideal S2 .f32)
    (s d : IVec S1700000 32) (n : FVec Ideal S1700000 .f32) : FVec Ideal S512x2 .f32 :=
  headArr unit (poolArr (layerArr128 (layerArr128 (layerArr3 x0 x3 x4 s d n) x5 x6 s d n) x7 x8 s d n) x2)
    (shapeCast S512x1 (countArr x2) shapeCasts_S512_S512x1) x9 (shapeCast S1x2 x10 shapeCasts_S2_S1x2)

/-- The whole program at the array level: the three vectors are the reference's stages of the edge list. -/
def netArr (x0 : FVec Ideal S100000x3 .f32) (x1 : IVec S2x1600000 32) (x2 : IVec S100000 32)
    (x3 : FVec Ideal S3x128 .f32) (x4 : FVec Ideal S128 .f32) (x5 : FVec Ideal S128x128 .f32) (x6 : FVec Ideal S128 .f32)
    (x7 : FVec Ideal S128x128 .f32) (x8 : FVec Ideal S128 .f32) (x9 : FVec Ideal S128x2 .f32) (x10 : FVec Ideal S2 .f32) : FVec Ideal S512x2 .f32 :=
  netArrAt x0 x2 x3 x4 x5 x6 x7 x8 x9 x10
    (Cert.ReferenceIdeal.ReadP.val_main_v3 (F := Ideal) x1) (Cert.ReferenceIdeal.ReadP.val_main_v6 (F := Ideal) x1)
    (Cert.ReferenceIdeal.ReadP.val_main_v29 (F := Ideal) x1)

/-! ## The index columns and the weights are the shared graph's

The kernel passes the reference's source vector through the indexing rule and makes it a column; the reference does
the same, operation for operation, so the two columns are one term. Likewise the destination column, and the column of
graph ids. -/

/-- The source vector through the indexing rule, as a column, is the reference's column of source numbers. -/
private theorem wrapCol_src (x1 : IVec S2x1600000 32) :
    wrapCol (Cert.ReferenceIdeal.ReadP.val_main_v3 (F := Ideal) x1)
      = Cert.ReferenceIdeal.ReadP.val_main_v36 (F := Ideal) x1 := rfl

/-- The destination vector as a column is the reference's column of destination numbers. -/
private theorem rawCol_dst (x1 : IVec S2x1600000 32) :
    rawCol (Cert.ReferenceIdeal.ReadP.val_main_v6 (F := Ideal) x1)
      = Cert.ReferenceIdeal.ReadP.val_main_v42 (F := Ideal) x1 := rfl

/-- The word a node's graph id holds is the word of the graph ids made a column. -/
private theorem graphWord_eq (g : IVec S100000 32) :
    graphWord g = wordOf (broadcastInDim S100000x1 ![0] bcast_S100000_S100000x1_0 g) := rfl

/-! ## The aggregates -/

/-- The aggregate of 128-column rows is `agg` at the rows, words and weights the three vectors name. -/
private theorem aggArr128_read (h : FVec Ideal S100000x128 .f32) (s d : IVec S1700000 32) (n : FVec Ideal S1700000 .f32) :
    aggArr128 h s d n
      = arr2 (agg (mat h) (rowOf (N := 100000) (by decide) (wrapCol s)) (wordOf (rawCol d)) (vec n)) := by
  have key := Cert.Reads.agg_read (N := 100000) (E := 1700000) (D := 128) (by decide)
    gather_S100000x128_S1700000x1_S1700000x128_1_0_n_n_0_1_1128 rfl rfl rfl rfl rfl
    scatter_S100000x128_S1700000x1_S1700000x128_1_0_0_1 rfl rfl rfl rfl
    bcast_S_S100000x128 bcast_S1700000_S1700000x1_0 bcast_S1700000x1_S1700000x128_0_1 h (wrapCol s) (rawCol d) n
  unfold aggArr128
  exact key

/-- The aggregate of three-column rows, likewise. -/
private theorem aggArr3_read (h : FVec Ideal S100000x3 .f32) (s d : IVec S1700000 32) (n : FVec Ideal S1700000 .f32) :
    aggArr3 h s d n
      = arr2 (agg (mat h) (rowOf (N := 100000) (by decide) (wrapCol s)) (wordOf (rawCol d)) (vec n)) := by
  have key := Cert.Reads.agg_read (N := 100000) (E := 1700000) (D := 3) (by decide)
    gather_S100000x3_S1700000x1_S1700000x3_1_0_n_n_0_1_13 rfl rfl rfl rfl rfl
    scatter_S100000x3_S1700000x1_S1700000x3_1_0_0_1 rfl rfl rfl rfl
    bcast_S_S100000x3 bcast_S1700000_S1700000x1_0 bcast_S1700000x1_S1700000x3_0_1 h (wrapCol s) (rawCol d) n
  unfold aggArr3
  exact key

/-! ## A dense layer on an aggregate is a layer aggregating first -/

/-- The dense layer on the aggregate of `h`, its bias a vector made a one-row matrix, is `layerAT` of `h`: the
    matrix of the aggregate's array is the aggregate, and the one-row matrix reads the bias vector. -/
private theorem dense_agg {N E Di Do : Nat} (h : Fin N → Fin Di → EReal) (W : (⟨2, ![Di, Do]⟩ : Shape).Idx → EReal)
    (b : (⟨1, ![Do]⟩ : Shape).Idx → EReal) (hc : (⟨1, ![Do]⟩ : Shape).ShapeCasts ⟨2, ![1, Do]⟩)
    (r : Fin E → Fin N) (d : Fin E → ℤ) (n : Fin E → EReal) :
    dense (arr2 (agg h r d n)) W (shapeCast ⟨2, ![1, Do]⟩ b hc) = arr2 (layerAT h (mat W) (vec b) r d n) := by
  unfold dense
  refine congrArg arr2 (funext fun v => funext fun f => ?_)
  rw [mat_arr2, shapeCast_a_1a_apply]
  rfl

/-- The first layer, on the program's three-column input. -/
private theorem layerArr3_read (x0 : FVec Ideal S100000x3 .f32) (W : FVec Ideal S3x128 .f32) (b : FVec Ideal S128 .f32)
    (x1 : IVec S2x1600000 32) :
    layerArr3 x0 W b (Cert.ReferenceIdeal.ReadP.val_main_v3 (F := Ideal) x1) (Cert.ReferenceIdeal.ReadP.val_main_v6 (F := Ideal) x1) (Cert.ReferenceIdeal.ReadP.val_main_v29 (F := Ideal) x1)
      = arr2 (layerAT (mat x0) (mat W) (vec b) (srcRow x1) (dstWord x1) (weight x1)) := by
  have key := dense_agg (mat x0) W b shapeCasts_S128_S1x128 (srcRow x1) (dstWord x1) (weight x1)
  unfold layerArr3
  rw [aggArr3_read, wrapCol_src, rawCol_dst]
  exact key

/-- A later layer, on the rows the previous layer left. -/
private theorem layerArr128_read (H : Fin 100000 → Fin 128 → EReal) (W : FVec Ideal S128x128 .f32) (b : FVec Ideal S128 .f32)
    (x1 : IVec S2x1600000 32) :
    layerArr128 (arr2 H) W b (Cert.ReferenceIdeal.ReadP.val_main_v3 (F := Ideal) x1) (Cert.ReferenceIdeal.ReadP.val_main_v6 (F := Ideal) x1) (Cert.ReferenceIdeal.ReadP.val_main_v29 (F := Ideal) x1)
      = arr2 (layerAT H (mat W) (vec b) (srcRow x1) (dstWord x1) (weight x1)) := by
  have key := dense_agg H W b shapeCasts_S128_S1x128 (srcRow x1) (dstWord x1) (weight x1)
  unfold layerArr128
  rw [aggArr128_read, wrapCol_src, rawCol_dst, mat_arr2]
  exact key

/-! ## The sums, the counts and the head -/

/-- The per-graph sums of the rows are `segSum` at the words the graph ids hold. -/
private theorem poolArr_read (H : Fin 100000 → Fin 128 → EReal) (g : IVec S100000 32) :
    poolArr (arr2 H) g = arr2 (segSum H (graphWord g)) := by
  have key := Cert.Reads.segSum_read (N := 100000) (G := 512) (D := 128)
    scatter_S512x128_S100000x1_S100000x128_1_0_0_1 rfl rfl rfl rfl bcast_S_S512x128 (arr2 H)
    (broadcastInDim S100000x1 ![0] bcast_S100000_S100000x1_0 g)
  rw [mat_arr2] at key
  unfold poolArr
  rw [graphWord_eq]
  exact key

/-- The per-graph node counts are `segCount` at the words the graph ids hold. -/
private theorem countArr_read (g : IVec S100000 32) (k : Fin 512) : countArr g (ix1 k) = segCount unit (graphWord g) k := by
  have key := Cert.Reads.segCount_read (N := 100000) (G := 512)
    scatter_S512_S100000x1_S100000_n_0_0_1 rfl rfl rfl rfl bcast_S_S512 bcast_S_S100000
    (broadcastInDim S100000x1 ![0] bcast_S100000_S100000x1_0 g) k
  unfold countArr
  rw [graphWord_eq]
  exact key

/-- A vector cast to a column reads, at `(i, 0)`, the vector at `i`: the two indices have the same row-major
    position. -/
private theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The head on sums given as a function, counts given as a column and a bias given as a one-row matrix is `head`
    at the counts and the bias those two arrays hold. -/
private theorem headArr_read {G D O : Nat} (u : EReal) (S : Fin G → Fin D → EReal) (cnt : Fin G → EReal)
    (c : (⟨2, ![G, 1]⟩ : Shape).Idx → EReal) (hcnt : ∀ g, c (ix2 g (0 : Fin 1)) = cnt g)
    (W : (⟨2, ![D, O]⟩ : Shape).Idx → EReal) (b : (⟨2, ![1, O]⟩ : Shape).Idx → EReal) (bv : Fin O → EReal)
    (hb : ∀ o, b (ix2 (0 : Fin 1) o) = bv o) :
    headArr u (arr2 S) c W b = arr2 (head u S cnt (mat W) bv) := by
  unfold headArr head
  refine congrArg arr2 (funext fun g => funext fun o => ?_)
  have hrows : (fun (g' : Fin G) (k : Fin D) => Ideal.div (arr2 S (ix2 g' k)) (max (c (ix2 g' (0 : Fin 1))) u))
      = fun g' k => Ideal.div (S g' k) (max (cnt g') u) :=
    funext fun g' => funext fun k => by rw [hcnt g', arr2_apply]
  rw [hrows, hb o]

/-! ## The whole program -/

/-- THE KERNEL'S ARRAY-LEVEL RESULT IS THE SPECIFICATION'S NETWORK, aggregating first. -/
theorem netArr_eq (x0 : FVec Ideal S100000x3 .f32) (x1 : IVec S2x1600000 32) (x2 : IVec S100000 32)
    (x3 : FVec Ideal S3x128 .f32) (x4 : FVec Ideal S128 .f32) (x5 : FVec Ideal S128x128 .f32) (x6 : FVec Ideal S128 .f32)
    (x7 : FVec Ideal S128x128 .f32) (x8 : FVec Ideal S128 .f32) (x9 : FVec Ideal S128x2 .f32) (x10 : FVec Ideal S2 .f32) :
    netArr x0 x1 x2 x3 x4 x5 x6 x7 x8 x9 x10
      = arr2 (netAT unit (mat x0) (mat x3) (vec x4) (mat x5) (vec x6) (mat x7) (vec x8) (mat x9) (vec x10)
          (srcRow x1) (dstWord x1) (weight x1) (graphWord x2)) := by
  -- layer by layer, from the input outwards
  have e1 := layerArr3_read x0 x3 x4 x1
  have e2 := (congrArg (fun t => layerArr128 t x5 x6 (Cert.ReferenceIdeal.ReadP.val_main_v3 (F := Ideal) x1) (Cert.ReferenceIdeal.ReadP.val_main_v6 (F := Ideal) x1) (Cert.ReferenceIdeal.ReadP.val_main_v29 (F := Ideal) x1)) e1).trans
    (layerArr128_read _ x5 x6 x1)
  have e3 := (congrArg (fun t => layerArr128 t x7 x8 (Cert.ReferenceIdeal.ReadP.val_main_v3 (F := Ideal) x1) (Cert.ReferenceIdeal.ReadP.val_main_v6 (F := Ideal) x1) (Cert.ReferenceIdeal.ReadP.val_main_v29 (F := Ideal) x1)) e2).trans
    (layerArr128_read _ x7 x8 x1)
  -- the per-graph sums of the last layer's rows
  have e4 := (congrArg (fun t => poolArr t x2) e3).trans (poolArr_read _ x2)
  -- the counts as a column, and the bias as a one-row matrix
  have hcnt : ∀ g : Fin 512, shapeCast S512x1 (countArr x2) shapeCasts_S512_S512x1 (ix2 g (0 : Fin 1))
      = segCount unit (graphWord x2) g :=
    fun g => (shapeCast_col_apply (countArr x2) shapeCasts_S512_S512x1 g 0).trans (countArr_read x2 g)
  have hb : ∀ o : Fin 2, shapeCast S1x2 x10 shapeCasts_S2_S1x2 (ix2 (0 : Fin 1) o) = vec x10 o :=
    fun o => shapeCast_a_1a_apply x10 shapeCasts_S2_S1x2 0 o
  have e5 := (congrArg (fun t => headArr unit t (shapeCast S512x1 (countArr x2) shapeCasts_S512_S512x1) x9
      (shapeCast S1x2 x10 shapeCasts_S2_S1x2)) e4).trans
    (headArr_read unit _ (segCount unit (graphWord x2)) _ hcnt x9 _ (vec x10) hb)
  exact e5

end Cert.KernelIdeal.KSpec

end
-- ==== Proof.KChain.lean ====
/-
  The kernel program's result is the network with every layer aggregating first.

  The fold through @main is walked forward, one buffer at a time. Before the first region the host has built the
  source and destination vectors, the edge weights, the first aggregate and the first bias; a region leaves the dense
  layer of the arrays it reads and touches nothing else; the stretch after it aggregates that layer's output with the
  same vectors and weights, which it does not write; the last stretch pools and counts, and the last region is the
  head.
-/
import proofs.«126862_j35218731827641_1_alg».proof.Proof.Gen.KernelIdeal.Frame
import proofs.«126862_j35218731827641_1_alg».proof.Proof.KHost
import proofs.«126862_j35218731827641_1_alg».proof.Proof.Dense0
import proofs.«126862_j35218731827641_1_alg».proof.Proof.Dense1
import proofs.«126862_j35218731827641_1_alg».proof.Proof.Dense2
import proofs.«126862_j35218731827641_1_alg».proof.Proof.Head3
import proofs.«126862_j35218731827641_1_alg».proof.Proof.KSpec

noncomputable section

open scoped BigOperators

namespace Cert.KernelIdeal.Chain

open Cert.KernelIdeal Cert.KernelIdeal.Gen Cert.KernelIdeal.Terms Cert.KernelIdeal.KSpec Cert.Glue Cert.Spec Cert.Shared
open Cert.KernelIdeal.Facts₀ Cert.KernelIdeal.Facts
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The launch contents and the layers, by name -/

/-- Argument 0 as launched. -/
abbrev a0 (c : Dev nD) : FVec Ideal S100000x3 .f32 := m ((c.tc : Thread nD τ).loc main_arg0)
/-- Argument 1 as launched. -/
abbrev a1 (c : Dev nD) : IVec S2x1600000 32 := m ((c.tc : Thread nD τ).loc main_arg1)
/-- Argument 2 as launched. -/
abbrev a2 (c : Dev nD) : IVec S100000 32 := m ((c.tc : Thread nD τ).loc main_arg2)
/-- Argument 3 as launched. -/
abbrev a3 (c : Dev nD) : FVec Ideal S3x128 .f32 := m ((c.tc : Thread nD τ).loc main_arg3)
/-- Argument 4 as launched. -/
abbrev a4 (c : Dev nD) : FVec Ideal S128 .f32 := m ((c.tc : Thread nD τ).loc main_arg4)
/-- Argument 5 as launched. -/
abbrev a5 (c : Dev nD) : FVec Ideal S128x128 .f32 := m ((c.tc : Thread nD τ).loc main_arg5)
/-- Argument 6 as launched. -/
abbrev a6 (c : Dev nD) : FVec Ideal S128 .f32 := m ((c.tc : Thread nD τ).loc main_arg6)
/-- Argument 7 as launched. -/
abbrev a7 (c : Dev nD) : FVec Ideal S128x128 .f32 := m ((c.tc : Thread nD τ).loc main_arg7)
/-- Argument 8 as launched. -/
abbrev a8 (c : Dev nD) : FVec Ideal S128 .f32 := m ((c.tc : Thread nD τ).loc main_arg8)
/-- Argument 9 as launched. -/
abbrev a9 (c : Dev nD) : FVec Ideal S128x2 .f32 := m ((c.tc : Thread nD τ).loc main_arg9)
/-- Argument 10 as launched. -/
abbrev a10 (c : Dev nD) : FVec Ideal S2 .f32 := m ((c.tc : Thread nD τ).loc main_arg10)

/-- The source vector, the destination vector and the edge weights. -/
abbrev sv (c : Dev nD) : IVec S1700000 32 := Cert.ReferenceIdeal.ReadP.val_main_v3 (F := Ideal) (a1 m c)
abbrev dv (c : Dev nD) : IVec S1700000 32 := Cert.ReferenceIdeal.ReadP.val_main_v6 (F := Ideal) (a1 m c)
abbrev nv (c : Dev nD) : FVec Ideal S1700000 .f32 := Cert.ReferenceIdeal.ReadP.val_main_v29 (F := Ideal) (a1 m c)

/-- The three layers' outputs. -/
abbrev h1 (c : Dev nD) : FVec Ideal S100000x128 .f32 := layerArr3 (a0 m c) (a3 m c) (a4 m c) (sv m c) (dv m c) (nv m c)
abbrev h2 (c : Dev nD) : FVec Ideal S100000x128 .f32 := layerArr128 (h1 m c) (a5 m c) (a6 m c) (sv m c) (dv m c) (nv m c)
abbrev h3 (c : Dev nD) : FVec Ideal S100000x128 .f32 := layerArr128 (h2 m c) (a7 m c) (a8 m c) (sv m c) (dv m c) (nv m c)

/-! ## At the first region's entry -/

theorem w3_v42 (c : Dev nD) : W3 (F := Ideal) m ρ c (Proc.devRef .tc main_v42) = aggArr3 (a0 m c) (sv m c) (dv m c) (nv m c) :=
  Host.pre_v42 (W0 m ρ c)
theorem w3_v43 (c : Dev nD) : W3 (F := Ideal) m ρ c (Proc.devRef .tc main_v43) = shapeCast S1x128 (a4 m c) Facts₀.shapeCasts_S128_S1x128 :=
  Host.pre_v43 (W0 m ρ c)
theorem w3_v3 (c : Dev nD) : W3 (F := Ideal) m ρ c (Proc.devRef .tc main_v3) = sv m c := Host.pre_v3 (W0 m ρ c)
theorem w3_v6 (c : Dev nD) : W3 (F := Ideal) m ρ c (Proc.devRef .tc main_v6) = dv m c := Host.pre_v6 (W0 m ρ c)
theorem w3_v29 (c : Dev nD) : W3 (F := Ideal) m ρ c (Proc.devRef .tc main_v29) = nv m c := Host.pre_v29 (W0 m ρ c)
theorem w3_a2 (c : Dev nD) : W3 (F := Ideal) m ρ c (Proc.devRef .tc main_arg2) = a2 m c := Host.pre_keep_main_arg2 (W0 m ρ c)
theorem w3_a3 (c : Dev nD) : W3 (F := Ideal) m ρ c (Proc.devRef .tc main_arg3) = a3 m c := Host.pre_keep_main_arg3 (W0 m ρ c)
theorem w3_a5 (c : Dev nD) : W3 (F := Ideal) m ρ c (Proc.devRef .tc main_arg5) = a5 m c := Host.pre_keep_main_arg5 (W0 m ρ c)
theorem w3_a6 (c : Dev nD) : W3 (F := Ideal) m ρ c (Proc.devRef .tc main_arg6) = a6 m c := Host.pre_keep_main_arg6 (W0 m ρ c)
theorem w3_a7 (c : Dev nD) : W3 (F := Ideal) m ρ c (Proc.devRef .tc main_arg7) = a7 m c := Host.pre_keep_main_arg7 (W0 m ρ c)
theorem w3_a8 (c : Dev nD) : W3 (F := Ideal) m ρ c (Proc.devRef .tc main_arg8) = a8 m c := Host.pre_keep_main_arg8 (W0 m ρ c)
theorem w3_a9 (c : Dev nD) : W3 (F := Ideal) m ρ c (Proc.devRef .tc main_arg9) = a9 m c := Host.pre_keep_main_arg9 (W0 m ρ c)
theorem w3_a10 (c : Dev nD) : W3 (F := Ideal) m ρ c (Proc.devRef .tc main_arg10) = a10 m c := Host.pre_keep_main_arg10 (W0 m ρ c)

/-! ## After the first region -/

theorem w4_v44 (c : Dev nD) : W4 (F := Ideal) m ρ c (Proc.devRef .tc main_v44) = h1 m c := by
  refine (W4_arr m ρ c 3).trans ?_
  rw [Dense0.final (V3 m ρ) c]
  show dense (W3 (F := Ideal) m ρ c (Proc.devRef .tc main_v42)) (W3 (F := Ideal) m ρ c (Proc.devRef .tc main_arg3))
    (W3 (F := Ideal) m ρ c (Proc.devRef .tc main_v43)) = _
  rw [w3_v42, w3_a3, w3_v43]
  rfl
theorem w4_v3 (c : Dev nD) : W4 (F := Ideal) m ρ c (Proc.devRef .tc main_v3) = sv m c :=
  (W4_of_ne m ρ c main_v3 (by decide)).trans (w3_v3 m ρ c)
theorem w4_v6 (c : Dev nD) : W4 (F := Ideal) m ρ c (Proc.devRef .tc main_v6) = dv m c :=
  (W4_of_ne m ρ c main_v6 (by decide)).trans (w3_v6 m ρ c)
theorem w4_v29 (c : Dev nD) : W4 (F := Ideal) m ρ c (Proc.devRef .tc main_v29) = nv m c :=
  (W4_of_ne m ρ c main_v29 (by decide)).trans (w3_v29 m ρ c)
theorem w4_a2 (c : Dev nD) : W4 (F := Ideal) m ρ c (Proc.devRef .tc main_arg2) = a2 m c :=
  (W4_of_ne m ρ c main_arg2 (by decide)).trans (w3_a2 m ρ c)
theorem w4_a5 (c : Dev nD) : W4 (F := Ideal) m ρ c (Proc.devRef .tc main_arg5) = a5 m c :=
  (W4_of_ne m ρ c main_arg5 (by decide)).trans (w3_a5 m ρ c)
theorem w4_a6 (c : Dev nD) : W4 (F := Ideal) m ρ c (Proc.devRef .tc main_arg6) = a6 m c :=
  (W4_of_ne m ρ c main_arg6 (by decide)).trans (w3_a6 m ρ c)
theorem w4_a7 (c : Dev nD) : W4 (F := Ideal) m ρ c (Proc.devRef .tc main_arg7) = a7 m c :=
  (W4_of_ne m ρ c main_arg7 (by decide)).trans (w3_a7 m ρ c)
theorem w4_a8 (c : Dev nD) : W4 (F := Ideal) m ρ c (Proc.devRef .tc main_arg8) = a8 m c :=
  (W4_of_ne m ρ c main_arg8 (by decide)).trans (w3_a8 m ρ c)
theorem w4_a9 (c : Dev nD) : W4 (F := Ideal) m ρ c (Proc.devRef .tc main_arg9) = a9 m c :=
  (W4_of_ne m ρ c main_arg9 (by decide)).trans (w3_a9 m ρ c)
theorem w4_a10 (c : Dev nD) : W4 (F := Ideal) m ρ c (Proc.devRef .tc main_arg10) = a10 m c :=
  (W4_of_ne m ρ c main_arg10 (by decide)).trans (w3_a10 m ρ c)

/-! ## At the second region's entry -/

theorem w5_v57 (c : Dev nD) : W5 (F := Ideal) m ρ c (Proc.devRef .tc main_v57) = aggArr128 (h1 m c) (sv m c) (dv m c) (nv m c) := by
  refine (Host.s1_v57 (W4 m ρ c)).trans ?_
  rw [w4_v44, w4_v3, w4_v6, w4_v29]
theorem w5_v58 (c : Dev nD) : W5 (F := Ideal) m ρ c (Proc.devRef .tc main_v58) = shapeCast S1x128 (a6 m c) Facts₀.shapeCasts_S128_S1x128 := by
  refine (Host.s1_v58 (W4 m ρ c)).trans ?_
  rw [w4_a6]
theorem w5_v3 (c : Dev nD) : W5 (F := Ideal) m ρ c (Proc.devRef .tc main_v3) = sv m c :=
  (Host.s1_keep_main_v3 (W4 m ρ c)).trans (w4_v3 m ρ c)
theorem w5_v6 (c : Dev nD) : W5 (F := Ideal) m ρ c (Proc.devRef .tc main_v6) = dv m c :=
  (Host.s1_keep_main_v6 (W4 m ρ c)).trans (w4_v6 m ρ c)
theorem w5_v29 (c : Dev nD) : W5 (F := Ideal) m ρ c (Proc.devRef .tc main_v29) = nv m c :=
  (Host.s1_keep_main_v29 (W4 m ρ c)).trans (w4_v29 m ρ c)
theorem w5_a2 (c : Dev nD) : W5 (F := Ideal) m ρ c (Proc.devRef .tc main_arg2) = a2 m c :=
  (Host.s1_keep_main_arg2 (W4 m ρ c)).trans (w4_a2 m ρ c)
theorem w5_a5 (c : Dev nD) : W5 (F := Ideal) m ρ c (Proc.devRef .tc main_arg5) = a5 m c :=
  (Host.s1_keep_main_arg5 (W4 m ρ c)).trans (w4_a5 m ρ c)
theorem w5_a7 (c : Dev nD) : W5 (F := Ideal) m ρ c (Proc.devRef .tc main_arg7) = a7 m c :=
  (Host.s1_keep_main_arg7 (W4 m ρ c)).trans (w4_a7 m ρ c)
theorem w5_a8 (c : Dev nD) : W5 (F := Ideal) m ρ c (Proc.devRef .tc main_arg8) = a8 m c :=
  (Host.s1_keep_main_arg8 (W4 m ρ c)).trans (w4_a8 m ρ c)
theorem w5_a9 (c : Dev nD) : W5 (F := Ideal) m ρ c (Proc.devRef .tc main_arg9) = a9 m c :=
  (Host.s1_keep_main_arg9 (W4 m ρ c)).trans (w4_a9 m ρ c)
theorem w5_a10 (c : Dev nD) : W5 (F := Ideal) m ρ c (Proc.devRef .tc main_arg10) = a10 m c :=
  (Host.s1_keep_main_arg10 (W4 m ρ c)).trans (w4_a10 m ρ c)

/-! ## After the second region -/

theorem w6_v59 (c : Dev nD) : W6 (F := Ideal) m ρ c (Proc.devRef .tc main_v59) = h2 m c := by
  refine (W6_arr m ρ c 3).trans ?_
  rw [Dense1.final (V5 m ρ) c]
  show dense (W5 (F := Ideal) m ρ c (Proc.devRef .tc main_v57)) (W5 (F := Ideal) m ρ c (Proc.devRef .tc main_arg5))
    (W5 (F := Ideal) m ρ c (Proc.devRef .tc main_v58)) = _
  rw [w5_v57, w5_a5, w5_v58]
  rfl
theorem w6_v3 (c : Dev nD) : W6 (F := Ideal) m ρ c (Proc.devRef .tc main_v3) = sv m c :=
  (W6_of_ne m ρ c main_v3 (by decide)).trans (w5_v3 m ρ c)
theorem w6_v6 (c : Dev nD) : W6 (F := Ideal) m ρ c (Proc.devRef .tc main_v6) = dv m c :=
  (W6_of_ne m ρ c main_v6 (by decide)).trans (w5_v6 m ρ c)
theorem w6_v29 (c : Dev nD) : W6 (F := Ideal) m ρ c (Proc.devRef .tc main_v29) = nv m c :=
  (W6_of_ne m ρ c main_v29 (by decide)).trans (w5_v29 m ρ c)
theorem w6_a2 (c : Dev nD) : W6 (F := Ideal) m ρ c (Proc.devRef .tc main_arg2) = a2 m c :=
  (W6_of_ne m ρ c main_arg2 (by decide)).trans (w5_a2 m ρ c)
theorem w6_a7 (c : Dev nD) : W6 (F := Ideal) m ρ c (Proc.devRef .tc main_arg7) = a7 m c :=
  (W6_of_ne m ρ c main_arg7 (by decide)).trans (w5_a7 m ρ c)
theorem w6_a8 (c : Dev nD) : W6 (F := Ideal) m ρ c (Proc.devRef .tc main_arg8) = a8 m c :=
  (W6_of_ne m ρ c main_arg8 (by decide)).trans (w5_a8 m ρ c)
theorem w6_a9 (c : Dev nD) : W6 (F := Ideal) m ρ c (Proc.devRef .tc main_arg9) = a9 m c :=
  (W6_of_ne m ρ c main_arg9 (by decide)).trans (w5_a9 m ρ c)
theorem w6_a10 (c : Dev nD) : W6 (F := Ideal) m ρ c (Proc.devRef .tc main_arg10) = a10 m c :=
  (W6_of_ne m ρ c main_arg10 (by decide)).trans (w5_a10 m ρ c)

/-! ## At the third region's entry -/

theorem w7_v72 (c : Dev nD) : W7 (F := Ideal) m ρ c (Proc.devRef .tc main_v72) = aggArr128 (h2 m c) (sv m c) (dv m c) (nv m c) := by
  refine (Host.s2_v72 (W6 m ρ c)).trans ?_
  rw [w6_v59, w6_v3, w6_v6, w6_v29]
theorem w7_v73 (c : Dev nD) : W7 (F := Ideal) m ρ c (Proc.devRef .tc main_v73) = shapeCast S1x128 (a8 m c) Facts₀.shapeCasts_S128_S1x128 := by
  refine (Host.s2_v73 (W6 m ρ c)).trans ?_
  rw [w6_a8]
theorem w7_a2 (c : Dev nD) : W7 (F := Ideal) m ρ c (Proc.devRef .tc main_arg2) = a2 m c :=
  (Host.s2_keep_main_arg2 (W6 m ρ c)).trans (w6_a2 m ρ c)
theorem w7_a7 (c : Dev nD) : W7 (F := Ideal) m ρ c (Proc.devRef .tc main_arg7) = a7 m c :=
  (Host.s2_keep_main_arg7 (W6 m ρ c)).trans (w6_a7 m ρ c)
theorem w7_a9 (c : Dev nD) : W7 (F := Ideal) m ρ c (Proc.devRef .tc main_arg9) = a9 m c :=
  (Host.s2_keep_main_arg9 (W6 m ρ c)).trans (w6_a9 m ρ c)
theorem w7_a10 (c : Dev nD) : W7 (F := Ideal) m ρ c (Proc.devRef .tc main_arg10) = a10 m c :=
  (Host.s2_keep_main_arg10 (W6 m ρ c)).trans (w6_a10 m ρ c)

/-! ## After the third region -/

theorem w8_v74 (c : Dev nD) : W8 (F := Ideal) m ρ c (Proc.devRef .tc main_v74) = h3 m c := by
  refine (W8_arr m ρ c 3).trans ?_
  rw [Dense2.final (V7 m ρ) c]
  show dense (W7 (F := Ideal) m ρ c (Proc.devRef .tc main_v72)) (W7 (F := Ideal) m ρ c (Proc.devRef .tc main_arg7))
    (W7 (F := Ideal) m ρ c (Proc.devRef .tc main_v73)) = _
  rw [w7_v72, w7_a7, w7_v73]
  rfl
theorem w8_a2 (c : Dev nD) : W8 (F := Ideal) m ρ c (Proc.devRef .tc main_arg2) = a2 m c :=
  (W8_of_ne m ρ c main_arg2 (by decide)).trans (w7_a2 m ρ c)
theorem w8_a9 (c : Dev nD) : W8 (F := Ideal) m ρ c (Proc.devRef .tc main_arg9) = a9 m c :=
  (W8_of_ne m ρ c main_arg9 (by decide)).trans (w7_a9 m ρ c)
theorem w8_a10 (c : Dev nD) : W8 (F := Ideal) m ρ c (Proc.devRef .tc main_arg10) = a10 m c :=
  (W8_of_ne m ρ c main_arg10 (by decide)).trans (w7_a10 m ρ c)

/-! ## At the last region's entry -/

theorem w9_v77 (c : Dev nD) : W9 (F := Ideal) m ρ c (Proc.devRef .tc main_v77) = poolArr (h3 m c) (a2 m c) := by
  refine (Host.s3_v77 (W8 m ρ c)).trans ?_
  rw [w8_v74, w8_a2]
theorem w9_v82 (c : Dev nD) : W9 (F := Ideal) m ρ c (Proc.devRef .tc main_v82) = shapeCast S512x1 (countArr (a2 m c)) Facts₀.shapeCasts_S512_S512x1 := by
  refine (Host.s3_v82 (W8 m ρ c)).trans ?_
  rw [w8_a2]
theorem w9_v83 (c : Dev nD) : W9 (F := Ideal) m ρ c (Proc.devRef .tc main_v83) = shapeCast S1x2 (a10 m c) Facts₀.shapeCasts_S2_S1x2 := by
  refine (Host.s3_v83 (W8 m ρ c)).trans ?_
  rw [w8_a10]
theorem w9_a9 (c : Dev nD) : W9 (F := Ideal) m ρ c (Proc.devRef .tc main_arg9) = a9 m c :=
  (Host.s3_keep_main_arg9 (W8 m ρ c)).trans (w8_a9 m ρ c)

/-! ## After the last region -/

/-- The result buffer at the end of the fold is the array-level network of the launch contents of the arguments. -/
theorem result_arr (c : Dev nD) :
    W10 (F := Ideal) m ρ c (Proc.devRef .tc main_v84)
      = netArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W10_arr m ρ c 4).trans ?_
  rw [Head3.final (V9 m ρ) c]
  show headArr unit (W9 (F := Ideal) m ρ c (Proc.devRef .tc main_v77)) (W9 (F := Ideal) m ρ c (Proc.devRef .tc main_v82))
    (W9 (F := Ideal) m ρ c (Proc.devRef .tc main_arg9)) (W9 (F := Ideal) m ρ c (Proc.devRef .tc main_v83)) = _
  rw [w9_v77, w9_v82, w9_a9, w9_v83]
  rfl

/-- The result buffer at the end of the fold is `netAT` of the launch contents of the arguments. -/
theorem result (c : Dev nD) :
    W10 (F := Ideal) m ρ c (Proc.devRef .tc main_v84)
      = arr2 (netAT unit (mat (m ((c.tc : Thread nD τ).loc main_arg0))) (mat (m ((c.tc : Thread nD τ).loc main_arg3))) (vec (m ((c.tc : Thread nD τ).loc main_arg4))) (mat (m ((c.tc : Thread nD τ).loc main_arg5))) (vec (m ((c.tc : Thread nD τ).loc main_arg6)))
          (mat (m ((c.tc : Thread nD τ).loc main_arg7))) (vec (m ((c.tc : Thread nD τ).loc main_arg8))) (mat (m ((c.tc : Thread nD τ).loc main_arg9))) (vec (m ((c.tc : Thread nD τ).loc main_arg10)))
          (srcRow (m ((c.tc : Thread nD τ).loc main_arg1))) (dstWord (m ((c.tc : Thread nD τ).loc main_arg1))) (weight (m ((c.tc : Thread nD τ).loc main_arg1))) (graphWord (m ((c.tc : Thread nD τ).loc main_arg2)))) :=
  (result_arr m ρ c).trans (netArr_eq _ _ _ _ _ _ _ _ _ _ _)

end Cert.KernelIdeal.Chain

end
-- ==== Proof.RefValue.lean ====
/-
  The reference's result is the network with every layer transforming first.

  Stage by stage: each layer is a matrix product of the features, a gather of the product's rows at the edges'
  sources, a scaling by the edge weights, a scatter-add at the destinations, a bias and a clamp at zero; then the
  per-graph sums over the clamped per-graph counts, the head's matrix and bias.

  The three layers run the same stages after their matrix product, so the stages are read once, over an arbitrary
  product `t`: the scatter-add of the scaled gathered rows is the aggregate of `t`, the two broadcasts of the bias
  read `b f` at `(v, f)`, and the clamp is `max · 0`. Each layer is then that reading at its own product, which is
  `mm` of the previous layer's output and the layer's matrix. The head reads the per-graph sums and counts, divides
  entry by entry and contracts with the last matrix.
-/
import proofs.«126862_j35218731827641_1_alg».proof.Proof.RefRead
import proofs.«126862_j35218731827641_1_alg».proof.Proof.Shared
import proofs.«126862_j35218731827641_1_alg».proof.Proof.Reads

noncomputable section

open scoped BigOperators

namespace Cert.RefValue

open Cert.ReferenceIdeal Cert.ReferenceIdeal.Gen Cert.ReferenceIdeal.ReadP Cert.Glue Cert.Spec Cert.Shared Idealize.ShloMosaic
open Idealize.ShloMosaic.ValueIdx

/-! ## The matrix products -/

/-- The first layer's product: `x0 · x3`. -/
private theorem v30_read (x0 : FVec Ideal S100000x3 .f32) (x3 : FVec Ideal S3x128 .f32) :
    val_main_v30 (F := Ideal) x0 x3 = arr2 (mm (mat x0) (mat x3)) := by
  funext j
  obtain ⟨i, f, rfl⟩ : ∃ (i : Fin 100000) (f : Fin 128), j = ix2 i f := ⟨j 0, j 1, eq_ix2 j⟩
  rw [val_main_v30_apply, arr2_apply]
  show _ = ∑ k : Fin 3, mat x0 i k * mat x3 k f
  refine Finset.sum_congr rfl fun k _ => ?_
  have hl : lidx_main_v30 (ix2 i f) k = ix2 i k := funext fun a => by
    match a with
    | ⟨0, _⟩ => rfl
    | ⟨1, _⟩ => rfl
  have hr : ridx_main_v30 (ix2 i f) k = ix2 k f := funext fun a => by
    match a with
    | ⟨0, _⟩ => rfl
    | ⟨1, _⟩ => rfl
  rw [hl, hr]
  rfl

/-- The second layer's product: the first layer's output times `x5`. -/
private theorem v48_read (x0 : FVec Ideal S100000x3 .f32) (x1 : IVec S2x1600000 32) (x3 : FVec Ideal S3x128 .f32)
    (x4 : FVec Ideal S128 .f32) (x5 : FVec Ideal S128x128 .f32) :
    val_main_v48 (F := Ideal) x0 x1 x3 x4 x5 = arr2 (mm (mat (val_main_v47 (F := Ideal) x0 x1 x3 x4)) (mat x5)) := by
  funext j
  obtain ⟨i, f, rfl⟩ : ∃ (i : Fin 100000) (f : Fin 128), j = ix2 i f := ⟨j 0, j 1, eq_ix2 j⟩
  rw [val_main_v48_apply, arr2_apply]
  show _ = ∑ k : Fin 128, mat (val_main_v47 (F := Ideal) x0 x1 x3 x4) i k * mat x5 k f
  refine Finset.sum_congr rfl fun k _ => ?_
  have hl : lidx_main_v48 (ix2 i f) k = ix2 i k := funext fun a => by
    match a with
    | ⟨0, _⟩ => rfl
    | ⟨1, _⟩ => rfl
  have hr : ridx_main_v48 (ix2 i f) k = ix2 k f := funext fun a => by
    match a with
    | ⟨0, _⟩ => rfl
    | ⟨1, _⟩ => rfl
  rw [hl, hr]
  rfl

/-- The third layer's product: the second layer's output times `x7`. -/
private theorem v66_read (x0 : FVec Ideal S100000x3 .f32) (x1 : IVec S2x1600000 32) (x3 : FVec Ideal S3x128 .f32)
    (x4 : FVec Ideal S128 .f32) (x5 : FVec Ideal S128x128 .f32) (x6 : FVec Ideal S128 .f32)
    (x7 : FVec Ideal S128x128 .f32) :
    val_main_v66 (F := Ideal) x0 x1 x3 x4 x5 x6 x7
      = arr2 (mm (mat (val_main_v65 (F := Ideal) x0 x1 x3 x4 x5 x6)) (mat x7)) := by
  funext j
  obtain ⟨i, f, rfl⟩ : ∃ (i : Fin 100000) (f : Fin 128), j = ix2 i f := ⟨j 0, j 1, eq_ix2 j⟩
  rw [val_main_v66_apply, arr2_apply]
  show _ = ∑ k : Fin 128, mat (val_main_v65 (F := Ideal) x0 x1 x3 x4 x5 x6) i k * mat x7 k f
  refine Finset.sum_congr rfl fun k _ => ?_
  have hl : lidx_main_v66 (ix2 i f) k = ix2 i k := funext fun a => by
    match a with
    | ⟨0, _⟩ => rfl
    | ⟨1, _⟩ => rfl
  have hr : ridx_main_v66 (ix2 i f) k = ix2 k f := funext fun a => by
    match a with
    | ⟨0, _⟩ => rfl
    | ⟨1, _⟩ => rfl
  rw [hl, hr]
  rfl

/-! ## One layer's stages after its product -/

/-- The stages of a layer after its product `t`, over an arbitrary source column, destination column, weight vector
    and bias: at `(v, f)` they leave `max (agg t v f + b f) 0`. -/
private theorem layer_read (t : FVec Ideal S100000x128 .f32) (scol dcol : IVec S1700000x1 32)
    (nrm : FVec Ideal S1700000 .f32) (b : FVec Ideal S128 .f32) :
    maximumf
        (addf
          (Host.scatterAdd scatter_S100000x128_S1700000x1_S1700000x128_1_0_0_1 (val_main_v41 (F := Ideal)) dcol
            (mulf (Host.gather gather_S100000x128_S1700000x1_S1700000x128_1_0_n_n_0_1_1128 t scol)
              (broadcastInDim S1700000x128 ![0, 1] bcast_S1700000x1_S1700000x128_0_1
                (broadcastInDim S1700000x1 ![0] bcast_S1700000_S1700000x1_0 nrm))))
          (val_main_v45 (F := Ideal) b))
        (val_main_call1_v0 (F := Ideal))
      = arr2 fun v f =>
          max (agg (mat t) (rowOf (N := 100000) (by decide) scol) (wordOf dcol) (vec nrm) v f + vec b f) 0 := by
  have hagg :
      Host.scatterAdd scatter_S100000x128_S1700000x1_S1700000x128_1_0_0_1 (val_main_v41 (F := Ideal)) dcol
          (mulf (Host.gather gather_S100000x128_S1700000x1_S1700000x128_1_0_n_n_0_1_1128 t scol)
            (broadcastInDim S1700000x128 ![0, 1] bcast_S1700000x1_S1700000x128_0_1
              (broadcastInDim S1700000x1 ![0] bcast_S1700000_S1700000x1_0 nrm)))
        = arr2 (agg (mat t) (rowOf (N := 100000) (by decide) scol) (wordOf dcol) (vec nrm)) :=
    Cert.Reads.agg_read (N := 100000) (E := 1700000) (D := 128) (by decide)
      gather_S100000x128_S1700000x1_S1700000x128_1_0_n_n_0_1_1128 rfl rfl rfl rfl rfl
      scatter_S100000x128_S1700000x1_S1700000x128_1_0_0_1 rfl rfl rfl rfl
      bcast_S_S100000x128 bcast_S1700000_S1700000x1_0 bcast_S1700000x1_S1700000x128_0_1 t scol dcol nrm
  rw [hagg]
  funext j
  obtain ⟨v, f, rfl⟩ : ∃ (v : Fin 100000) (f : Fin 128), j = ix2 v f := ⟨j 0, j 1, eq_ix2 j⟩
  rw [maximumf_apply, addf_apply, arr2_apply, arr2_apply, val_main_v45_apply, val_main_v44_apply,
    val_main_call1_v0_apply, val_main_call1_cst_apply, Ideal.ofBits_def, Ideal.ofBits_zero_f32]
  have hb : idx_main_v44 (idx_main_v45 (ix2 v f)) = ix1 f := funext fun a => by
    match a with
    | ⟨0, _⟩ => rfl
  rw [hb]
  rfl

/-- The same stages at the graph's own columns and weights, the product being `h · W`: one layer, transforming
    first. -/
private theorem layer_of_product {Di : Nat} (t : FVec Ideal S100000x128 .f32) (x1 : IVec S2x1600000 32)
    (b : FVec Ideal S128 .f32) (h : Fin 100000 → Fin Di → EReal) (W : Fin Di → Fin 128 → EReal)
    (ht : t = arr2 (mm h W)) :
    maximumf
        (addf
          (Host.scatterAdd scatter_S100000x128_S1700000x1_S1700000x128_1_0_0_1 (val_main_v41 (F := Ideal))
            (val_main_v42 (F := Ideal) x1)
            (mulf
              (Host.gather gather_S100000x128_S1700000x1_S1700000x128_1_0_n_n_0_1_1128 t (val_main_v36 (F := Ideal) x1))
              (val_main_v39 (F := Ideal) x1)))
          (val_main_v45 (F := Ideal) b))
        (val_main_call1_v0 (F := Ideal))
      = arr2 (layerTA h W (vec b) (srcRow x1) (dstWord x1) (weight x1)) := by
  subst ht
  exact layer_read (arr2 (mm h W)) (val_main_v36 (F := Ideal) x1) (val_main_v42 (F := Ideal) x1)
    (val_main_v29 (F := Ideal) x1) b

/-! ## The three layers -/

/-- The first layer. -/
private theorem layer1 (x0 : FVec Ideal S100000x3 .f32) (x1 : IVec S2x1600000 32) (x3 : FVec Ideal S3x128 .f32)
    (x4 : FVec Ideal S128 .f32) :
    val_main_v47 (F := Ideal) x0 x1 x3 x4
      = arr2 (layerTA (mat x0) (mat x3) (vec x4) (srcRow x1) (dstWord x1) (weight x1)) :=
  layer_of_product (val_main_v30 (F := Ideal) x0 x3) x1 x4 (mat x0) (mat x3) (v30_read x0 x3)

/-- The second layer, over the first layer's output. -/
private theorem layer2 (x0 : FVec Ideal S100000x3 .f32) (x1 : IVec S2x1600000 32) (x3 : FVec Ideal S3x128 .f32)
    (x4 : FVec Ideal S128 .f32) (x5 : FVec Ideal S128x128 .f32) (x6 : FVec Ideal S128 .f32) :
    val_main_v65 (F := Ideal) x0 x1 x3 x4 x5 x6
      = arr2 (layerTA (mat (val_main_v47 (F := Ideal) x0 x1 x3 x4)) (mat x5) (vec x6)
          (srcRow x1) (dstWord x1) (weight x1)) :=
  layer_of_product (val_main_v48 (F := Ideal) x0 x1 x3 x4 x5) x1 x6 (mat (val_main_v47 (F := Ideal) x0 x1 x3 x4))
    (mat x5) (v48_read x0 x1 x3 x4 x5)

/-- The third layer, over the second layer's output. -/
private theorem layer3 (x0 : FVec Ideal S100000x3 .f32) (x1 : IVec S2x1600000 32) (x3 : FVec Ideal S3x128 .f32)
    (x4 : FVec Ideal S128 .f32) (x5 : FVec Ideal S128x128 .f32) (x6 : FVec Ideal S128 .f32)
    (x7 : FVec Ideal S128x128 .f32) (x8 : FVec Ideal S128 .f32) :
    val_main_v83 (F := Ideal) x0 x1 x3 x4 x5 x6 x7 x8
      = arr2 (layerTA (mat (val_main_v65 (F := Ideal) x0 x1 x3 x4 x5 x6)) (mat x7) (vec x8)
          (srcRow x1) (dstWord x1) (weight x1)) :=
  layer_of_product (val_main_v66 (F := Ideal) x0 x1 x3 x4 x5 x6 x7) x1 x8
    (mat (val_main_v65 (F := Ideal) x0 x1 x3 x4 x5 x6)) (mat x7) (v66_read x0 x1 x3 x4 x5 x6 x7)

/-! ## The head -/

/-- The per-graph sums of the last layer's rows. -/
private theorem v86_read (x0 : FVec Ideal S100000x3 .f32) (x1 : IVec S2x1600000 32) (x2 : IVec S100000 32)
    (x3 : FVec Ideal S3x128 .f32) (x4 : FVec Ideal S128 .f32) (x5 : FVec Ideal S128x128 .f32)
    (x6 : FVec Ideal S128 .f32) (x7 : FVec Ideal S128x128 .f32) (x8 : FVec Ideal S128 .f32) :
    val_main_v86 (F := Ideal) x0 x1 x2 x3 x4 x5 x6 x7 x8
      = arr2 (segSum (mat (val_main_v83 (F := Ideal) x0 x1 x3 x4 x5 x6 x7 x8)) (graphWord x2)) :=
  Cert.Reads.segSum_read (N := 100000) (G := 512) (D := 128) scatter_S512x128_S100000x1_S100000x128_1_0_0_1
    rfl rfl rfl rfl bcast_S_S512x128 (val_main_v83 (F := Ideal) x0 x1 x3 x4 x5 x6 x7 x8) (val_main_v85 (F := Ideal) x2)

/-- The per-graph counts. -/
private theorem v90_read (x2 : IVec S100000 32) (g : Fin 512) :
    val_main_v90 (F := Ideal) x2 (ix1 g) = segCount unit (graphWord x2) g :=
  Cert.Reads.segCount_read (N := 100000) (G := 512) scatter_S512_S100000x1_S100000_n_0_0_1 rfl rfl rfl rfl
    bcast_S_S512 bcast_S_S100000 (val_main_v89 (F := Ideal) x2) g

/-- The head over the last layer's output: the mean rows through the last matrix, plus its bias. -/
private theorem head_read (x0 : FVec Ideal S100000x3 .f32) (x1 : IVec S2x1600000 32) (x2 : IVec S100000 32)
    (x3 : FVec Ideal S3x128 .f32) (x4 : FVec Ideal S128 .f32) (x5 : FVec Ideal S128x128 .f32)
    (x6 : FVec Ideal S128 .f32) (x7 : FVec Ideal S128x128 .f32) (x8 : FVec Ideal S128 .f32)
    (x9 : FVec Ideal S128x2 .f32) (x10 : FVec Ideal S2 .f32) :
    val_main_v99 (F := Ideal) x0 x1 x2 x3 x4 x5 x6 x7 x8 x9 x10
      = arr2 (head unit (segSum (mat (val_main_v83 (F := Ideal) x0 x1 x3 x4 x5 x6 x7 x8)) (graphWord x2))
          (segCount unit (graphWord x2)) (mat x9) (vec x10)) := by
  funext j
  obtain ⟨g, o, rfl⟩ : ∃ (g : Fin 512) (o : Fin 2), j = ix2 g o := ⟨j 0, j 1, eq_ix2 j⟩
  rw [val_main_v99_apply, val_main_v98_apply, val_main_v97_apply, val_main_v96_apply, Ideal.addf_def, arr2_apply]
  have hb : idx_main_v97 (idx_main_v98 (ix2 g o)) = ix1 o := funext fun a => by
    match a with
    | ⟨0, _⟩ => rfl
  rw [hb]
  show _ = (∑ k : Fin 128,
      Ideal.div (segSum (mat (val_main_v83 (F := Ideal) x0 x1 x3 x4 x5 x6 x7 x8)) (graphWord x2) g k)
          (max (segCount unit (graphWord x2) g) unit) * mat x9 k o) + x10 (ix1 o)
  refine congrArg (fun s : EReal => s + x10 (ix1 o)) (Finset.sum_congr rfl fun k _ => ?_)
  have hl : lidx_main_v96 (ix2 g o) k = ix2 g k := funext fun a => by
    match a with
    | ⟨0, _⟩ => rfl
    | ⟨1, _⟩ => rfl
  have hr : ridx_main_v96 (ix2 g o) k = ix2 k o := funext fun a => by
    match a with
    | ⟨0, _⟩ => rfl
    | ⟨1, _⟩ => rfl
  have hc : idx_main_v93 (idx_main_v94 (ix2 g k)) = ix1 g := funext fun a => by
    match a with
    | ⟨0, _⟩ => rfl
  rw [hl, hr, val_main_v95_apply, Ideal.hostDivf_def, v86_read, arr2_apply, val_main_v94_apply, val_main_v93_apply,
    val_main_v92_apply, Ideal.maximumf_def, val_main_v91_apply, val_main_cst_18_apply, Ideal.ofBits_def, hc, v90_read]
  rfl

/-! ## The network -/

/-- The reference's last stage, as a function of the eleven arguments, is `netTA` of them. -/
theorem result (x0 : FVec Ideal S100000x3 .f32) (x1 : IVec S2x1600000 32) (x2 : IVec S100000 32)
    (x3 : FVec Ideal S3x128 .f32) (x4 : FVec Ideal S128 .f32) (x5 : FVec Ideal S128x128 .f32) (x6 : FVec Ideal S128 .f32)
    (x7 : FVec Ideal S128x128 .f32) (x8 : FVec Ideal S128 .f32) (x9 : FVec Ideal S128x2 .f32) (x10 : FVec Ideal S2 .f32) :
    val_main_v99 (F := Ideal) x0 x1 x2 x3 x4 x5 x6 x7 x8 x9 x10
      = arr2 (netTA unit (mat x0) (mat x3) (vec x4) (mat x5) (vec x6) (mat x7) (vec x8) (mat x9) (vec x10)
          (srcRow x1) (dstWord x1) (weight x1) (graphWord x2)) := by
  rw [head_read, layer3, mat_arr2, layer2, mat_arr2, layer1, mat_arr2]
  rfl

end Cert.RefValue

end
-- ==== Proof.Swap.lean ====
/-
  The two arrangements of a layer agree on finite data.

  Over the reals the aggregate of the products is the product of the aggregate:
  `∑ k, (∑ e → v, h[r e, k] · n e) · W[k, f] = ∑ e → v, (∑ k, h[r e, k] · W[k, f]) · n e`, by distributing and exchanging
  the two finite sums. On the extended reals the distributive law fails at the infinities, so the statement asks
  that the features, the weights of the edges and the matrix hold real numbers; every sum is then the image of a
  real sum, and the real identity carries over. A layer of real data is real again (a clamp of a real sum), so
  the hypothesis passes from layer to layer.
-/
import proofs.«126862_j35218731827641_1_alg».proof.Proof.Spec

noncomputable section

open scoped BigOperators

namespace Cert.Spec

variable {N E : Nat}

/-- An extended real that is a real number. -/
def IsReal (x : EReal) : Prop := ∃ y : ℝ, x = (y : EReal)

theorem isReal_coe (y : ℝ) : IsReal (y : EReal) := ⟨y, rfl⟩

theorem isReal_zero : IsReal (0 : EReal) := ⟨0, rfl⟩

/-- The larger of two reals is one of them. -/
theorem isReal_max {x y : EReal} (hx : IsReal x) (hy : IsReal y) : IsReal (max x y) := by
  rcases le_total x y with h | h
  · rw [max_eq_right h]; exact hy
  · rw [max_eq_left h]; exact hx

/-- The image of a finite real sum is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The aggregate of real rows under real weights is the image of the real aggregate. -/
theorem agg_coe {D : Nat} (h : Fin N → Fin D → ℝ) (r : Fin E → Fin N) (d : Fin E → ℤ) (n : Fin E → ℝ)
    (v : Fin N) (k : Fin D) :
    agg (fun i k' => (h i k' : EReal)) r d (fun e => (n e : EReal)) v k
      = ((∑ e : Fin E, if d e = (v.val : ℤ) then h (r e) k * n e else 0 : ℝ) : EReal) := by
  unfold agg
  rw [coe_sum]
  refine Finset.sum_congr rfl fun e _ => ?_
  by_cases hc : d e = (v.val : ℤ)
  · rw [if_pos hc, if_pos hc, EReal.coe_mul]
  · rw [if_neg hc, if_neg hc, EReal.coe_zero]

/-- The product of real matrices is the image of the real product. -/
theorem mm_coe {A Di Do : Nat} (h : Fin A → Fin Di → ℝ) (W : Fin Di → Fin Do → ℝ) (i : Fin A) (f : Fin Do) :
    mm (fun i k => (h i k : EReal)) (fun k f' => (W k f' : EReal)) i f = ((∑ k : Fin Di, h i k * W k f : ℝ) : EReal) := by
  unfold mm
  rw [coe_sum]
  exact Finset.sum_congr rfl fun k _ => (EReal.coe_mul _ _).symm

/-- THE EXCHANGE, over the reals: distribute the matrix entry into the edge sum, exchange the two sums, and collect
    the edge's weight out of the sum over `k`. -/
theorem real_exchange {Di Do : Nat} (h : Fin N → Fin Di → ℝ) (W : Fin Di → Fin Do → ℝ) (r : Fin E → Fin N)
    (d : Fin E → ℤ) (n : Fin E → ℝ) (v : Fin N) (f : Fin Do) :
    (∑ k : Fin Di, (∑ e : Fin E, if d e = (v.val : ℤ) then h (r e) k * n e else 0) * W k f)
      = ∑ e : Fin E, if d e = (v.val : ℤ) then (∑ k : Fin Di, h (r e) k * W k f) * n e else 0 := by
  simp_rw [Finset.sum_mul]
  rw [Finset.sum_comm]
  refine Finset.sum_congr rfl fun e _ => ?_
  by_cases hc : d e = (v.val : ℤ)
  · simp only [if_pos hc]
    exact Finset.sum_congr rfl fun k _ => by ring
  · simp only [if_neg hc, zero_mul, Finset.sum_const_zero]

/-- THE EXCHANGE, on the extended reals at real data: the product of the aggregate is the aggregate of the product. -/
theorem mm_agg_eq_agg_mm {Di Do : Nat} (h : Fin N → Fin Di → EReal) (W : Fin Di → Fin Do → EReal)
    (r : Fin E → Fin N) (d : Fin E → ℤ) (n : Fin E → EReal)
    (hh : ∀ i k, IsReal (h i k)) (hW : ∀ k f, IsReal (W k f)) (hn : ∀ e, IsReal (n e)) (v : Fin N) (f : Fin Do) :
    mm (agg h r d n) W v f = agg (mm h W) r d n v f := by
  choose h' hh' using hh
  choose W' hW' using hW
  choose n' hn' using hn
  obtain rfl : h = fun i k => (h' i k : EReal) := funext fun i => funext fun k => hh' i k
  obtain rfl : W = fun k f => (W' k f : EReal) := funext fun k => funext fun f => hW' k f
  obtain rfl : n = fun e => (n' e : EReal) := funext fun e => hn' e
  have hl : agg (fun i k => (h' i k : EReal)) r d (fun e => (n' e : EReal))
      = fun v k => (((∑ e : Fin E, if d e = (v.val : ℤ) then h' (r e) k * n' e else 0 : ℝ)) : EReal) :=
    funext fun v => funext fun k => agg_coe h' r d n' v k
  have hr : mm (fun i k => (h' i k : EReal)) (fun k f => (W' k f : EReal))
      = fun i f => ((∑ k : Fin Di, h' i k * W' k f : ℝ) : EReal) :=
    funext fun i => funext fun f => mm_coe h' W' i f
  rw [hl, hr, mm_coe, agg_coe, real_exchange]

/-- The two arrangements of a layer agree at real features, weights and matrix (the bias may be anything). -/
theorem layerAT_eq_layerTA {Di Do : Nat} (h : Fin N → Fin Di → EReal) (W : Fin Di → Fin Do → EReal) (b : Fin Do → EReal)
    (r : Fin E → Fin N) (d : Fin E → ℤ) (n : Fin E → EReal)
    (hh : ∀ i k, IsReal (h i k)) (hW : ∀ k f, IsReal (W k f)) (hn : ∀ e, IsReal (n e)) :
    layerAT h W b r d n = layerTA h W b r d n := by
  funext v f
  unfold layerAT layerTA
  rw [mm_agg_eq_agg_mm h W r d n hh hW hn]

/-- A layer of real data is real: a clamp at zero of a real sum plus a real bias. -/
theorem layerTA_isReal {Di Do : Nat} (h : Fin N → Fin Di → EReal) (W : Fin Di → Fin Do → EReal) (b : Fin Do → EReal)
    (r : Fin E → Fin N) (d : Fin E → ℤ) (n : Fin E → EReal)
    (hh : ∀ i k, IsReal (h i k)) (hW : ∀ k f, IsReal (W k f)) (hb : ∀ f, IsReal (b f)) (hn : ∀ e, IsReal (n e))
    (v : Fin N) (f : Fin Do) : IsReal (layerTA h W b r d n v f) := by
  choose h' hh' using hh
  choose W' hW' using hW
  choose b' hb' using hb
  choose n' hn' using hn
  obtain rfl : h = fun i k => (h' i k : EReal) := funext fun i => funext fun k => hh' i k
  obtain rfl : W = fun k f => (W' k f : EReal) := funext fun k => funext fun f => hW' k f
  obtain rfl : n = fun e => (n' e : EReal) := funext fun e => hn' e
  have hr : mm (fun i k => (h' i k : EReal)) (fun k f => (W' k f : EReal))
      = fun i f => ((∑ k : Fin Di, h' i k * W' k f : ℝ) : EReal) :=
    funext fun i => funext fun f => mm_coe h' W' i f
  unfold layerTA
  rw [hr, agg_coe, hb' f, ← EReal.coe_add]
  exact isReal_max (isReal_coe _) isReal_zero

/-- THE NETWORK BOTH WAYS: with real features, matrices of the three layers, biases of the first two and edge
    weights, aggregating first and transforming first give the same result. The head is the same function of the
    last layer's rows on both sides. -/
theorem netAT_eq_netTA {D0 D1 D2 D3 G O : Nat} (u : EReal) (x : Fin N → Fin D0 → EReal)
    (W1 : Fin D0 → Fin D1 → EReal) (b1 : Fin D1 → EReal) (W2 : Fin D1 → Fin D2 → EReal) (b2 : Fin D2 → EReal)
    (W3 : Fin D2 → Fin D3 → EReal) (b3 : Fin D3 → EReal) (Wfc : Fin D3 → Fin O → EReal) (bfc : Fin O → EReal)
    (r : Fin E → Fin N) (d : Fin E → ℤ) (n : Fin E → EReal) (s : Fin N → ℤ)
    (hx : ∀ i k, IsReal (x i k)) (hW1 : ∀ k f, IsReal (W1 k f)) (hb1 : ∀ f, IsReal (b1 f))
    (hW2 : ∀ k f, IsReal (W2 k f)) (hb2 : ∀ f, IsReal (b2 f)) (hW3 : ∀ k f, IsReal (W3 k f))
    (hn : ∀ e, IsReal (n e)) :
    (netAT u x W1 b1 W2 b2 W3 b3 Wfc bfc r d n s : Fin G → Fin O → EReal)
      = netTA u x W1 b1 W2 b2 W3 b3 Wfc bfc r d n s := by
  unfold netAT netTA
  have e1 := layerAT_eq_layerTA x W1 b1 r d n hx hW1 hn
  have r1 := layerTA_isReal x W1 b1 r d n hx hW1 hb1 hn
  rw [e1]
  have e2 := layerAT_eq_layerTA (layerTA x W1 b1 r d n) W2 b2 r d n r1 hW2 hn
  have r2 := layerTA_isReal (layerTA x W1 b1 r d n) W2 b2 r d n r1 hW2 hb2 hn
  rw [e2]
  rw [layerAT_eq_layerTA (layerTA (layerTA x W1 b1 r d n) W2 b2 r d n) W3 b3 r d n r2 hW3 hn]

end Cert.Spec

end
-- ==== Proof.WeightReal.lean ====
/-
  Every edge weight is a real number.

  The weight of an edge is the product of two entries of `dinv`, and an entry of `dinv` is `1 / sqrt deg` where the
  degree is positive and `0` elsewhere. A degree is a count of edges, a nonnegative real; where it is positive its
  inverse square root is a real, so every entry of `dinv` is real, whichever entries the two gathers read.
-/
import proofs.«126862_j35218731827641_1_alg».proof.Proof.Shared
import proofs.«126862_j35218731827641_1_alg».proof.Proof.Swap
import proofs.«126862_j35218731827641_1_alg».proof.Proof.LibVecScatter
import Idealize.ShloMosaic.PureOps.Ideal.Laws
import Idealize.ShloMosaic.Lib.IdealHost

noncomputable section

open scoped BigOperators

namespace Cert.WeightReal

open Cert.ReferenceIdeal Cert.ReferenceIdeal.ReadP Cert.Glue Cert.Spec Cert.Shared Idealize.ShloMosaic

/-- The sum of two reals is a real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two reals is a real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (hf a (Finset.mem_insert_self a s)) (ih fun i hi => hf i (Finset.mem_insert_of_mem hi))

/-- A comparison "above" that came out `1` holds. -/
theorem lt_of_cmp_ogt {a b : EReal} (h : Ideal.cmp .ogt a b = 1#1) : b < a := by
  by_contra hn
  have h0 : Ideal.cmp .ogt a b = 0#1 := by simp [Ideal.cmp, hn]
  exact absurd (h.symm.trans h0) (by decide)

/-- The inverse square root of a positive real is a real. -/
theorem rsqrt_isReal_of_pos {r : ℝ} (h : (0 : EReal) < (r : EReal)) : IsReal (Ideal.rsqrt (r : EReal)) := by
  have hr : 0 < r := EReal.coe_pos.mp h
  rw [Ideal.rsqrt_coe, if_neg (not_lt.mpr hr.le), if_neg hr.ne']
  exact isReal_coe _

/-- A degree is a real: zero plus, over the edges, a one for each edge whose destination word names the node. -/
theorem deg_isReal (x1 : IVec S2x1600000 32) (i : S100000.Idx) : IsReal (val_main_v10 (F := Ideal) x1 i) := by
  obtain ⟨v, rfl⟩ : ∃ v, i = ValueIdx.ix1 v := ⟨i 0, ValueIdx.eq_ix1 i⟩
  unfold val_main_v10
  rw [Cert.LibVecScatter.vecScatterAdd_apply _ rfl rfl rfl rfl]
  refine isReal_add ?_ (isReal_sum _ _ fun e _ => ?_)
  · rw [val_main_v8_apply, val_main_cst_0_apply]
    show IsReal (Ideal.ofBits .f32 0x00000000#32)
    rw [Ideal.ofBits_zero_f32]
    exact isReal_zero
  · split_ifs
    · rw [val_main_v7_apply, val_main_cst_apply]
      show IsReal (Ideal.ofBits .f32 0x3F800000#32)
      rw [Ideal.ofBits_one_f32]
      exact ⟨1, EReal.coe_one.symm⟩
    · exact isReal_zero

/-- Every entry of `dinv` is a real: where the degree is above zero it is the inverse square root of a positive
    real, elsewhere it is the constant zero. -/
theorem dinv_isReal (x1 : IVec S2x1600000 32) (i : S100000.Idx) : IsReal (val_main_v14 (F := Ideal) x1 i) := by
  rw [val_main_v14_apply]
  by_cases hb : val_main_v12 (F := Ideal) x1 i = 1#1
  · rw [hb, ValueIdx.select_one, val_main_v13_apply]
    rw [val_main_v12_apply, val_main_v11_apply, val_main_cst_1_apply] at hb
    obtain ⟨r, hr⟩ := deg_isReal x1 i
    rw [hr] at hb ⊢
    have hpos : (0 : EReal) < (r : EReal) := by
      have h := lt_of_cmp_ogt (a := (r : EReal)) (b := Ideal.ofBits .f32 0x00000000#32) hb
      rwa [Ideal.ofBits_zero_f32] at h
    exact rsqrt_isReal_of_pos hpos
  · rw [ValueIdx.eq_zero_of_ne_one hb, ValueIdx.select_zero, val_main_call0_v1_apply, val_main_call0_v0_apply,
      val_main_cst_2_apply]
    show IsReal (Ideal.ofBits .f32 0x00000000#32)
    rw [Ideal.ofBits_zero_f32]
    exact isReal_zero

/-- Whatever entry of `dinv` a gather reads, it reads a real. -/
theorem gather_dinv_isReal (x1 : IVec S2x1600000 32) (idx : IVec S1700000x1 32) (j : S1700000.Idx) :
    IsReal (Host.gather gather_S100000_S1700000x1_S1700000_n_0_n_n_0_1_1 (val_main_v14 (F := Ideal) x1) idx j) :=
  dinv_isReal x1 _

/-- Every edge weight is real. -/
theorem weight_isReal (x1 : IVec S2x1600000 32) (e : Fin 1700000) : IsReal (weight x1 e) := by
  show IsReal (val_main_v29 (F := Ideal) x1 (ValueIdx.ix1 e))
  rw [val_main_v29_apply]
  exact isReal_mul (gather_dinv_isReal x1 _ _) (gather_dinv_isReal x1 _ _)

end Cert.WeightReal

end
-- ==== Proof.Finite.lean ====
/-
  The precondition makes the float arguments real.

  The precondition is the conjunction, over the nine float arguments, of "every entry's absolute value is below
  +inf". An extended real whose absolute value is below +inf is neither infinity, hence a real number. Only the
  arguments the exchange of the layers needs are read out: the features, the three layers' matrices and the first
  two biases.
-/
import proofs.«126862_j35218731827641_1_alg».proof.Pre_finite_inputs
import proofs.«126862_j35218731827641_1_alg».proof.Proof.Glue
import proofs.«126862_j35218731827641_1_alg».proof.Proof.Swap
import Idealize.ShloMosaic.Lib.ReduceAll
import Idealize.ShloMosaic.Lib.IdealHost
import Idealize.ShloMosaic.PureOps.Ideal.Laws

noncomputable section

open scoped BigOperators

namespace Cert.Finite

open Cert.Pre_finite_inputs Cert.Glue Cert.Spec Idealize.ShloMosaic

/-- The scalar shape has one index. -/
instance : Subsingleton S_.Idx := ⟨fun _ _ => funext fun d => d.elim0⟩

/-- The word `0x7F800000` denotes `+∞`. -/
theorem ofBits_inf : Ideal.ofBits .f32 0x7F800000#32 = ⊤ := by simp [Ideal.ofBits, Ideal.ieee]

/-- An extended real whose absolute value `max x (-x)` is below `+∞` is a real number: at `+∞` the maximum is `x`
    itself, at `-∞` it is `-x = +∞`. -/
theorem isReal_of_abs_lt_top (x : EReal) (h : max x (-x) < ⊤) : IsReal x := by
  induction x using EReal.rec with
  | bot => exact absurd h (by simp)
  | top => exact absurd h (by simp)
  | coe r => exact ⟨r, rfl⟩

/-- A comparison "below" that came out `1` holds. -/
theorem lt_of_cmp_olt {a b : EReal} (h : Ideal.cmp .olt a b = 1#1) : a < b := by
  by_contra hn
  have h0 : Ideal.cmp .olt a b = 0#1 := by simp [Ideal.cmp, hn]
  exact absurd (h.symm.trans h0) (by decide)

/-- The conjunction over all entries read back: if the conjunction over all entries of "the absolute value is below `+∞`" is
    `1`, every entry of `x` is a real number. Any shape, any list of reduced axes that leaves the scalar shape. -/
theorem isReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
        (cmpf .olt (Host.absf x) (broadcastInDim s ![] hb (constant (F := Ideal) S_ .f32 0x7F800000#32))) init hr hu
        ValueIdx.ix0 = 1#1)
    (i : s.Idx) : IsReal (x i) := by
  have e := Host.reduce_andi_all _ init hr hu ValueIdx.ix0 h i
  rw [ValueIdx.cmpf_apply, ValueIdx.broadcastInDim_scalar_apply, ValueIdx.constant_apply, ofBits_inf] at e
  exact isReal_of_abs_lt_top (x i) (lt_of_cmp_olt e)

variable [Cert.Pre_finite_inputs.Facts]

/-- Under the precondition the features, the layers' matrices and the first two biases hold real numbers. -/
theorem of_pre (x0 : FVec Ideal S100000x3 .f32) (x1 : IVec S2x1600000 32) (x2 : IVec S100000 32)
    (x3 : FVec Ideal S3x128 .f32) (x4 : FVec Ideal S128 .f32) (x5 : FVec Ideal S128x128 .f32) (x6 : FVec Ideal S128 .f32)
    (x7 : FVec Ideal S128x128 .f32) (x8 : FVec Ideal S128 .f32) (x9 : FVec Ideal S128x2 .f32) (x10 : FVec Ideal S2 .f32)
    (h : Cert.Pre_finite_inputs.fn (F := Ideal) x0 x1 x2 x3 x4 x5 x6 x7 x8 x9 x10 = fun _ => 1#1) :
    (∀ i k, IsReal (mat x0 i k)) ∧ (∀ k f, IsReal (mat x3 k f)) ∧ (∀ f, IsReal (vec x4 f))
      ∧ (∀ k f, IsReal (mat x5 k f)) ∧ (∀ f, IsReal (vec x6 f)) ∧ (∀ k f, IsReal (mat x7 k f)) := by
  -- the predicate at its one index is a conjunction of nine words, nested to the left; peel them from the right
  have hA := congrFun h ValueIdx.ix0
  dsimp only [fn, fn_part1, fn_part2, andi] at hA
  obtain ⟨hA, -⟩ := IntOp.andi_eq_one.1 hA
  obtain ⟨hA, -⟩ := IntOp.andi_eq_one.1 hA
  obtain ⟨hA, -⟩ := IntOp.andi_eq_one.1 hA
  obtain ⟨hA, h7⟩ := IntOp.andi_eq_one.1 hA
  obtain ⟨hA, h6⟩ := IntOp.andi_eq_one.1 hA
  obtain ⟨hA, h5⟩ := IntOp.andi_eq_one.1 hA
  obtain ⟨hA, h4⟩ := IntOp.andi_eq_one.1 hA
  obtain ⟨h0, h3⟩ := IntOp.andi_eq_one.1 hA
  exact ⟨fun i k => isReal_of_all x0 _ _ _ _ h0 (ValueIdx.ix2 i k),
    fun k f => isReal_of_all x3 _ _ _ _ h3 (ValueIdx.ix2 k f),
    fun f => isReal_of_all x4 _ _ _ _ h4 (ValueIdx.ix1 f),
    fun k f => isReal_of_all x5 _ _ _ _ h5 (ValueIdx.ix2 k f),
    fun f => isReal_of_all x6 _ _ _ _ h6 (ValueIdx.ix1 f),
    fun k f => isReal_of_all x7 _ _ _ _ h7 (ValueIdx.ix2 k f)⟩

end Cert.Finite

end
-- ==== Proof.lean ====
/-
  The certificate of a three-layer graph convolution with a mean-pool head against its jnp reference.

  THE TWO PROGRAMS. Both build, from the edge list with the self loops appended, the symmetric normalization: the
  degree of a node counts the edges that land on it, `dinv` is its inverse square root where the degree is positive,
  and the weight of an edge is the product of `dinv` at its two ends. A layer maps node features `h` to
  `max (Â h W + b) 0`, where `Â` gathers the rows the edges read, scales them by the edge weights and adds them at the
  edges' destinations. The kernel program computes `Â h` on the host and then `(Â h) W` in a tiled region; the
  reference computes `h W` first and applies `Â` to the product. After three layers both sum the rows per graph,
  divide by the clamped node counts and apply the head's matrix and bias; the kernel does that last step in one
  more region.

  THE LAW. `(Â h) W = Â (h W)`: matrix multiplication distributes over the weighted sum of rows. On the extended
  reals the distributive law needs real numbers, so the proof reads out of the precondition that the features, the
  layers' matrices and the first two biases are real, shows that every edge weight is real (a degree is a count, and
  the inverse square root is taken only where it is positive) and that a layer of real data is real, and exchanges
  the two arrangements layer by layer.

  THE PARTS. The kernel program's run is the launch over its segments with the result buffer named; its result is
  walked forward through the fold and read as the network aggregating first. The reference's run is its operations'
  composed term, read stage by stage as the network transforming first. The frames of the two kernel programs are
  the launch's; the reference's frame is its run with the result dropped; the idealization rewrote nothing.
-/
import proofs.«126862_j35218731827641_1_alg».proof.Defs
import proofs.«126862_j35218731827641_1_alg».proof.Proof.Gen.Kernel
import proofs.«126862_j35218731827641_1_alg».proof.Proof.Gen.Kernel.Frame
import proofs.«126862_j35218731827641_1_alg».proof.Proof.Gen.KernelIdeal
import proofs.«126862_j35218731827641_1_alg».proof.Proof.Gen.KernelIdeal.Frame
import proofs.«126862_j35218731827641_1_alg».proof.Proof.Gen.ReferenceIdeal
import proofs.«126862_j35218731827641_1_alg».proof.Proof.Gen.Pre_finite_inputs
import proofs.«126862_j35218731827641_1_alg».proof.Proof.KRun
import proofs.«126862_j35218731827641_1_alg».proof.Proof.KChain
import proofs.«126862_j35218731827641_1_alg».proof.Proof.RefRun
import proofs.«126862_j35218731827641_1_alg».proof.Proof.RefRead
import proofs.«126862_j35218731827641_1_alg».proof.Proof.RefValue
import proofs.«126862_j35218731827641_1_alg».proof.Proof.Swap
import proofs.«126862_j35218731827641_1_alg».proof.Proof.WeightReal
import proofs.«126862_j35218731827641_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program's frame: the launch over its segments. -/
theorem frame_kernel : Cert.frame_Kernel := fun m ρ _ => Cert.Kernel.Gen.frame m ρ

/-- The idealized kernel program's frame: the same launch read at the ideal instance. -/
theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end at one result: the kernel's is the network
    aggregating first, the reference's the network transforming first, and under the precondition the two are one
    function. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v84),
    Cert.KernelIdeal.Named.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  obtain ⟨r0, r3, r4, r5, r6, r7⟩ := Cert.Finite.of_pre _ _ _ _ _ _ _ _ _ _ _ (hpre c)
  rw [Cert.ReferenceIdeal.ReadP.val_main_v99_eq, e0, e1, e2, e3, e4, e5, e6, e7, e8, e9, e10, Cert.RefValue.result]
  refine Eq.trans ?_ (Cert.KernelIdeal.Chain.result m ρ c).symm
  exact congrArg Cert.Glue.arr2
    (Cert.Spec.netAT_eq_netTA _ _ _ _ _ _ _ _ _ _ _ _ _ _ r0 r3 r4 r5 r6 r7 (Cert.WeightReal.weight_isReal _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
